-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S16x10 .f32) (main_arg12 : FVec F S10 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x10 .f32 := Host.absf main_arg11
  let main_cst_20 : FVec F S_ .f32 := constant S_ .f32 0x7F800000#32
  let main_v55 : FVec F S16x10 .f32 := broadcastInDim S16x10 ![] bcast_S_S16x10 main_cst_20
  let main_v56 : IVec S16x10 1 := cmpf .olt main_v54 main_v55
  let main_c_21 : IVec S_ 1 := constantI S_ 1 1#1
  let main_v57 : IVec S_ 1 := (fun x v => Host.reduce IntOp.andi x v reducesTo_S16x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S128x64 .f32) (main_arg8 : FVec F S64 .f32) (main_arg9 : FVec F S64x16 .f32) (main_arg10 : FVec F S16 .f32) (main_arg11 : FVec F S16x10 .f32) (main_arg12 : FVec F S10 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x16 .f32 := Host.absf main_arg9
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x64 .f32) (main_arg8 : FVec F S64 .f32) (main_arg9 : FVec F S64x16 .f32) (main_arg10 : FVec F S16 .f32) (main_arg11 : FVec F S16x10 .f32) (main_arg12 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x16 .f32) (main_arg10 : FVec F S16 .f32) (main_arg11 : FVec F S16x10 .f32) (main_arg12 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x10 : Shape := ⟨2, ![16, 10]⟩
abbrev S10 : Shape := ⟨1, ![10]⟩
abbrev S1x128 : Shape := ⟨2, ![1, 128]⟩
abbrev S5000x128 : Shape := ⟨2, ![5000, 128]⟩
abbrev S200x10000 : Shape := ⟨2, ![200, 10000]⟩
abbrev S200x128 : Shape := ⟨2, ![200, 128]⟩
abbrev S1x64 : Shape := ⟨2, ![1, 64]⟩
abbrev S1x16 : Shape := ⟨2, ![1, 16]⟩
abbrev S1x10 : Shape := ⟨2, ![1, 10]⟩
abbrev S5000x10 : Shape := ⟨2, ![5000, 10]⟩
abbrev S200x10 : Shape := ⟨2, ![200, 10]⟩
abbrev S200x64 : Shape := ⟨2, ![200, 64]⟩
abbrev S200x16 : Shape := ⟨2, ![200, 16]⟩
abbrev S10000x10 : Shape := ⟨2, ![10000, 10]⟩

abbrev nBuf : Space → Nat
  | .hbm => 23
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S16x10, .f32⟩
  | .hbm, ⟨12, _⟩ => ⟨S10, .f32⟩
  | .hbm, ⟨13, _⟩ => ⟨S1x128, .f32⟩
  | .hbm, ⟨14, _⟩ => ⟨S5000x128, .f32⟩
  | .hbm, ⟨15, _⟩ => ⟨S5000x128, .f32⟩
  | .hbm, ⟨16, _⟩ => ⟨S1x128, .f32⟩
  | .hbm, ⟨17, _⟩ => ⟨S1x64, .f32⟩
  | .hbm, ⟨18, _⟩ => ⟨S1x16, .f32⟩
  | .hbm, ⟨19, _⟩ => ⟨S1x10, .f32⟩
  | .hbm, ⟨20, _⟩ => ⟨S5000x10, .f32⟩
  | .hbm, ⟨21, _⟩ => ⟨S5000x10, .f32⟩
  | .hbm, ⟨22, _⟩ => ⟨S10000x10, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S200x128, .f32⟩
  | .local _ .vmem, ⟨9, _⟩ => ⟨S200x128, .f32⟩
  | .local _ .vmem, ⟨10, _⟩ => ⟨S200x128, .f32⟩
  | .local _ .vmem, ⟨11, _⟩ => ⟨S200x128, .f32⟩
  | .local _ .vmem, ⟨12, _⟩ => ⟨S200x10000, .f32⟩
  | .local _ .vmem, ⟨13, _⟩ => ⟨S200x10000, .f32⟩
  | .local _ .vmem, ⟨14, _⟩ => ⟨S200x10000, .f32⟩
  | .local _ .vmem, ⟨15, _⟩ => ⟨S200x10000, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S128x64, .f32⟩
  | .local _ .vmem, ⟨20, _⟩ => ⟨S1x64, .f32⟩
  | .local _ .vmem, ⟨21, _⟩ => ⟨S64x16, .f32⟩
  | .local _ .vmem, ⟨22, _⟩ => ⟨S1x16, .f32⟩
  | .local _ .vmem, ⟨23, _⟩ => ⟨S16x10, .f32⟩
  | .local _ .vmem, ⟨24, _⟩ => ⟨S1x10, .f32⟩
  | .local _ .vmem, ⟨25, _⟩ => ⟨S200x10, .f32⟩
  | .local _ .vmem, ⟨26, _⟩ => ⟨S200x10, .f32⟩
  | .local _ .vmem, ⟨27, _⟩ => ⟨S200x10, .f32⟩
  | .local _ .vmem, ⟨28, _⟩ => ⟨S200x10, .f32⟩
  | .local _ .vmem, ⟨29, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg11_1 : Ref sig .tc := ⟨.vmem, 26, rfl⟩
abbrev cc1_stg12_0 : Ref sig .tc := ⟨.vmem, 27, rfl⟩
abbrev cc1_stg12_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem11_1 : DmaSem sig := 26
abbrev cc1_sem12_0 : DmaSem sig := 27
abbrev cc1_sem12_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S200x10 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S200x10 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  shapeCasts_S64_S1x64 : S64.ShapeCasts S1x64
  shapeCasts_S16_S1x16 : S16.ShapeCasts S1x16
  shapeCasts_S10_S1x10 : S10.ShapeCasts S1x10
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S10000x128_S5000x128_0_0 : ∀ a, (![0, 0] : Fin 2 → Nat) a + S5000x128.size a ≤ S10000x128.size a
  inb_S10000x128_S5000x128_5000_0 : ∀ a, (![5000, 0] : Fin 2 → Nat) a + S5000x128.size a ≤ S10000x128.size a
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x64_S200x64 : S1x64.Broadcasts S200x64
  broadcasts_S1x16_S200x16 : S1x16.Broadcasts S200x16
  broadcasts_S1x10_S200x10 : S1x10.Broadcasts S200x10
  inb_S200x10_S200x10_0_0 : ∀ a, (![0, 0] : Fin 2 → Nat) a + S200x10.size a ≤ S200x10.size a
  h_S200x10 : 0 < S200x10.numel
  concatenates_S5000x10_S5000x10_S10000x10_d0 : Shape.Concatenates [S5000x10, S5000x10] S10000x10 0
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S200x128_S128x64_S200x64_1_0_0_1_n_n_wf : DotDims.WF S200x128 S128x64 S200x64 [1] [0] [0] [1] [] []
  dot_S200x64_S64x16_S200x16_1_0_0_1_n_n_wf : DotDims.WF S200x64 S64x16 S200x16 [1] [0] [0] [1] [] []
  dot_S200x16_S16x10_S200x10_1_0_0_1_n_n_wf : DotDims.WF S200x16 S16x10 S200x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S5000x128.size a
  hwx0_6 : ∀ i : grid0.Coords, EltTy.bits .f32 = 32 ∨ (Rect.block (s := S5000x128) S200x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x128.size a ≤ S5000x128.size a
  hwx0_7 : ∀ i : grid0.Coords, EltTy.bits .f32 = 32 ∨ (Rect.block (s := S5000x128) S200x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S5000x128.size a
  hwx1_2 : ∀ i : grid1.Coords, EltTy.bits .f32 = 32 ∨ (Rect.block (s := S5000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S5000x128.size a
  hwx1_3 : ∀ i : grid1.Coords, EltTy.bits .f32 = 32 ∨ (Rect.block (s := S5000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x16.size a ≤ S64x16.size a
  hwx1_7 : ∀ i : grid1.Coords, EltTy.bits .f32 = 32 ∨ (Rect.block (s := S64x16) S64x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S16x10.size a ≤ S16x10.size a
  hwx1_9 : ∀ i : grid1.Coords, EltTy.bits .f32 = 32 ∨ (Rect.block (s := S16x10) S16x10.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x10.size a ≤ S1x10.size a
  hwx1_10 : ∀ i : grid1.Coords, EltTy.bits .f32 = 32 ∨ (Rect.block (s := S1x10) S1x10.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S200x10.size a ≤ S5000x10.size a
  hwx1_11 : ∀ i : grid1.Coords, EltTy.bits .f32 = 32 ∨ (Rect.block (s := S5000x10) S200x10.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S200x10.size a ≤ S5000x10.size a
  hwx1_12 : ∀ i : grid1.Coords, EltTy.bits .f32 = 32 ∨ (Rect.block (s := S5000x10) S200x10.size (cc1_transform_12 i) (hinb1_12 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x64_S64x16_S200x16_1_0_0_1_n_n : DotDims S200x64 S64x16 S200x16 where
  lhsContracting := [1]
  rhsContracting := [0]
  lhsNonContracting := [0]
  rhsNonContracting := [1]
  lhsBatch := []
  rhsBatch := []
  wf := dot_S200x64_S64x16_S200x16_1_0_0_1_n_n_wf
def dot_S200x16_S16x10_S200x10_1_0_0_1_n_n : DotDims S200x16 S16x10 S200x10 where
  lhsContracting := [1]
  rhsContracting := [0]
  lhsNonContracting := [0]
  rhsNonContracting := [1]
  lhsBatch := []
  rhsBatch := []
  wf := dot_S200x16_S16x10_S200x10_1_0_0_1_n_n_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S200x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S5000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S5000x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S16x10.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v5) S1x10.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v6_0) S200x10.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v6_1) S200x10.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x10 : Shape := ⟨2, ![16, 10]⟩
abbrev S10 : Shape := ⟨1, ![10]⟩
abbrev S1x128 : Shape := ⟨2, ![1, 128]⟩
abbrev S10000x64 : Shape := ⟨2, ![10000, 64]⟩
abbrev S1x64 : Shape := ⟨2, ![1, 64]⟩
abbrev S10000x16 : Shape := ⟨2, ![10000, 16]⟩
abbrev S1x16 : Shape := ⟨2, ![1, 16]⟩
abbrev S10000x10 : Shape := ⟨2, ![10000, 10]⟩
abbrev S1x10 : Shape := ⟨2, ![1, 10]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S16x10, .f32⟩
  | .hbm, ⟨12, _⟩ => ⟨S10, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x64, .f32⟩
  | .hbm, ⟨26, _⟩ => ⟨S1x64, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S10000x16, .f32⟩
  | .hbm, ⟨31, _⟩ => ⟨S1x16, .f32⟩
  | .hbm, ⟨32, _⟩ => ⟨S10000x16, .f32⟩
  | .hbm, ⟨33, _⟩ => ⟨S10000x16, .f32⟩
  | .hbm, ⟨34, _⟩ => ⟨S10000x16, .f32⟩
  | .hbm, ⟨35, _⟩ => ⟨S10000x10, .f32⟩
  | .hbm, ⟨36, _⟩ => ⟨S1x10, .f32⟩
  | .hbm, ⟨37, _⟩ => ⟨S10000x10, .f32⟩
  | .hbm, ⟨38, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x64_S64x16_S10000x16_1_0_0_1_n_n_wf : DotDims.WF S10000x64 S64x16 S10000x16 [1] [0] [0] [1] [] []
  dot_S10000x16_S16x10_S10000x10_1_0_0_1_n_n_wf : DotDims.WF S10000x16 S16x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x16_S16x10_S10000x10_1_0_0_1_n_n : DotDims S10000x16 S16x10 S10000x10 where
  lhsContracting := [1]
  rhsContracting := [0]
  lhsNonContracting := [0]
  rhsNonContracting := [1]
  lhsBatch := []
  rhsBatch := []
  wf := dot_S10000x16_S16x10_S10000x10_1_0_0_1_n_n_wf

class Facts : Prop extends Facts₀ where

variable [Facts]
-- ==== Proof.BitsStage1.lean ====
/-
  Stage one of the idealized kernel (the first pallas_call), on one core, at the buffer contents `V` the region is
  entered from. Grid point `t` (25 of them) is handed rows `200 t … 200 t + 199` of the gene adjacency through window 0
  and rows `5000 + 200 t …` through window 1 (one array, two windows), and the whole of `x`, `W_s`, the bias row and
  `W_f` through windows 2–5, fetched once. It leaves in each output window's block
      tanh ((rows · x) · W_s + b_s) · W_f
  of its own 200 rows: `halfBlock`, the kernel's stored value laid over the block. Nothing is kept from point to
  point, so the region's invariant is the untouched rest of the core's scoped memory.
-/
import proofs.«110692_g7576322310719_cont_9to1c4b_828_13_alg».proof.Proof.Gen.Kernel.Launch
import proofs.«110692_g7576322310719_cont_9to1c4b_828_13_alg».proof.Proof.Gen.Kernel.Skeleton
import proofs.«110692_g7576322310719_cont_9to1c4b_828_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes: each is a whole staging buffer -/

abbrev rRows : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rOut : Rect S200x128 := Rect.unit (s := S200x128) ![0, 0] S200x128.size inb_S200x128_S200x128_0_0

/-! ## What the body leaves in an output block -/

/-- The first output's block after the body: `tanh ((rows · x) · W_s + b_s) · W_f` of the 200 rows handed through window 0,
    stored over the whole block. -/
def halfBlockA (g : Vec F S200x10000 .f32) (x : Vec F S10000x128 .f32) (ws : Vec F S128x128 .f32) (bs : Vec F S1x128 .f32)
    (wf : Vec F S128x128 .f32) : Vec F S200x128 .f32 :=
  View.canon [⟨rOut, k0_pay1 (View.ld g rRows) (View.ld x rX) (View.ld ws rW) (View.ld bs rB) (View.ld wf rW)⟩]

/-- The second output's block: the same function of the rows handed through window 1. -/
def halfBlockB (g : Vec F S200x10000 .f32) (x : Vec F S10000x128 .f32) (ws : Vec F S128x128 .f32) (bs : Vec F S1x128 .f32)
    (wf : Vec F S128x128 .f32) : Vec F S200x128 .f32 :=
  View.canon [⟨rOut, k0_pay2 (View.ld g rRows) (View.ld x rX) (View.ld ws rW) (View.ld bs rB) (View.ld wf rW)⟩]

/-- One store of the whole block covers it. -/
theorem coverOut (p0 : Vec F S200x128 .f32) (y : S200x128.Idx) :
    ∃ pc ∈ ([⟨rOut, p0⟩] : List (View.Piece (Elt F) S200x128 .f32)), y ∈ pc.1.set :=
  View.cover_of_tiled [⟨rOut, p0⟩] S200x128.size (by rfl) y

/-! ## The body's triple -/

set_option maxHeartbeats 4000000 in
/-- The body on whole staging memrefs: the six inputs at read contents, the two outputs at anything; it hands the
    inputs back as they were and each output at its `halfBlock`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S200x128 .f32) (harg7 : arg7.IsWhole) (arg8 : Memref sig .tc .vmem S200x128 .f32) (harg8 : arg8.IsWhole)
    (ga gb : Vec F S200x10000 .f32) (x : Vec F S10000x128 .f32) (ws : Vec F S128x128 .f32) (bs : Vec F S1x128 .f32) (wf : Vec F S128x128 .f32)
    (K : PUnit → sProp 𝕄) :
    iprop(owns (c : Thread nD τ) arg1 fullShare ga ∗ owns (c : Thread nD τ) arg2 fullShare gb ∗ owns (c : Thread nD τ) arg3 fullShare x
        ∗ owns (c : Thread nD τ) arg4 fullShare ws ∗ owns (c : Thread nD τ) arg5 fullShare bs ∗ owns (c : Thread nD τ) arg6 fullShare wf
        ∗ (∃ d, owns (c : Thread nD τ) arg7 fullShare d) ∗ (∃ d, owns (c : Thread nD τ) arg8 fullShare d)
        ∗ (iprop(owns (c : Thread nD τ) arg1 fullShare ga ∗ owns (c : Thread nD τ) arg2 fullShare gb ∗ owns (c : Thread nD τ) arg3 fullShare x
            ∗ owns (c : Thread nD τ) arg4 fullShare ws ∗ owns (c : Thread nD τ) arg5 fullShare bs ∗ owns (c : Thread nD τ) arg6 fullShare wf
            ∗ owns (c : Thread nD τ) arg7 fullShare (halfBlockA ga x ws bs wf) ∗ owns (c : Thread nD τ) arg8 fullShare (halfBlockB gb x ws bs wf)) -∗ K ⟨⟩))
      ⊢ wp frame (wpE (defs₀ (F := F)) Variants.none c none) E (cc0__stage1_dual i arg1 harg1 arg2 harg2 arg3 harg3 arg4 harg4 arg5 harg5 arg6 harg6 arg7 harg7 arg8 harg8) K := by
  simp only [cc0__stage1_dual_eq_skeleton]; unfold cc0__stage1_dual_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverOut _)
  iexists _; isplitr
  swap; · iexact H8
  ipureintro
  exact View.read_writes_eq_canon _ _ _ (coverOut _)

end Cert.Kernel.Stage1

end
-- ==== Proof.BitsStage1Data.lean ====
/-
  Stage one's proof data on one core, at the contents `V` the region is entered from: every input window's buffer holds
  its block at every point (fetched there or kept from the point before), each output window's buffer is left at the
  stored `halfBlock` of the point's input blocks; the two windows on the gene adjacency each hold half of that array's
  share. From these the body's obligation at every grid point.
-/
import proofs.«110692_g7576322310719_cont_9to1c4b_828_13_alg».proof.Proof.BitsStage1

set_option maxRecDepth 16384

noncomputable section

namespace Cert.Kernel.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: arrays as found; inputs left in place; outputs at the stored blocks; nothing kept between points. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => halfBlockA (iblk V c 0 t) (iblk V c 2 t) (iblk V c 3 t) (iblk V c 4 t) (iblk V c 5 t)
    | ⟨7, _⟩ => halfBlockB (iblk V c 1 t) (iblk V c 2 t) (iblk V c 3 t) (iblk V c 4 t) (iblk V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) :
    (dat V c).after 6 t = halfBlockA (iblk V c 0 t) (iblk V c 2 t) (iblk V c 3 t) (iblk V c 4 t) (iblk V c 5 t) := by dsimp only [dat]
theorem after_7 (c : Dev nD) (t : Fin cfg0.N) :
    (dat V c).after 7 t = halfBlockB (iblk V c 1 t) (iblk V c 2 t) (iblk V c 3 t) (iblk V c 4 t) (iblk V c 5 t) := by dsimp only [dat]

/-- An input window's buffer holds its block at every point, whether the pipeline fetched it there or it stayed from the
    point before (its block index did not move). -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 2000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dat (F := F) V c) (defs₀ (F := F)) Variants.none () Set.univ := fun t => by
  rw [bigSep_W0, bigSep_W0]
  exact sound_body V c t

end Cert.Kernel.Stage1

end
-- ==== Proof.BitsStage2.lean ====
/-
  Stage two of the idealized kernel (the second pallas_call), on one core. Grid point `t` is handed rows `200 t …` of
  the sample adjacency through window 0 and rows `5000 + 200 t …` through window 1, the two halves of the hidden array
  and the dense layers' weights and bias rows through windows 2–10 (fetched once), and keeps the WHOLE hidden array in
  a scratch buffer of its own: at the first point it copies the two halves there (`hiddenWhole`), at every point it
  reads the scratch back and leaves in each output block
      tanh (tanh (tanh (rows · hf + b_f) · W1 + b1) · W2 + b2) · W3 + b3
  of its own 200 rows (`outBlockA`, `outBlockB`). So the body has two control cases: the first point, from a scratch
  holding anything, and a later point, from a scratch holding what it reads.
-/
import proofs.«110692_g7576322310719_cont_9to1c4b_828_13_alg».proof.Proof.Gen.Kernel.Launch
import proofs.«110692_g7576322310719_cont_9to1c4b_828_13_alg».proof.Proof.Gen.Kernel.Skeleton
import proofs.«110692_g7576322310719_cont_9to1c4b_828_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes -/

abbrev rRows : Rect S200x10000 := Rect.unit (s := S200x10000) ![0, 0] S200x10000.size inb_S200x10000_S200x10000_0_0
abbrev rHalf : Rect S5000x128 := Rect.unit (s := S5000x128) ![0, 0] S5000x128.size inb_S5000x128_S5000x128_0_0
abbrev rAll : Rect S10000x128 := Rect.unit (s := S10000x128) ![0, 0] S10000x128.size inb_S10000x128_S10000x128_0_0
/-- The scratch's upper half of rows, -/
abbrev rLo : Rect S10000x128 := Rect.unit (s := S10000x128) ![0, 0] S5000x128.size inb_S10000x128_S5000x128_0_0
/-- and its lower half. -/
abbrev rHi : Rect S10000x128 := Rect.unit (s := S10000x128) ![5000, 0] S5000x128.size inb_S10000x128_S5000x128_5000_0
abbrev rB128 : Rect S1x128 := Rect.unit (s := S1x128) ![0, 0] S1x128.size inb_S1x128_S1x128_0_0
abbrev rW1 : Rect S128x64 := Rect.unit (s := S128x64) ![0, 0] S128x64.size inb_S128x64_S128x64_0_0
abbrev rB64 : Rect S1x64 := Rect.unit (s := S1x64) ![0, 0] S1x64.size inb_S1x64_S1x64_0_0
abbrev rW2 : Rect S64x16 := Rect.unit (s := S64x16) ![0, 0] S64x16.size inb_S64x16_S64x16_0_0
abbrev rB16 : Rect S1x16 := Rect.unit (s := S1x16) ![0, 0] S1x16.size inb_S1x16_S1x16_0_0
abbrev rW3 : Rect S16x10 := Rect.unit (s := S16x10) ![0, 0] S16x10.size inb_S16x10_S16x10_0_0
abbrev rB10 : Rect S1x10 := Rect.unit (s := S1x10) ![0, 0] S1x10.size inb_S1x10_S1x10_0_0
abbrev rOut : Rect S200x10 := Rect.unit (s := S200x10) ![0, 0] S200x10.size inb_S200x10_S200x10_0_0

/-! ## What the body leaves -/

/-- The scratch after the first point: the first half of the hidden array over rows 0–4999, the second over rows 5000–9999. -/
def hiddenWhole (hfa hfb : Vec F S5000x128 .f32) : Vec F S10000x128 .f32 :=
  View.canon [⟨rHi, k1_pay3 (View.ld hfb rHalf)⟩, ⟨rLo, k1_pay2 (View.ld hfa rHalf)⟩]

/-- The first output's block: the four layers over the 200 rows handed through window 0 and the hidden array `hf`. -/
def outBlockA (hf : Vec F S10000x128 .f32) (a : Vec F S200x10000 .f32) (bf : Vec F S1x128 .f32) (w1 : Vec F S128x64 .f32) (b1 : Vec F S1x64 .f32)
    (w2 : Vec F S64x16 .f32) (b2 : Vec F S1x16 .f32) (w3 : Vec F S16x10 .f32) (b3 : Vec F S1x10 .f32) : Vec F S200x10 .f32 :=
  View.canon [⟨rOut, k1_pay4 (View.ld hf rAll) (View.ld a rRows) (View.ld bf rB128) (View.ld w1 rW1) (View.ld b1 rB64) (View.ld w2 rW2) (View.ld b2 rB16) (View.ld w3 rW3) (View.ld b3 rB10)⟩]

/-- The second output's block: the same over the rows handed through window 1. -/
def outBlockB (hf : Vec F S10000x128 .f32) (a : Vec F S200x10000 .f32) (bf : Vec F S1x128 .f32) (w1 : Vec F S128x64 .f32) (b1 : Vec F S1x64 .f32)
    (w2 : Vec F S64x16 .f32) (b2 : Vec F S1x16 .f32) (w3 : Vec F S16x10 .f32) (b3 : Vec F S1x10 .f32) : Vec F S200x10 .f32 :=
  View.canon [⟨rOut, k1_pay1 (View.ld hf rAll) (View.ld a rRows) (View.ld bf rB128) (View.ld w1 rW1) (View.ld b1 rB64) (View.ld w2 rW2) (View.ld b2 rB16) (View.ld w3 rW3) (View.ld b3 rB10)⟩]

theorem coverOut (p0 : Vec F S200x10 .f32) (y : S200x10.Idx) :
    ∃ pc ∈ ([⟨rOut, p0⟩] : List (View.Piece (Elt F) S200x10 .f32)), y ∈ pc.1.set :=
  View.cover_of_tiled [⟨rOut, p0⟩] S200x10.size (by rfl) y

/-- The two half stores tile the scratch. -/
theorem coverScratch (p0 p1 : Vec F S5000x128 .f32) (y : S10000x128.Idx) :
    ∃ pc ∈ ([⟨rHi, p0⟩, ⟨rLo, p1⟩] : List (View.Piece (Elt F) S10000x128 .f32)), y ∈ pc.1.set :=
  View.cover_of_tiledL [⟨rHi, p0⟩, ⟨rLo, p1⟩] S5000x128.size (by sl_kernel_rfl) y

/-! ## The branch condition -/

/-- The body's one `scf.if`: "this is grid point 0". -/
abbrev condFirst (i : grid1.Coords) : Prop := (Scalar.cmpi .ne (Scalar.extui (Scalar.cmpi .eq (BitVec.ofNat 32 (i 0).val) 0#32)) 0#32) = 1#1
theorem hcondFirst : ∀ t : Fin cfg1.N, condFirst (grid1.coords t) ↔ t.val % 25 = 0 :=
  (by decide +kernel : ∀ t : Fin grid1.N, condFirst (grid1.coords t) ↔ t.val % 25 = 0)

/-! ## The body's triple at a later point: the scratch holds the hidden array it reads -/

set_option maxHeartbeats 8000000 in
theorem sound_later (c : Dev nD) (E : Set ℕ) (i : grid1.Coords) (hc : ¬condFirst i)
    (arg1 : Memref sig .tc .vmem S200x10000 .f32) (harg1 : arg1.IsWhole) (arg2 : Memref sig .tc .vmem S200x10000 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S64x16 .f32) (harg8 : arg8.IsWhole)
    (arg9 : Memref sig .tc .vmem S1x16 .f32) (harg9 : arg9.IsWhole) (arg10 : Memref sig .tc .vmem S16x10 .f32) (harg10 : arg10.IsWhole)
    (arg11 : Memref sig .tc .vmem S1x10 .f32) (harg11 : arg11.IsWhole) (arg12 : Memref sig .tc .vmem S200x10 .f32) (harg12 : arg12.IsWhole)
    (arg13 : Memref sig .tc .vmem S200x10 .f32) (harg13 : arg13.IsWhole) (arg14 : Memref sig .tc .vmem S10000x128 .f32) (harg14 : arg14.IsWhole)
    (aa ab : Vec F S200x10000 .f32) (hfa hfb : Vec F S5000x128 .f32) (bf : Vec F S1x128 .f32) (w1 : Vec F S128x64 .f32) (b1 : Vec F S1x64 .f32)
    (w2 : Vec F S64x16 .f32) (b2 : Vec F S1x16 .f32) (w3 : Vec F S16x10 .f32) (b3 : Vec F S1x10 .f32) (hf : Vec F S10000x128 .f32)
    (K : PUnit → sProp 𝕄) :
    iprop(owns (c : Thread nD τ) arg1 fullShare aa ∗ owns (c : Thread nD τ) arg2 fullShare ab ∗ owns (c : Thread nD τ) arg3 fullShare hfa
        ∗ owns (c : Thread nD τ) arg4 fullShare hfb ∗ owns (c : Thread nD τ) arg5 fullShare bf ∗ owns (c : Thread nD τ) arg6 fullShare w1
        ∗ owns (c : Thread nD τ) arg7 fullShare b1 ∗ owns (c : Thread nD τ) arg8 fullShare w2 ∗ owns (c : Thread nD τ) arg9 fullShare b2
        ∗ owns (c : Thread nD τ) arg10 fullShare w3 ∗ owns (c : Thread nD τ) arg11 fullShare b3
        ∗ (∃ d, owns (c : Thread nD τ) arg12 fullShare d) ∗ (∃ d, owns (c : Thread nD τ) arg13 fullShare d) ∗ owns (c : Thread nD τ) arg14 fullShare hf
        ∗ (iprop(owns (c : Thread nD τ) arg1 fullShare aa ∗ owns (c : Thread nD τ) arg2 fullShare ab ∗ owns (c : Thread nD τ) arg3 fullShare hfa
            ∗ owns (c : Thread nD τ) arg4 fullShare hfb ∗ owns (c : Thread nD τ) arg5 fullShare bf ∗ owns (c : Thread nD τ) arg6 fullShare w1
            ∗ owns (c : Thread nD τ) arg7 fullShare b1 ∗ owns (c : Thread nD τ) arg8 fullShare w2 ∗ owns (c : Thread nD τ) arg9 fullShare b2
            ∗ owns (c : Thread nD τ) arg10 fullShare w3 ∗ owns (c : Thread nD τ) arg11 fullShare b3
            ∗ owns (c : Thread nD τ) arg12 fullShare (outBlockA hf aa bf w1 b1 w2 b2 w3 b3) ∗ owns (c : Thread nD τ) arg13 fullShare (outBlockB hf ab bf w1 b1 w2 b2 w3 b3)
            ∗ owns (c : Thread nD τ) arg14 fullShare hf) -∗ K ⟨⟩))
      ⊢ wp frame (wpE (defs₀ (F := F)) Variants.none c none) E
          (cc1__stage2_dual i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__stage2_dual_eq_skeleton]; unfold cc1__stage2_dual_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, Hk⟩
  subst hf1 hf2 hf3 hf4 hf5 hf6 hf7 hf8 hf9 hf10 hf11 hf14
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverOut _)
  isplitl [H13]
  · iexists _; isplitr
    swap; · iexact H13
    ipureintro
    exact View.read_writes_eq_canon _ _ _ (coverOut _)
  iexists f14; isplitr; · ipureintro; rfl
  iexact H14

end Cert.Kernel.Stage2

end
-- ==== Proof.BitsStage2First.lean ====
/-
  Stage two's body at the FIRST grid point: whatever the scratch holds, the body first copies the two halves of the
  hidden array into it, and from then on runs as at any point with the scratch at `hiddenWhole` of the two halves.
-/
import proofs.«110692_g7576322310719_cont_9to1c4b_828_13_alg».proof.Proof.BitsStage2

set_option maxRecDepth 16384

noncomputable section

namespace Cert.Kernel.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
theorem sound_first (c : Dev nD) (E : Set ℕ) (i : grid1.Coords) (hc : condFirst i)
    (arg1 : Memref sig .tc .vmem S200x10000 .f32) (harg1 : arg1.IsWhole) (arg2 : Memref sig .tc .vmem S200x10000 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S64x16 .f32) (harg8 : arg8.IsWhole)
    (arg9 : Memref sig .tc .vmem S1x16 .f32) (harg9 : arg9.IsWhole) (arg10 : Memref sig .tc .vmem S16x10 .f32) (harg10 : arg10.IsWhole)
    (arg11 : Memref sig .tc .vmem S1x10 .f32) (harg11 : arg11.IsWhole) (arg12 : Memref sig .tc .vmem S200x10 .f32) (harg12 : arg12.IsWhole)
    (arg13 : Memref sig .tc .vmem S200x10 .f32) (harg13 : arg13.IsWhole) (arg14 : Memref sig .tc .vmem S10000x128 .f32) (harg14 : arg14.IsWhole)
    (aa ab : Vec F S200x10000 .f32) (hfa hfb : Vec F S5000x128 .f32) (bf : Vec F S1x128 .f32) (w1 : Vec F S128x64 .f32) (b1 : Vec F S1x64 .f32)
    (w2 : Vec F S64x16 .f32) (b2 : Vec F S1x16 .f32) (w3 : Vec F S16x10 .f32) (b3 : Vec F S1x10 .f32)
    (K : PUnit → sProp 𝕄) :
    iprop(owns (c : Thread nD τ) arg1 fullShare aa ∗ owns (c : Thread nD τ) arg2 fullShare ab ∗ owns (c : Thread nD τ) arg3 fullShare hfa
        ∗ owns (c : Thread nD τ) arg4 fullShare hfb ∗ owns (c : Thread nD τ) arg5 fullShare bf ∗ owns (c : Thread nD τ) arg6 fullShare w1
        ∗ owns (c : Thread nD τ) arg7 fullShare b1 ∗ owns (c : Thread nD τ) arg8 fullShare w2 ∗ owns (c : Thread nD τ) arg9 fullShare b2
        ∗ owns (c : Thread nD τ) arg10 fullShare w3 ∗ owns (c : Thread nD τ) arg11 fullShare b3
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare aa ∗ owns (c : Thread nD τ) arg2 fullShare ab ∗ owns (c : Thread nD τ) arg3 fullShare hfa
            ∗ owns (c : Thread nD τ) arg4 fullShare hfb ∗ owns (c : Thread nD τ) arg5 fullShare bf ∗ owns (c : Thread nD τ) arg6 fullShare w1
            ∗ owns (c : Thread nD τ) arg7 fullShare b1 ∗ owns (c : Thread nD τ) arg8 fullShare w2 ∗ owns (c : Thread nD τ) arg9 fullShare b2
            ∗ owns (c : Thread nD τ) arg10 fullShare w3 ∗ owns (c : Thread nD τ) arg11 fullShare b3
            ∗ owns (c : Thread nD τ) arg12 fullShare (outBlockA (hiddenWhole hfa hfb) aa bf w1 b1 w2 b2 w3 b3)
            ∗ owns (c : Thread nD τ) arg13 fullShare (outBlockB (hiddenWhole hfa hfb) ab bf w1 b1 w2 b2 w3 b3)
            ∗ owns (c : Thread nD τ) arg14 fullShare (hiddenWhole hfa hfb)) -∗ K ⟨⟩))
      ⊢ wp frame (wpE (defs₀ (F := F)) Variants.none c none) E
          (cc1__stage2_dual i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__stage2_dual_eq_skeleton]; unfold cc1__stage2_dual_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf1 hf2 hf3 hf4 hf5 hf6 hf7 hf8 hf9 hf10 hf11
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    rw [View.read_writes_eq_canon _ _ _ (coverOut _)]
    unfold outBlockA hiddenWhole
    dsimp only
    sl_unfold_run_names
    rw [View.readCov_eq_canon_ld _ _ rAll (coverScratch _ _)]
    rfl
  isplitl [H13]
  · iexists _; isplitr
    swap; · iexact H13
    ipureintro
    rw [View.read_writes_eq_canon _ _ _ (coverOut _)]
    unfold outBlockB hiddenWhole
    dsimp only
    sl_unfold_run_names
    rw [View.readCov_eq_canon_ld _ _ rAll (coverScratch _ _)]
    rfl
  iexists _; isplitr
  swap; · iexact H14
  ipureintro
  exact View.read_writes_eq_canon _ _ _ (coverScratch _ _)

end Cert.Kernel.Stage2

end
-- ==== Proof.BitsStage2Data.lean ====
/-
  Stage two's proof data on one core, at the contents `V` the region is entered from. Every input window's buffer holds
  its block at every point; the scratch holds anything before the first point and the whole hidden array
  (`hiddenAll`: the two halves as the region finds them, laid one over the other) after every point; each output
  block is left at the four layers of its 200 adjacency rows and that array. The two windows on the sample adjacency
  each hold half of that array's share. From these the body's obligation at every grid point, by the two control cases.
-/
import proofs.«110692_g7576322310719_cont_9to1c4b_828_13_alg».proof.Proof.BitsStage2First

set_option maxRecDepth 16384

noncomputable section

namespace Cert.Kernel.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid's first point. -/
abbrev t₀ : Fin cfg1.N := ⟨0, by decide⟩

/-- The whole hidden array the scratch holds from the first point on: the two halves as the first point reads them. -/
def hiddenAll (c : Dev nD) : Vec F S10000x128 .f32 := hiddenWhole (iblk V c 2 t₀) (iblk V c 3 t₀)

/-- The scratch operand: a whole scoped buffer of the kernel's own. -/
abbrev scM : Memref sig .tc .vmem S10000x128 .f32 := Memref.whole cc1_scratch0

/-- The core's scoped memory outside stage two's staging buffers — stage one's staging buffers, each at some
    contents, and the scratch in the state `Q` — beside the generator register at some state. -/
def PhiWith (c : Dev nD) (Q : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ Q) ∗ ∃ r, prngReg c r)

/-- The region's untouched invariant is that state with the scratch at anything. -/
theorem PhiA_eq (c : Dev nD) :
    (Pipeline.ΦA spec1 c : sProp 𝕄) = PhiWith c (iprop(∃ d, owns (c : Thread nD τ) scM fullShare d)) := by
  unfold Pipeline.ΦA PhiWith; rw [scopedRest1_eq]; simp only [scM, owns_whole]; try rfl

/-- The invariant before position `n`: before the first point the scratch holds anything, afterwards the whole hidden array. -/
def PhiS (c : Dev nD) (n : ℕ) : sProp 𝕄 :=
  if n = 0 then Pipeline.ΦA spec1 c else PhiWith c (owns (c : Thread nD τ) scM fullShare (hiddenAll V c))

theorem PhiS_zero (c : Dev nD) (n : ℕ) (h : n = 0) : PhiS V c n = PhiWith c (iprop(∃ d, owns (c : Thread nD τ) scM fullShare d)) := by
  unfold PhiS; rw [if_pos h, PhiA_eq]
theorem PhiS_pos (c : Dev nD) (n : ℕ) (h : n ≠ 0) : PhiS V c n = PhiWith c (owns (c : Thread nD τ) scM fullShare (hiddenAll V c)) := by
  unfold PhiS; rw [if_neg h]

/-- The proof data: arrays as found; inputs left in place; outputs at the stored blocks; the scratch carried in the invariant. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => outBlockA (hiddenAll V c) (iblk V c 0 t) (iblk V c 4 t) (iblk V c 5 t) (iblk V c 6 t) (iblk V c 7 t) (iblk V c 8 t) (iblk V c 9 t) (iblk V c 10 t)
    | ⟨12, _⟩ => outBlockB (hiddenAll V c) (iblk V c 1 t) (iblk V c 4 t) (iblk V c 5 t) (iblk V c 6 t) (iblk V c 7 t) (iblk V c 8 t) (iblk V c 9 t) (iblk V c 10 t)
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg1.W) : (dat V c).A w = V c (Pipeline.arrRef spec1 w) := by
  dsimp only [dat]

theorem Phi_castSucc (c : Dev nD) (t : Fin cfg1.N) : (dat V c).Φ t.castSucc = PhiS V c t.val := by
  dsimp only [dat]; simp only [Fin.coe_castSucc]
theorem Phi_succ (c : Dev nD) (t : Fin cfg1.N) : (dat V c).Φ t.succ = PhiS V c (t.val + 1) := by
  dsimp only [dat]; simp only [Fin.val_succ]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) :
    (dat V c).after 11 t = outBlockA (hiddenAll V c) (iblk V c 0 t) (iblk V c 4 t) (iblk V c 5 t) (iblk V c 6 t) (iblk V c 7 t) (iblk V c 8 t) (iblk V c 9 t) (iblk V c 10 t) := by dsimp only [dat]
theorem after_12 (c : Dev nD) (t : Fin cfg1.N) :
    (dat V c).after 12 t = outBlockB (hiddenAll V c) (iblk V c 1 t) (iblk V c 4 t) (iblk V c 5 t) (iblk V c 6 t) (iblk V c 7 t) (iblk V c 8 t) (iblk V c 9 t) (iblk V c 10 t) := by dsimp only [dat]

/-- An input window's buffer holds its block at every point, whether the pipeline fetched it there or it stayed from the
    point before (its block index did not move). -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg1.N) (d) : (dat V c).before 10 t d = iblk V c 10 t :=
  ((dat V c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t))

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10]
  rw [show (dat V c).owesAt () t.succ = (dat V c).owesAt () t.castSucc from rfl,
    Phi_castSucc, Phi_succ, PhiS_pos V c (t.val + 1) (Nat.succ_ne_zero _),
    after_0, after_1, after_2, after_3, after_4, after_5, after_6, after_7, after_8, after_9, after_10, after_11, after_12]
  by_cases hz : t.val = 0
  · have ht : t = t₀ := Fin.ext hz
    subst ht
    rw [PhiS_zero V c _ rfl]
    unfold PhiWith hiddenAll
    iintro ⟨⟨⟨S0, S1, S2, S3, S4, S5, S6, S7, S8, S9, S10, S11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_first c Set.univ (grid1.coords t₀) ((hcondFirst t₀).mpr rfl) _ _ _ _ _ _ _ _ _ _ _ _ _ _ _ _ _ _ _ _ _ _ _ _ _ _ _ _
      (iblk V c 0 t₀) (iblk V c 1 t₀) (iblk V c 2 t₀) (iblk V c 3 t₀) (iblk V c 4 t₀) (iblk V c 5 t₀) (iblk V c 6 t₀) (iblk V c 7 t₀) (iblk V c 8 t₀) (iblk V c 9 t₀) (iblk V c 10 t₀) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS]; · iexact HS
    iintro ⟨H0, H1, H2, H3, H4, H5, H6, H7, H8, H9, H10, H11, H12, HS⟩
    isplitl [S0 S1 S2 S3 S4 S5 S6 S7 S8 S9 S10 S11 HS Hg]
    · isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [PhiS_pos V c _ hz]
    unfold PhiWith
    iintro ⟨⟨⟨S0, S1, S2, S3, S4, S5, S6, S7, S8, S9, S10, S11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_later c Set.univ (grid1.coords t) (fun h => hz (by have := (hcondFirst t).mp h; have hN : t.val < 25 := lt_of_lt_of_eq t.isLt (show cfg1.N = 25 from N_1); omega)) _ _ _ _ _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (iblk V c 8 t) (iblk V c 9 t) (iblk V c 10 t) (hiddenAll V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS]; · iexact HS
    iintro ⟨H0, H1, H2, H3, H4, H5, H6, H7, H8, H9, H10, H11, H12, HS⟩
    isplitl [S0 S1 S2 S3 S4 S5 S6 S7 S8 S9 S10 S11 HS Hg]
    · isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body obligation at every point. -/
theorem body_obligation (c : Dev nD) : BodyObligation (dat (F := F) V c) (defs₀ (F := F)) Variants.none () Set.univ := fun t => by
  rw [bigSep_W1, bigSep_W1]
  exact sound_body V c t

end Cert.Kernel.Stage2

end
-- ==== Proof.BitsFold.lean ====
/-
  The buffer contents at each boundary of the kernel program's @main, on one core, from the launch memory `m`:
  after the first reshape (`Gen.V1`), after stage one (`W2`: its two outputs at what the pipeline's write-backs leave),
  after the four reshapes (`W3`), after stage two (`W4`), after the concatenation (`W5`); and each pallas_call's
  proof data at the contents its region is entered from. These are the contents the generated conditional frame
  (`Gen.frame_cond`) names `V2` … `V5` once its unknowns `outs` are what the regions really leave.
-/
import proofs.«110692_g7576322310719_cont_9to1c4b_828_13_alg».proof.Proof.BitsStage1Data
import proofs.«110692_g7576322310719_cont_9to1c4b_828_13_alg».proof.Proof.BitsStage2Data
import proofs.«110692_g7576322310719_cont_9to1c4b_828_13_alg».proof.Proof.Gen.Kernel.Regions

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- What stage one is entered from, read at the TensorCore's references. -/
abbrev E1 (c : Dev nD) (b : Ref sig .tc) : Buf (Elt F) ((c : Thread nD τ).loc b) := Gen.V1 m c b

/-- What stage one leaves in its two output arrays. -/
@[irreducible] def hidA (c : Dev nD) : Buf (Elt F) ((c : Thread nD τ).loc main_v1_0) := (Stage1.dat (E1 m) c).arrAt 6 cfg0.N
@[irreducible] def hidB (c : Dev nD) : Buf (Elt F) ((c : Thread nD τ).loc main_v1_1) := (Stage1.dat (E1 m) c).arrAt 7 cfg0.N

theorem hidA_def (c : Dev nD) : hidA m c = (Stage1.dat (E1 m) c).arrAt 6 cfg0.N := by unfold hidA; rfl
theorem hidB_def (c : Dev nD) : hidB m c = (Stage1.dat (E1 m) c).arrAt 7 cfg0.N := by unfold hidB; rfl

/-- The contents after stage one. -/
@[irreducible] def W2 (c : Dev nD) : Valuation τ sig (Elt F) :=
  Function.update (Function.update (Gen.V1 m c) main_v1_0 (hidA m c)) main_v1_1 (hidB m c)

/-- After stage one its two outputs hold what it leaves, and every other buffer what it held. -/
theorem W2_hidA (c : Dev nD) : W2 m c main_v1_0 = hidA m c := by
  unfold W2
  rw [Function.update_of_ne (StableHlo.devRef_ne_of_ne (by decide : (main_v1_0 : Ref sig .tc) ≠ main_v1_1)), Function.update_self]
theorem W2_hidB (c : Dev nD) : W2 m c main_v1_1 = hidB m c := by
  unfold W2
  rw [Function.update_self]
theorem W2_of_ne (c : Dev nD) (b : Ref sig .tc) (hA : b ≠ main_v1_0) (hB : b ≠ main_v1_1) : W2 m c b = Gen.V1 m c b := by
  unfold W2
  rw [Function.update_of_ne (StableHlo.devRef_ne_of_ne hB), Function.update_of_ne (StableHlo.devRef_ne_of_ne hA)]

/-- The contents after the four reshapes: what stage two is entered from. -/
abbrev W3 (c : Dev nD) : Valuation τ sig (Elt F) := StableHlo.after hostOps1 (W2 m c)
abbrev E3 (c : Dev nD) (b : Ref sig .tc) : Buf (Elt F) ((c : Thread nD τ).loc b) := W3 m c b

/-- What stage two leaves in its two output arrays. -/
@[irreducible] def outA (c : Dev nD) : Buf (Elt F) ((c : Thread nD τ).loc main_v6_0) := (Stage2.dat (E3 m) c).arrAt 11 cfg1.N
@[irreducible] def outB (c : Dev nD) : Buf (Elt F) ((c : Thread nD τ).loc main_v6_1) := (Stage2.dat (E3 m) c).arrAt 12 cfg1.N

theorem outA_def (c : Dev nD) : outA m c = (Stage2.dat (E3 m) c).arrAt 11 cfg1.N := by unfold outA; rfl
theorem outB_def (c : Dev nD) : outB m c = (Stage2.dat (E3 m) c).arrAt 12 cfg1.N := by unfold outB; rfl

/-- The contents after stage two. -/
@[irreducible] def W4 (c : Dev nD) : Valuation τ sig (Elt F) :=
  Function.update (Function.update (W3 m c) main_v6_0 (outA m c)) main_v6_1 (outB m c)

/-- After stage two its two outputs hold what it leaves, and every other buffer what it held. -/
theorem W4_outA (c : Dev nD) : W4 m c main_v6_0 = outA m c := by
  unfold W4
  rw [Function.update_of_ne (StableHlo.devRef_ne_of_ne (by decide : (main_v6_0 : Ref sig .tc) ≠ main_v6_1)), Function.update_self]
theorem W4_outB (c : Dev nD) : W4 m c main_v6_1 = outB m c := by
  unfold W4
  rw [Function.update_self]
theorem W4_of_ne (c : Dev nD) (b : Ref sig .tc) (hA : b ≠ main_v6_0) (hB : b ≠ main_v6_1) : W4 m c b = W3 m c b := by
  unfold W4
  rw [Function.update_of_ne (StableHlo.devRef_ne_of_ne hB), Function.update_of_ne (StableHlo.devRef_ne_of_ne hA)]

/-- The contents at the end. -/
abbrev W5 (c : Dev nD) : Valuation τ sig (Elt F) := StableHlo.after hostOps2 (W4 m c)

/-- The regions' results as the conditional frame's unknowns. -/
@[irreducible] def outs : Gen.Outs (F := F) := fun j r c => if j = 2 then W2 m c r else W4 m c r

theorem outs_two (r : Ref sig .tc) (c : Dev nD) : outs m 2 r c = W2 m c r := by
  unfold outs; exact if_pos rfl
theorem outs_four (r : Ref sig .tc) (c : Dev nD) : outs m 4 r c = W4 m c r := by
  unfold outs; exact if_neg (by decide)

theorem V2_eq (c : Dev nD) : Gen.V2 m (outs m) c = W2 m c := by
  unfold Gen.V2
  rw [outs_two, outs_two, W2_hidA, W2_hidB]
  unfold W2
  rfl

theorem V3_eq (c : Dev nD) : Gen.V3 m (outs m) c = W3 m c := by
  unfold Gen.V3; rw [V2_eq]

theorem V4_eq (c : Dev nD) : Gen.V4 m (outs m) c = W4 m c := by
  unfold Gen.V4
  rw [outs_four, outs_four, W4_outA, W4_outB, V3_eq]
  unfold W4
  rfl

theorem V5_eq (c : Dev nD) : Gen.V5 m (outs m) c = W5 m c := by
  unfold Gen.V5; rw [V4_eq]

/-- Every pipeline's proof data, each at its region's entry contents. -/
def pdats : (p : Fin 2) → (c : Dev nD) → Dat τ (Elt F) Unit ℕ (UR sig nD τ) ℕ (cfgs p) c
  | ⟨0, _⟩ => fun c => Stage1.dat (E1 m) c
  | ⟨1, _⟩ => fun c => Stage2.dat (E3 m) c

end Cert.Kernel.Launch

end
-- ==== Proof.BitsShare.lean ====
/-
  Two windows on one array. In each of the program's two pipelines, windows 0 and 1 read the same buffer, every other
  window a buffer of its own. The distinct buffers behind the windows' arrays, each held whole at the full share, are then
  the pipeline's windowed arrays: the shared buffer's full share is its left half, held by window 0, together with its
  right half, held by window 1, and every other buffer is held at the full share by its one window. Also: the unscoped
  buffers that are no window's array depend on a valuation only off the windows' arrays.
-/
import proofs.«110692_g7576322310719_cont_9to1c4b_828_13_alg».proof.Proof.Gen.Kernel.Launch
import Idealize.ShloMosaic.Rules.PointsTo
import Idealize.SL.RA.TreeShare

noncomputable section

namespace Cert.Kernel.Share

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

/-- A whole buffer at the full share is the same buffer at the two half shares. -/
theorem full_eq_halves (c : Dev nD) (V : (b : Ref sig .tc) → Buf (Elt F) ((c : Thread nD τ).loc b)) (b : Ref sig .tc) :
    (((c : Thread nD τ).loc b) ↦{fullShare} V b : sProp 𝕄)
      = iprop((((c : Thread nD τ).loc b) ↦{fullShare.left} V b) ∗ (((c : Thread nD τ).loc b) ↦{fullShare.right} V b)) :=
  have h := pointsTo_share (nD := nD) (τ := τ) (sig := sig) (Ix := Unit) (Val := Elt F) (Name := ℕ) (U := UR sig nD τ) (Lvl := ℕ)
    (ℓ := (c : Thread nD τ).loc b) (I := Finset.univ) (f := V b) (PosShare.mem_left_op_right fullShare)
  BI.equiv_iff.mp ⟨h.1, h.2⟩

/-- The distinct buffers behind custom_call 0's windows, listed in the windows' order. -/
theorem arrBufs0_eq (c : Dev nD) (V : (b : Ref sig .tc) → Buf (Elt F) ((c : Thread nD τ).loc b)) :
    (Pipeline.arrBufs spec0 c V : sProp 𝕄)
      = bigSepL [main_arg2, main_arg0, main_arg3, main_v0, main_arg5, main_v1_0, main_v1_1]
          (fun b => (((c : Thread nD τ).loc b) ↦{fullShare} V b : sProp 𝕄)) := by
  unfold Pipeline.arrBufs
  exact bigSep_eq_bigSepL_of_eq _ (by decide) (by decide) _

/-- One window's term of the pipeline's arrays: the buffer `b` behind its array, whole, at the window's share. -/
theorem win0_term (c : Dev nD) (q : PosShare TreeShare)
    (V : (b : Ref sig .tc) → Buf (Elt F) ((c : Thread nD τ).loc b))
    (Fw : (w : Fin cfg0.W) → Buf (Elt F) ((cfg0.win w).arr.view.loc (c.tc : Thread nD τ))) (hF : ∀ w, Fw w = V (Pipeline.arrRef spec0 w))
    (w : Fin cfg0.W) (b : Ref sig .tc) (hb : Pipeline.arrRef spec0 w = b) :
    ((cfg0.win w).arr.view.loc (c.tc : Thread nD τ) ↦[(cfg0.win w).arr.view.set]{q} Fw w : sProp 𝕄)
      = (((c : Thread nD τ).loc b) ↦{q} V b) := by
  subst hb
  rw [(arr_whole0 w).set_eq_univ, hF]

/-- The buffers behind custom_call 0's windows, each whole at the full share, are the pipeline's arrays: the one buffer
    behind windows 0 and 1 is held half by each, every other buffer wholly by its window. -/
theorem arrays0_eq (c : Dev nD) (dat : Dat τ (Elt F) Unit ℕ (UR sig nD τ) ℕ cfg0 c)
    (hs0 : dat.share 0 = fullShare.left) (hs1 : dat.share 1 = fullShare.right) (hs : ∀ w : Fin cfg0.W, 2 ≤ w.val → dat.share w = fullShare)
    (V : (b : Ref sig .tc) → Buf (Elt F) ((c : Thread nD τ).loc b))
    (Fw : (w : Fin cfg0.W) → Buf (Elt F) ((cfg0.win w).arr.view.loc (c.tc : Thread nD τ))) (hF : ∀ w, Fw w = V (Pipeline.arrRef spec0 w)) :
    (Pipeline.arrBufs spec0 c V : sProp 𝕄) = dat.arrays Fw := by
  rw [arrBufs0_eq]
  unfold Dat.arrays
  rw [Gen.bigSep_W0]
  rw [win0_term c _ V Fw hF 0 main_arg2 rfl,
    win0_term c _ V Fw hF 1 main_arg2 rfl,
    win0_term c _ V Fw hF 2 main_arg0 rfl,
    win0_term c _ V Fw hF 3 main_arg3 rfl,
    win0_term c _ V Fw hF 4 main_v0 rfl,
    win0_term c _ V Fw hF 5 main_arg5 rfl,
    win0_term c _ V Fw hF 6 main_v1_0 rfl,
    win0_term c _ V Fw hF 7 main_v1_1 rfl]
  rw [hs0, hs1, hs 2 (by decide), hs 3 (by decide), hs 4 (by decide), hs 5 (by decide), hs 6 (by decide), hs 7 (by decide)]
  simp only [bigSepL_cons_cons, bigSepL_singleton]
  rw [full_eq_halves c V main_arg2]
  exact BI.sep_assoc.antisymm BI.sep_assoc'

theorem arrays0_iff (c : Dev nD) (dat : Dat τ (Elt F) Unit ℕ (UR sig nD τ) ℕ cfg0 c)
    (hs0 : dat.share 0 = fullShare.left) (hs1 : dat.share 1 = fullShare.right) (hs : ∀ w : Fin cfg0.W, 2 ≤ w.val → dat.share w = fullShare)
    (V : (b : Ref sig .tc) → Buf (Elt F) ((c : Thread nD τ).loc b))
    (Fw : (w : Fin cfg0.W) → Buf (Elt F) ((cfg0.win w).arr.view.loc (c.tc : Thread nD τ))) (hF : ∀ w, Fw w = V (Pipeline.arrRef spec0 w)) :
    (Pipeline.arrBufs spec0 c V : sProp 𝕄) ⊣⊢ dat.arrays Fw := by
  rw [arrays0_eq c dat hs0 hs1 hs V Fw hF]

/-- The unscoped buffers that are no window's array of custom_call 0 depend on the contents only off the windows' arrays. -/
theorem unscopedRest0_congr (c : Dev nD) (V V' : (b : Ref sig .tc) → Buf (Elt F) ((c : Thread nD τ).loc b))
    (h : ∀ b, b ∉ Finset.univ.image (Pipeline.arrRef spec0) → V' b = V b) :
    (Pipeline.unscopedRest (Ix := Unit) (Name := ℕ) (U := UR sig nD τ) (Lvl := ℕ) spec0 c V' : sProp 𝕄) = Pipeline.unscopedRest spec0 c V := by
  unfold Pipeline.unscopedRest
  exact bigSep_congr fun b hb => by rw [h b (Finset.mem_sdiff.mp hb).2]

/-- The distinct buffers behind custom_call 1's windows, listed in the windows' order. -/
theorem arrBufs1_eq (c : Dev nD) (V : (b : Ref sig .tc) → Buf (Elt F) ((c : Thread nD τ).loc b)) :
    (Pipeline.arrBufs spec1 c V : sProp 𝕄)
      = bigSepL [main_arg1, main_v1_0, main_v1_1, main_v2, main_arg7, main_v3, main_arg9, main_v4, main_arg11, main_v5, main_v6_0, main_v6_1]
          (fun b => (((c : Thread nD τ).loc b) ↦{fullShare} V b : sProp 𝕄)) := by
  unfold Pipeline.arrBufs
  exact bigSep_eq_bigSepL_of_eq _ (by decide) (by decide) _

/-- One window's term of the pipeline's arrays: the buffer `b` behind its array, whole, at the window's share. -/
theorem win1_term (c : Dev nD) (q : PosShare TreeShare)
    (V : (b : Ref sig .tc) → Buf (Elt F) ((c : Thread nD τ).loc b))
    (Fw : (w : Fin cfg1.W) → Buf (Elt F) ((cfg1.win w).arr.view.loc (c.tc : Thread nD τ))) (hF : ∀ w, Fw w = V (Pipeline.arrRef spec1 w))
    (w : Fin cfg1.W) (b : Ref sig .tc) (hb : Pipeline.arrRef spec1 w = b) :
    ((cfg1.win w).arr.view.loc (c.tc : Thread nD τ) ↦[(cfg1.win w).arr.view.set]{q} Fw w : sProp 𝕄)
      = (((c : Thread nD τ).loc b) ↦{q} V b) := by
  subst hb
  rw [(arr_whole1 w).set_eq_univ, hF]

/-- The buffers behind custom_call 1's windows, each whole at the full share, are the pipeline's arrays: the one buffer
    behind windows 0 and 1 is held half by each, every other buffer wholly by its window. -/
theorem arrays1_eq (c : Dev nD) (dat : Dat τ (Elt F) Unit ℕ (UR sig nD τ) ℕ cfg1 c)
    (hs0 : dat.share 0 = fullShare.left) (hs1 : dat.share 1 = fullShare.right) (hs : ∀ w : Fin cfg1.W, 2 ≤ w.val → dat.share w = fullShare)
    (V : (b : Ref sig .tc) → Buf (Elt F) ((c : Thread nD τ).loc b))
    (Fw : (w : Fin cfg1.W) → Buf (Elt F) ((cfg1.win w).arr.view.loc (c.tc : Thread nD τ))) (hF : ∀ w, Fw w = V (Pipeline.arrRef spec1 w)) :
    (Pipeline.arrBufs spec1 c V : sProp 𝕄) = dat.arrays Fw := by
  rw [arrBufs1_eq]
  unfold Dat.arrays
  rw [Gen.bigSep_W1]
  rw [win1_term c _ V Fw hF 0 main_arg1 rfl,
    win1_term c _ V Fw hF 1 main_arg1 rfl,
    win1_term c _ V Fw hF 2 main_v1_0 rfl,
    win1_term c _ V Fw hF 3 main_v1_1 rfl,
    win1_term c _ V Fw hF 4 main_v2 rfl,
    win1_term c _ V Fw hF 5 main_arg7 rfl,
    win1_term c _ V Fw hF 6 main_v3 rfl,
    win1_term c _ V Fw hF 7 main_arg9 rfl,
    win1_term c _ V Fw hF 8 main_v4 rfl,
    win1_term c _ V Fw hF 9 main_arg11 rfl,
    win1_term c _ V Fw hF 10 main_v5 rfl,
    win1_term c _ V Fw hF 11 main_v6_0 rfl,
    win1_term c _ V Fw hF 12 main_v6_1 rfl]
  rw [hs0, hs1, hs 2 (by decide), hs 3 (by decide), hs 4 (by decide), hs 5 (by decide), hs 6 (by decide), hs 7 (by decide), hs 8 (by decide), hs 9 (by decide), hs 10 (by decide), hs 11 (by decide), hs 12 (by decide)]
  simp only [bigSepL_cons_cons, bigSepL_singleton]
  rw [full_eq_halves c V main_arg1]
  exact BI.sep_assoc.antisymm BI.sep_assoc'

theorem arrays1_iff (c : Dev nD) (dat : Dat τ (Elt F) Unit ℕ (UR sig nD τ) ℕ cfg1 c)
    (hs0 : dat.share 0 = fullShare.left) (hs1 : dat.share 1 = fullShare.right) (hs : ∀ w : Fin cfg1.W, 2 ≤ w.val → dat.share w = fullShare)
    (V : (b : Ref sig .tc) → Buf (Elt F) ((c : Thread nD τ).loc b))
    (Fw : (w : Fin cfg1.W) → Buf (Elt F) ((cfg1.win w).arr.view.loc (c.tc : Thread nD τ))) (hF : ∀ w, Fw w = V (Pipeline.arrRef spec1 w)) :
    (Pipeline.arrBufs spec1 c V : sProp 𝕄) ⊣⊢ dat.arrays Fw := by
  rw [arrays1_eq c dat hs0 hs1 hs V Fw hF]

/-- The unscoped buffers that are no window's array of custom_call 1 depend on the contents only off the windows' arrays. -/
theorem unscopedRest1_congr (c : Dev nD) (V V' : (b : Ref sig .tc) → Buf (Elt F) ((c : Thread nD τ).loc b))
    (h : ∀ b, b ∉ Finset.univ.image (Pipeline.arrRef spec1) → V' b = V b) :
    (Pipeline.unscopedRest (Ix := Unit) (Name := ℕ) (U := UR sig nD τ) (Lvl := ℕ) spec1 c V' : sProp 𝕄) = Pipeline.unscopedRest spec1 c V := by
  unfold Pipeline.unscopedRest
  exact bigSep_congr fun b hb => by rw [h b (Finset.mem_sdiff.mp hb).2]

end Cert.Kernel.Share

end
-- ==== Proof.BitsRegions.lean ====
/-
  The two pallas_calls of the idealized kernel as regions of @main, over the thread state "every unscoped buffer at
  the boundary's contents, the generator register at some state, nothing owed". A region's arrays are split out of
  the unscoped buffers at its entry — the adjacency array, read through two windows, as two half shares — and put
  back at its exit at the contents the pipeline's write-backs leave; the generator register and the scoped rest go
  through the region's invariant; no semaphore of the kernel's own.
-/
import proofs.«110692_g7576322310719_cont_9to1c4b_828_13_alg».proof.Proof.BitsFold
import proofs.«110692_g7576322310719_cont_9to1c4b_828_13_alg».proof.Proof.BitsShare

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## Stage one's arrays at entry and exit -/

theorem share0_0 (c : Dev nD) : (pdats m 0 c).share 0 = fullShare.left := rfl
theorem share0_1 (c : Dev nD) : (pdats m 0 c).share 1 = fullShare.right := rfl
theorem share0_rest (c : Dev nD) : ∀ w : Fin cfg0.W, 2 ≤ w.val → (pdats m 0 c).share w = fullShare
  | ⟨0, _⟩, h => absurd h (by simp)
  | ⟨1, _⟩, h => absurd h (by simp)
  | ⟨2, _⟩, _ => rfl
  | ⟨3, _⟩, _ => rfl
  | ⟨4, _⟩, _ => rfl
  | ⟨5, _⟩, _ => rfl
  | ⟨6, _⟩, _ => rfl
  | ⟨7, _⟩, _ => rfl

theorem arr0_entry (c : Dev nD) (w : Fin cfg0.W) : (pdats m 0 c).arrAt w 0 = E1 m c (Pipeline.arrRef spec0 w) :=
  Stage1.A_eq (E1 m) c w

set_option maxHeartbeats 4000000 in
/-- An input array is as entered at the exit; each output array holds what the write-backs leave. -/
theorem arr0_exit (c : Dev nD) : ∀ w : Fin cfg0.W, (pdats m 0 c).arrAt w cfg0.N = W2 m c (Pipeline.arrRef spec0 w)
  | ⟨0, _⟩ => ((pdats m 0 c).arrAt_in 0 rfl _).trans ((Stage1.A_eq (E1 m) c 0).trans (W2_of_ne m c _ (by decide) (by decide)).symm)
  | ⟨1, _⟩ => ((pdats m 0 c).arrAt_in 1 rfl _).trans ((Stage1.A_eq (E1 m) c 1).trans (W2_of_ne m c _ (by decide) (by decide)).symm)
  | ⟨2, _⟩ => ((pdats m 0 c).arrAt_in 2 rfl _).trans ((Stage1.A_eq (E1 m) c 2).trans (W2_of_ne m c _ (by decide) (by decide)).symm)
  | ⟨3, _⟩ => ((pdats m 0 c).arrAt_in 3 rfl _).trans ((Stage1.A_eq (E1 m) c 3).trans (W2_of_ne m c _ (by decide) (by decide)).symm)
  | ⟨4, _⟩ => ((pdats m 0 c).arrAt_in 4 rfl _).trans ((Stage1.A_eq (E1 m) c 4).trans (W2_of_ne m c _ (by decide) (by decide)).symm)
  | ⟨5, _⟩ => ((pdats m 0 c).arrAt_in 5 rfl _).trans ((Stage1.A_eq (E1 m) c 5).trans (W2_of_ne m c _ (by decide) (by decide)).symm)
  | ⟨6, _⟩ => (hidA_def m c).symm.trans (W2_hidA m c).symm
  | ⟨7, _⟩ => (hidB_def m c).symm.trans (W2_hidB m c).symm

/-- Off stage one's arrays the contents do not change. -/
theorem rest0 (c : Dev nD) (b : Ref sig .tc) (hb : b ∉ Finset.univ.image (Pipeline.arrRef spec0)) : W2 m c b = E1 m c b := by
  have h6 : b ≠ main_v1_0 := fun e => hb (Finset.mem_image.mpr ⟨6, Finset.mem_univ _, e.symm⟩)
  have h7 : b ≠ main_v1_1 := fun e => hb (Finset.mem_image.mpr ⟨7, Finset.mem_univ _, e.symm⟩)
  exact W2_of_ne m c b h6 h7

theorem entry0 (c : Dev nD) :
    (StableHlo.held (c : Thread nD τ) (Pipeline.ucRefs τ sig) (Gen.V1 m c) : sProp 𝕄)
      ⊢ iprop((pdats m 0 c).arrays ((pdats m 0 c).arrAt · 0) ∗ Pipeline.unscopedRest spec0 c (E1 m c)) := by
  rw [← Pipeline.unscopedBufs_held (Ix := Unit) (Name := ℕ) (U := UR sig nD τ) (Lvl := ℕ) c (Gen.V1 m c),
    Pipeline.unscopedBufs_split₀ cfgs 0 winFacts₀0.arr_unscoped c (E1 m c)]
  exact sep_mono (Share.arrays0_iff c (pdats m 0 c) (share0_0 m c) (share0_1 m c) (share0_rest m c) (E1 m c) _ (arr0_entry m c)).1 .rfl

theorem exit0 (c : Dev nD) :
    iprop((pdats m 0 c).arrays ((pdats m 0 c).arrAt · cfg0.N) ∗ Pipeline.unscopedRest spec0 c (E1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c (fun b => W2 m c b)]
  exact BIClass.sep_mono (Share.arrays0_iff c (pdats m 0 c) (share0_0 m c) (share0_1 m c) (share0_rest m c) (fun b => W2 m c b) _ (arr0_exit m c)).2
    (Entails.of_eq (Share.unscopedRest0_congr c (E1 m c) (fun b => W2 m c b) (rest0 m c)).symm)

/-! ## Stage two's arrays at entry and exit -/

theorem share1_0 (c : Dev nD) : (pdats m 1 c).share 0 = fullShare.left := rfl
theorem share1_1 (c : Dev nD) : (pdats m 1 c).share 1 = fullShare.right := rfl
theorem share1_rest (c : Dev nD) : ∀ w : Fin cfg1.W, 2 ≤ w.val → (pdats m 1 c).share w = fullShare
  | ⟨0, _⟩, h => absurd h (by simp)
  | ⟨1, _⟩, h => absurd h (by simp)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl

theorem arr1_entry (c : Dev nD) (w : Fin cfg1.W) : (pdats m 1 c).arrAt w 0 = E3 m c (Pipeline.arrRef spec1 w) :=
  Stage2.A_eq (E3 m) c w

set_option maxHeartbeats 4000000 in
theorem arr1_exit (c : Dev nD) : ∀ w : Fin cfg1.W, (pdats m 1 c).arrAt w cfg1.N = W4 m c (Pipeline.arrRef spec1 w)
  | ⟨0, _⟩ => ((pdats m 1 c).arrAt_in 0 rfl _).trans ((Stage2.A_eq (E3 m) c 0).trans (W4_of_ne m c _ (by decide) (by decide)).symm)
  | ⟨1, _⟩ => ((pdats m 1 c).arrAt_in 1 rfl _).trans ((Stage2.A_eq (E3 m) c 1).trans (W4_of_ne m c _ (by decide) (by decide)).symm)
  | ⟨2, _⟩ => ((pdats m 1 c).arrAt_in 2 rfl _).trans ((Stage2.A_eq (E3 m) c 2).trans (W4_of_ne m c _ (by decide) (by decide)).symm)
  | ⟨3, _⟩ => ((pdats m 1 c).arrAt_in 3 rfl _).trans ((Stage2.A_eq (E3 m) c 3).trans (W4_of_ne m c _ (by decide) (by decide)).symm)
  | ⟨4, _⟩ => ((pdats m 1 c).arrAt_in 4 rfl _).trans ((Stage2.A_eq (E3 m) c 4).trans (W4_of_ne m c _ (by decide) (by decide)).symm)
  | ⟨5, _⟩ => ((pdats m 1 c).arrAt_in 5 rfl _).trans ((Stage2.A_eq (E3 m) c 5).trans (W4_of_ne m c _ (by decide) (by decide)).symm)
  | ⟨6, _⟩ => ((pdats m 1 c).arrAt_in 6 rfl _).trans ((Stage2.A_eq (E3 m) c 6).trans (W4_of_ne m c _ (by decide) (by decide)).symm)
  | ⟨7, _⟩ => ((pdats m 1 c).arrAt_in 7 rfl _).trans ((Stage2.A_eq (E3 m) c 7).trans (W4_of_ne m c _ (by decide) (by decide)).symm)
  | ⟨8, _⟩ => ((pdats m 1 c).arrAt_in 8 rfl _).trans ((Stage2.A_eq (E3 m) c 8).trans (W4_of_ne m c _ (by decide) (by decide)).symm)
  | ⟨9, _⟩ => ((pdats m 1 c).arrAt_in 9 rfl _).trans ((Stage2.A_eq (E3 m) c 9).trans (W4_of_ne m c _ (by decide) (by decide)).symm)
  | ⟨10, _⟩ => ((pdats m 1 c).arrAt_in 10 rfl _).trans ((Stage2.A_eq (E3 m) c 10).trans (W4_of_ne m c _ (by decide) (by decide)).symm)
  | ⟨11, _⟩ => (outA_def m c).symm.trans (W4_outA m c).symm
  | ⟨12, _⟩ => (outB_def m c).symm.trans (W4_outB m c).symm

theorem rest1 (c : Dev nD) (b : Ref sig .tc) (hb : b ∉ Finset.univ.image (Pipeline.arrRef spec1)) : W4 m c b = E3 m c b := by
  have h11 : b ≠ main_v6_0 := fun e => hb (Finset.mem_image.mpr ⟨11, Finset.mem_univ _, e.symm⟩)
  have h12 : b ≠ main_v6_1 := fun e => hb (Finset.mem_image.mpr ⟨12, Finset.mem_univ _, e.symm⟩)
  exact W4_of_ne m c b h11 h12

theorem entry1 (c : Dev nD) :
    (StableHlo.held (c : Thread nD τ) (Pipeline.ucRefs τ sig) (W3 m c) : sProp 𝕄)
      ⊢ iprop((pdats m 1 c).arrays ((pdats m 1 c).arrAt · 0) ∗ Pipeline.unscopedRest spec1 c (E3 m c)) := by
  rw [← Pipeline.unscopedBufs_held (Ix := Unit) (Name := ℕ) (U := UR sig nD τ) (Lvl := ℕ) c (W3 m c),
    Pipeline.unscopedBufs_split₀ cfgs 1 winFacts₀1.arr_unscoped c (E3 m c)]
  exact sep_mono (Share.arrays1_iff c (pdats m 1 c) (share1_0 m c) (share1_1 m c) (share1_rest m c) (E3 m c) _ (arr1_entry m c)).1 .rfl

theorem exit1 (c : Dev nD) :
    iprop((pdats m 1 c).arrays ((pdats m 1 c).arrAt · cfg1.N) ∗ Pipeline.unscopedRest spec1 c (E3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs 1 winFacts₀1.arr_unscoped c (fun b => W4 m c b)]
  exact BIClass.sep_mono (Share.arrays1_iff c (pdats m 1 c) (share1_0 m c) (share1_1 m c) (share1_rest m c) (fun b => W4 m c b) _ (arr1_exit m c)).2
    (Entails.of_eq (Share.unscopedRest1_congr c (E3 m c) (fun b => W4 m c b) (rest1 m c)).symm)

/-! ## The regions as segments -/

set_option backward.isDefEq.respectTransparency.types false in
/-- Stage one, entered from the contents after the first reshape and left at `W2`. -/
def reg0 : Pipeline.RegionSeg (pcfgs (F := F)) Gen.adm (pdats m) () defs₀ Variants.none Lz lvz 0 where
  win := winFacts₀0
  block_pos := block_pos0
  stage_whole := stage_whole0
  K := PEmpty
  osem k := k.elim
  ho := Pipeline.OwnSemFacts.none _
  hbody c := (Stage1.body_obligation (E1 m) c).loose
  hwaits := Pipeline.hwaits_of_owed_zero _ _ _ _ Lz lvz 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage two, entered from the contents after the four reshapes and left at `W4`. Its invariant takes the scoped rest
    in with the scratch at anything and gives it back with the scratch at the hidden array, which is again "anything". -/
def reg1 : Pipeline.RegionSeg (pcfgs (F := F)) Gen.adm (pdats m) () defs₀ Variants.none Lz lvz 1 where
  win := winFacts₀1
  block_pos := block_pos1
  stage_whole := stage_whole1
  K := PEmpty
  osem k := k.elim
  ho := Pipeline.OwnSemFacts.none _
  hbody c := (Stage2.body_obligation (E3 m) c).loose
  hwaits := Pipeline.hwaits_of_owed_zero _ _ _ _ Lz lvz 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Stage2.PhiS (E3 m) c cfg1.N from rfl,
      Stage2.PhiS_pos (E3 m) c cfg1.N (by decide)]
    have hback : Stage2.PhiWith c (owns (c : Thread nD τ) Stage2.scM fullShare (Stage2.hiddenAll (E3 m) c)) ⊢ (Pipeline.ΦA spec1 c : sProp 𝕄) := by
      rw [Stage2.PhiA_eq]; unfold Stage2.PhiWith
      iintro ⟨⟨S0, S1, S2, S3, S4, S5, S6, S7, S8, S9, S10, S11, HS⟩, Hg⟩
      isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        iexists _; iexact HS
      iexact Hg
    refine hback.trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

end Cert.Kernel.Launch

end
-- ==== Proof.BitsFrames.lean ====
/-
  The kernel program's @main runs, at any float instance: every weakly fair execution from any memory with zero
  counters terminates, nothing faulting, and the arguments end as launched — the generated conditional frame at the
  two regions' records, with the unknown contents the regions leave set to what they do leave.
-/
import proofs.«110692_g7576322310719_cont_9to1c4b_828_13_alg».proof.Proof.BitsRegions

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element is the pipeline library's own. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core's first rest state from what the launch deals it: the generator register, and owing nothing. -/
theorem first_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lz lvz)
      ⊢ (|={Set.univ}=> bigSep Finset.univ (fun c : Dev nD => R (F := F) c) : sProp 𝕄) := by
  refine Pipeline.initEach Lz lvz fun c => ?_
  iintro ⟨⟨-, HO, -, Hp, -⟩, -⟩
  imodintro
  isplitl [Hp]; · iexists _; iexact Hp
  iexists ∅; iexact HO

set_option backward.isDefEq.respectTransparency.types false in
/-- THE FRAME of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m emb₁ () Variants.none Lz lvz (fun _ _ => rfl) ρ (outs m) (pdats m) 0 (fun _ => iprop(emp))
    (initOf (Pipeline.cells cfgs cellOf_inj) (Pipeline.launchToks cfgs cellOf_inj)) launch_elt
    (fun _ c => R c) (first_rest ρ) (fun c => by iintro ⟨-, HO⟩; iexact HO)
    (reg0 m) (fun c => .rfl) (fun c => by rw [V2_eq]; exact .rfl)
    (reg1 m) (fun c => by rw [V3_eq]; exact .rfl) (fun c => by rw [V4_eq]; exact .rfl)

end Cert.Kernel.Launch

end
-- ==== Proof.IdealStage1.lean ====
/-
  Stage one of the idealized kernel (the first pallas_call), on one core, at the buffer contents `V` the region is
  entered from. Grid point `t` (25 of them) is handed rows `200 t … 200 t + 199` of the gene adjacency through window 0
  and rows `5000 + 200 t …` through window 1 (one array, two windows), and the whole of `x`, `W_s`, the bias row and
  `W_f` through windows 2–5, fetched once. It leaves in each output window's block
      tanh ((rows · x) · W_s + b_s) · W_f
  of its own 200 rows: `halfBlock`, the kernel's stored value laid over the block. Nothing is kept from point to
  point, so the region's invariant is the untouched rest of the core's scoped memory.
-/
import proofs.«110692_g7576322310719_cont_9to1c4b_828_13_alg».proof.Proof.Gen.KernelIdeal.Launch
import proofs.«110692_g7576322310719_cont_9to1c4b_828_13_alg».proof.Proof.Gen.KernelIdeal.Skeleton
import proofs.«110692_g7576322310719_cont_9to1c4b_828_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes: each is a whole staging buffer -/

abbrev rRows : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rOut : Rect S200x128 := Rect.unit (s := S200x128) ![0, 0] S200x128.size inb_S200x128_S200x128_0_0

/-! ## What the body leaves in an output block -/

/-- The first output's block after the body: `tanh ((rows · x) · W_s + b_s) · W_f` of the 200 rows handed through window 0,
    stored over the whole block. -/
def halfBlockA (g : Vec F S200x10000 .f32) (x : Vec F S10000x128 .f32) (ws : Vec F S128x128 .f32) (bs : Vec F S1x128 .f32)
    (wf : Vec F S128x128 .f32) : Vec F S200x128 .f32 :=
  View.canon [⟨rOut, k0_pay1 (View.ld g rRows) (View.ld x rX) (View.ld ws rW) (View.ld bs rB) (View.ld wf rW)⟩]

/-- The second output's block: the same function of the rows handed through window 1. -/
def halfBlockB (g : Vec F S200x10000 .f32) (x : Vec F S10000x128 .f32) (ws : Vec F S128x128 .f32) (bs : Vec F S1x128 .f32)
    (wf : Vec F S128x128 .f32) : Vec F S200x128 .f32 :=
  View.canon [⟨rOut, k0_pay2 (View.ld g rRows) (View.ld x rX) (View.ld ws rW) (View.ld bs rB) (View.ld wf rW)⟩]

/-- One store of the whole block covers it. -/
theorem coverOut (p0 : Vec F S200x128 .f32) (y : S200x128.Idx) :
    ∃ pc ∈ ([⟨rOut, p0⟩] : List (View.Piece (Elt F) S200x128 .f32)), y ∈ pc.1.set :=
  View.cover_of_tiled [⟨rOut, p0⟩] S200x128.size (by rfl) y

/-! ## The body's triple -/

set_option maxHeartbeats 4000000 in
/-- The body on whole staging memrefs: the six inputs at read contents, the two outputs at anything; it hands the
    inputs back as they were and each output at its `halfBlock`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S200x128 .f32) (harg7 : arg7.IsWhole) (arg8 : Memref sig .tc .vmem S200x128 .f32) (harg8 : arg8.IsWhole)
    (ga gb : Vec F S200x10000 .f32) (x : Vec F S10000x128 .f32) (ws : Vec F S128x128 .f32) (bs : Vec F S1x128 .f32) (wf : Vec F S128x128 .f32)
    (K : PUnit → sProp 𝕄) :
    iprop(owns (c : Thread nD τ) arg1 fullShare ga ∗ owns (c : Thread nD τ) arg2 fullShare gb ∗ owns (c : Thread nD τ) arg3 fullShare x
        ∗ owns (c : Thread nD τ) arg4 fullShare ws ∗ owns (c : Thread nD τ) arg5 fullShare bs ∗ owns (c : Thread nD τ) arg6 fullShare wf
        ∗ (∃ d, owns (c : Thread nD τ) arg7 fullShare d) ∗ (∃ d, owns (c : Thread nD τ) arg8 fullShare d)
        ∗ (iprop(owns (c : Thread nD τ) arg1 fullShare ga ∗ owns (c : Thread nD τ) arg2 fullShare gb ∗ owns (c : Thread nD τ) arg3 fullShare x
            ∗ owns (c : Thread nD τ) arg4 fullShare ws ∗ owns (c : Thread nD τ) arg5 fullShare bs ∗ owns (c : Thread nD τ) arg6 fullShare wf
            ∗ owns (c : Thread nD τ) arg7 fullShare (halfBlockA ga x ws bs wf) ∗ owns (c : Thread nD τ) arg8 fullShare (halfBlockB gb x ws bs wf)) -∗ K ⟨⟩))
      ⊢ wp frame (wpE (defs₀ (F := F)) Variants.none c none) E (cc0__stage1_dual i arg1 harg1 arg2 harg2 arg3 harg3 arg4 harg4 arg5 harg5 arg6 harg6 arg7 harg7 arg8 harg8) K := by
  simp only [cc0__stage1_dual_eq_skeleton]; unfold cc0__stage1_dual_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverOut _)
  iexists _; isplitr
  swap; · iexact H8
  ipureintro
  exact View.read_writes_eq_canon _ _ _ (coverOut _)

end Cert.KernelIdeal.Stage1

end
-- ==== Proof.IdealStage1Data.lean ====
/-
  Stage one's proof data on one core, at the contents `V` the region is entered from: every input window's buffer holds
  its block at every point (fetched there or kept from the point before), each output window's buffer is left at the
  stored `halfBlock` of the point's input blocks; the two windows on the gene adjacency each hold half of that array's
  share. From these the body's obligation at every grid point.
-/
import proofs.«110692_g7576322310719_cont_9to1c4b_828_13_alg».proof.Proof.IdealStage1

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: arrays as found; inputs left in place; outputs at the stored blocks; nothing kept between points. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => halfBlockA (iblk V c 0 t) (iblk V c 2 t) (iblk V c 3 t) (iblk V c 4 t) (iblk V c 5 t)
    | ⟨7, _⟩ => halfBlockB (iblk V c 1 t) (iblk V c 2 t) (iblk V c 3 t) (iblk V c 4 t) (iblk V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) :
    (dat V c).after 6 t = halfBlockA (iblk V c 0 t) (iblk V c 2 t) (iblk V c 3 t) (iblk V c 4 t) (iblk V c 5 t) := by dsimp only [dat]
theorem after_7 (c : Dev nD) (t : Fin cfg0.N) :
    (dat V c).after 7 t = halfBlockB (iblk V c 1 t) (iblk V c 2 t) (iblk V c 3 t) (iblk V c 4 t) (iblk V c 5 t) := by dsimp only [dat]

/-- An input window's buffer holds its block at every point, whether the pipeline fetched it there or it stayed from the
    point before (its block index did not move). -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 2000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dat (F := F) V c) (defs₀ (F := F)) Variants.none () Set.univ := fun t => by
  rw [bigSep_W0, bigSep_W0]
  exact sound_body V c t

end Cert.KernelIdeal.Stage1

end
-- ==== Proof.IdealStage2.lean ====
/-
  Stage two of the idealized kernel (the second pallas_call), on one core. Grid point `t` is handed rows `200 t …` of
  the sample adjacency through window 0 and rows `5000 + 200 t …` through window 1, the two halves of the hidden array
  and the dense layers' weights and bias rows through windows 2–10 (fetched once), and keeps the WHOLE hidden array in
  a scratch buffer of its own: at the first point it copies the two halves there (`hiddenWhole`), at every point it
  reads the scratch back and leaves in each output block
      tanh (tanh (tanh (rows · hf + b_f) · W1 + b1) · W2 + b2) · W3 + b3
  of its own 200 rows (`outBlockA`, `outBlockB`). So the body has two control cases: the first point, from a scratch
  holding anything, and a later point, from a scratch holding what it reads.
-/
import proofs.«110692_g7576322310719_cont_9to1c4b_828_13_alg».proof.Proof.Gen.KernelIdeal.Launch
import proofs.«110692_g7576322310719_cont_9to1c4b_828_13_alg».proof.Proof.Gen.KernelIdeal.Skeleton
import proofs.«110692_g7576322310719_cont_9to1c4b_828_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes -/

abbrev rRows : Rect S200x10000 := Rect.unit (s := S200x10000) ![0, 0] S200x10000.size inb_S200x10000_S200x10000_0_0
abbrev rHalf : Rect S5000x128 := Rect.unit (s := S5000x128) ![0, 0] S5000x128.size inb_S5000x128_S5000x128_0_0
abbrev rAll : Rect S10000x128 := Rect.unit (s := S10000x128) ![0, 0] S10000x128.size inb_S10000x128_S10000x128_0_0
/-- The scratch's upper half of rows, -/
abbrev rLo : Rect S10000x128 := Rect.unit (s := S10000x128) ![0, 0] S5000x128.size inb_S10000x128_S5000x128_0_0
/-- and its lower half. -/
abbrev rHi : Rect S10000x128 := Rect.unit (s := S10000x128) ![5000, 0] S5000x128.size inb_S10000x128_S5000x128_5000_0
abbrev rB128 : Rect S1x128 := Rect.unit (s := S1x128) ![0, 0] S1x128.size inb_S1x128_S1x128_0_0
abbrev rW1 : Rect S128x64 := Rect.unit (s := S128x64) ![0, 0] S128x64.size inb_S128x64_S128x64_0_0
abbrev rB64 : Rect S1x64 := Rect.unit (s := S1x64) ![0, 0] S1x64.size inb_S1x64_S1x64_0_0
abbrev rW2 : Rect S64x16 := Rect.unit (s := S64x16) ![0, 0] S64x16.size inb_S64x16_S64x16_0_0
abbrev rB16 : Rect S1x16 := Rect.unit (s := S1x16) ![0, 0] S1x16.size inb_S1x16_S1x16_0_0
abbrev rW3 : Rect S16x10 := Rect.unit (s := S16x10) ![0, 0] S16x10.size inb_S16x10_S16x10_0_0
abbrev rB10 : Rect S1x10 := Rect.unit (s := S1x10) ![0, 0] S1x10.size inb_S1x10_S1x10_0_0
abbrev rOut : Rect S200x10 := Rect.unit (s := S200x10) ![0, 0] S200x10.size inb_S200x10_S200x10_0_0

/-! ## What the body leaves -/

/-- The scratch after the first point: the first half of the hidden array over rows 0–4999, the second over rows 5000–9999. -/
def hiddenWhole (hfa hfb : Vec F S5000x128 .f32) : Vec F S10000x128 .f32 :=
  View.canon [⟨rHi, k1_pay3 (View.ld hfb rHalf)⟩, ⟨rLo, k1_pay2 (View.ld hfa rHalf)⟩]

/-- The first output's block: the four layers over the 200 rows handed through window 0 and the hidden array `hf`. -/
def outBlockA (hf : Vec F S10000x128 .f32) (a : Vec F S200x10000 .f32) (bf : Vec F S1x128 .f32) (w1 : Vec F S128x64 .f32) (b1 : Vec F S1x64 .f32)
    (w2 : Vec F S64x16 .f32) (b2 : Vec F S1x16 .f32) (w3 : Vec F S16x10 .f32) (b3 : Vec F S1x10 .f32) : Vec F S200x10 .f32 :=
  View.canon [⟨rOut, k1_pay4 (View.ld hf rAll) (View.ld a rRows) (View.ld bf rB128) (View.ld w1 rW1) (View.ld b1 rB64) (View.ld w2 rW2) (View.ld b2 rB16) (View.ld w3 rW3) (View.ld b3 rB10)⟩]

/-- The second output's block: the same over the rows handed through window 1. -/
def outBlockB (hf : Vec F S10000x128 .f32) (a : Vec F S200x10000 .f32) (bf : Vec F S1x128 .f32) (w1 : Vec F S128x64 .f32) (b1 : Vec F S1x64 .f32)
    (w2 : Vec F S64x16 .f32) (b2 : Vec F S1x16 .f32) (w3 : Vec F S16x10 .f32) (b3 : Vec F S1x10 .f32) : Vec F S200x10 .f32 :=
  View.canon [⟨rOut, k1_pay1 (View.ld hf rAll) (View.ld a rRows) (View.ld bf rB128) (View.ld w1 rW1) (View.ld b1 rB64) (View.ld w2 rW2) (View.ld b2 rB16) (View.ld w3 rW3) (View.ld b3 rB10)⟩]

theorem coverOut (p0 : Vec F S200x10 .f32) (y : S200x10.Idx) :
    ∃ pc ∈ ([⟨rOut, p0⟩] : List (View.Piece (Elt F) S200x10 .f32)), y ∈ pc.1.set :=
  View.cover_of_tiled [⟨rOut, p0⟩] S200x10.size (by rfl) y

/-- The two half stores tile the scratch. -/
theorem coverScratch (p0 p1 : Vec F S5000x128 .f32) (y : S10000x128.Idx) :
    ∃ pc ∈ ([⟨rHi, p0⟩, ⟨rLo, p1⟩] : List (View.Piece (Elt F) S10000x128 .f32)), y ∈ pc.1.set :=
  View.cover_of_tiledL [⟨rHi, p0⟩, ⟨rLo, p1⟩] S5000x128.size (by sl_kernel_rfl) y

/-! ## The branch condition -/

/-- The body's one `scf.if`: "this is grid point 0". -/
abbrev condFirst (i : grid1.Coords) : Prop := (Scalar.cmpi .ne (Scalar.extui (Scalar.cmpi .eq (BitVec.ofNat 32 (i 0).val) 0#32)) 0#32) = 1#1
theorem hcondFirst : ∀ t : Fin cfg1.N, condFirst (grid1.coords t) ↔ t.val % 25 = 0 :=
  (by decide +kernel : ∀ t : Fin grid1.N, condFirst (grid1.coords t) ↔ t.val % 25 = 0)

/-! ## The body's triple at a later point: the scratch holds the hidden array it reads -/

set_option maxHeartbeats 8000000 in
theorem sound_later (c : Dev nD) (E : Set ℕ) (i : grid1.Coords) (hc : ¬condFirst i)
    (arg1 : Memref sig .tc .vmem S200x10000 .f32) (harg1 : arg1.IsWhole) (arg2 : Memref sig .tc .vmem S200x10000 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S64x16 .f32) (harg8 : arg8.IsWhole)
    (arg9 : Memref sig .tc .vmem S1x16 .f32) (harg9 : arg9.IsWhole) (arg10 : Memref sig .tc .vmem S16x10 .f32) (harg10 : arg10.IsWhole)
    (arg11 : Memref sig .tc .vmem S1x10 .f32) (harg11 : arg11.IsWhole) (arg12 : Memref sig .tc .vmem S200x10 .f32) (harg12 : arg12.IsWhole)
    (arg13 : Memref sig .tc .vmem S200x10 .f32) (harg13 : arg13.IsWhole) (arg14 : Memref sig .tc .vmem S10000x128 .f32) (harg14 : arg14.IsWhole)
    (aa ab : Vec F S200x10000 .f32) (hfa hfb : Vec F S5000x128 .f32) (bf : Vec F S1x128 .f32) (w1 : Vec F S128x64 .f32) (b1 : Vec F S1x64 .f32)
    (w2 : Vec F S64x16 .f32) (b2 : Vec F S1x16 .f32) (w3 : Vec F S16x10 .f32) (b3 : Vec F S1x10 .f32) (hf : Vec F S10000x128 .f32)
    (K : PUnit → sProp 𝕄) :
    iprop(owns (c : Thread nD τ) arg1 fullShare aa ∗ owns (c : Thread nD τ) arg2 fullShare ab ∗ owns (c : Thread nD τ) arg3 fullShare hfa
        ∗ owns (c : Thread nD τ) arg4 fullShare hfb ∗ owns (c : Thread nD τ) arg5 fullShare bf ∗ owns (c : Thread nD τ) arg6 fullShare w1
        ∗ owns (c : Thread nD τ) arg7 fullShare b1 ∗ owns (c : Thread nD τ) arg8 fullShare w2 ∗ owns (c : Thread nD τ) arg9 fullShare b2
        ∗ owns (c : Thread nD τ) arg10 fullShare w3 ∗ owns (c : Thread nD τ) arg11 fullShare b3
        ∗ (∃ d, owns (c : Thread nD τ) arg12 fullShare d) ∗ (∃ d, owns (c : Thread nD τ) arg13 fullShare d) ∗ owns (c : Thread nD τ) arg14 fullShare hf
        ∗ (iprop(owns (c : Thread nD τ) arg1 fullShare aa ∗ owns (c : Thread nD τ) arg2 fullShare ab ∗ owns (c : Thread nD τ) arg3 fullShare hfa
            ∗ owns (c : Thread nD τ) arg4 fullShare hfb ∗ owns (c : Thread nD τ) arg5 fullShare bf ∗ owns (c : Thread nD τ) arg6 fullShare w1
            ∗ owns (c : Thread nD τ) arg7 fullShare b1 ∗ owns (c : Thread nD τ) arg8 fullShare w2 ∗ owns (c : Thread nD τ) arg9 fullShare b2
            ∗ owns (c : Thread nD τ) arg10 fullShare w3 ∗ owns (c : Thread nD τ) arg11 fullShare b3
            ∗ owns (c : Thread nD τ) arg12 fullShare (outBlockA hf aa bf w1 b1 w2 b2 w3 b3) ∗ owns (c : Thread nD τ) arg13 fullShare (outBlockB hf ab bf w1 b1 w2 b2 w3 b3)
            ∗ owns (c : Thread nD τ) arg14 fullShare hf) -∗ K ⟨⟩))
      ⊢ wp frame (wpE (defs₀ (F := F)) Variants.none c none) E
          (cc1__stage2_dual i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__stage2_dual_eq_skeleton]; unfold cc1__stage2_dual_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, Hk⟩
  subst hf1 hf2 hf3 hf4 hf5 hf6 hf7 hf8 hf9 hf10 hf11 hf14
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverOut _)
  isplitl [H13]
  · iexists _; isplitr
    swap; · iexact H13
    ipureintro
    exact View.read_writes_eq_canon _ _ _ (coverOut _)
  iexists f14; isplitr; · ipureintro; rfl
  iexact H14

end Cert.KernelIdeal.Stage2

end
-- ==== Proof.IdealStage2First.lean ====
/-
  Stage two's body at the FIRST grid point: whatever the scratch holds, the body first copies the two halves of the
  hidden array into it, and from then on runs as at any point with the scratch at `hiddenWhole` of the two halves.
-/
import proofs.«110692_g7576322310719_cont_9to1c4b_828_13_alg».proof.Proof.IdealStage2

set_option maxRecDepth 16384

noncomputable section

namespace Cert.KernelIdeal.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
theorem sound_first (c : Dev nD) (E : Set ℕ) (i : grid1.Coords) (hc : condFirst i)
    (arg1 : Memref sig .tc .vmem S200x10000 .f32) (harg1 : arg1.IsWhole) (arg2 : Memref sig .tc .vmem S200x10000 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S64x16 .f32) (harg8 : arg8.IsWhole)
    (arg9 : Memref sig .tc .vmem S1x16 .f32) (harg9 : arg9.IsWhole) (arg10 : Memref sig .tc .vmem S16x10 .f32) (harg10 : arg10.IsWhole)
    (arg11 : Memref sig .tc .vmem S1x10 .f32) (harg11 : arg11.IsWhole) (arg12 : Memref sig .tc .vmem S200x10 .f32) (harg12 : arg12.IsWhole)
    (arg13 : Memref sig .tc .vmem S200x10 .f32) (harg13 : arg13.IsWhole) (arg14 : Memref sig .tc .vmem S10000x128 .f32) (harg14 : arg14.IsWhole)
    (aa ab : Vec F S200x10000 .f32) (hfa hfb : Vec F S5000x128 .f32) (bf : Vec F S1x128 .f32) (w1 : Vec F S128x64 .f32) (b1 : Vec F S1x64 .f32)
    (w2 : Vec F S64x16 .f32) (b2 : Vec F S1x16 .f32) (w3 : Vec F S16x10 .f32) (b3 : Vec F S1x10 .f32)
    (K : PUnit → sProp 𝕄) :
    iprop(owns (c : Thread nD τ) arg1 fullShare aa ∗ owns (c : Thread nD τ) arg2 fullShare ab ∗ owns (c : Thread nD τ) arg3 fullShare hfa
        ∗ owns (c : Thread nD τ) arg4 fullShare hfb ∗ owns (c : Thread nD τ) arg5 fullShare bf ∗ owns (c : Thread nD τ) arg6 fullShare w1
        ∗ owns (c : Thread nD τ) arg7 fullShare b1 ∗ owns (c : Thread nD τ) arg8 fullShare w2 ∗ owns (c : Thread nD τ) arg9 fullShare b2
        ∗ owns (c : Thread nD τ) arg10 fullShare w3 ∗ owns (c : Thread nD τ) arg11 fullShare b3
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare aa ∗ owns (c : Thread nD τ) arg2 fullShare ab ∗ owns (c : Thread nD τ) arg3 fullShare hfa
            ∗ owns (c : Thread nD τ) arg4 fullShare hfb ∗ owns (c : Thread nD τ) arg5 fullShare bf ∗ owns (c : Thread nD τ) arg6 fullShare w1
            ∗ owns (c : Thread nD τ) arg7 fullShare b1 ∗ owns (c : Thread nD τ) arg8 fullShare w2 ∗ owns (c : Thread nD τ) arg9 fullShare b2
            ∗ owns (c : Thread nD τ) arg10 fullShare w3 ∗ owns (c : Thread nD τ) arg11 fullShare b3
            ∗ owns (c : Thread nD τ) arg12 fullShare (outBlockA (hiddenWhole hfa hfb) aa bf w1 b1 w2 b2 w3 b3)
            ∗ owns (c : Thread nD τ) arg13 fullShare (outBlockB (hiddenWhole hfa hfb) ab bf w1 b1 w2 b2 w3 b3)
            ∗ owns (c : Thread nD τ) arg14 fullShare (hiddenWhole hfa hfb)) -∗ K ⟨⟩))
      ⊢ wp frame (wpE (defs₀ (F := F)) Variants.none c none) E
          (cc1__stage2_dual i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__stage2_dual_eq_skeleton]; unfold cc1__stage2_dual_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf1 hf2 hf3 hf4 hf5 hf6 hf7 hf8 hf9 hf10 hf11
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    rw [View.read_writes_eq_canon _ _ _ (coverOut _)]
    unfold outBlockA hiddenWhole
    dsimp only
    sl_unfold_run_names
    rw [View.readCov_eq_canon_ld _ _ rAll (coverScratch _ _)]
    rfl
  isplitl [H13]
  · iexists _; isplitr
    swap; · iexact H13
    ipureintro
    rw [View.read_writes_eq_canon _ _ _ (coverOut _)]
    unfold outBlockB hiddenWhole
    dsimp only
    sl_unfold_run_names
    rw [View.readCov_eq_canon_ld _ _ rAll (coverScratch _ _)]
    rfl
  iexists _; isplitr
  swap; · iexact H14
  ipureintro
  exact View.read_writes_eq_canon _ _ _ (coverScratch _ _)

end Cert.KernelIdeal.Stage2

end
-- ==== Proof.IdealStage2Data.lean ====
/-
  Stage two's proof data on one core, at the contents `V` the region is entered from. Every input window's buffer holds
  its block at every point; the scratch holds anything before the first point and the whole hidden array
  (`hiddenAll`: the two halves as the region finds them, laid one over the other) after every point; each output
  block is left at the four layers of its 200 adjacency rows and that array. The two windows on the sample adjacency
  each hold half of that array's share. From these the body's obligation at every grid point, by the two control cases.
-/
import proofs.«110692_g7576322310719_cont_9to1c4b_828_13_alg».proof.Proof.IdealStage2First

set_option maxRecDepth 16384

noncomputable section

namespace Cert.KernelIdeal.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid's first point. -/
abbrev t₀ : Fin cfg1.N := ⟨0, by decide⟩

/-- The whole hidden array the scratch holds from the first point on: the two halves as the first point reads them. -/
def hiddenAll (c : Dev nD) : Vec F S10000x128 .f32 := hiddenWhole (iblk V c 2 t₀) (iblk V c 3 t₀)

/-- The scratch operand: a whole scoped buffer of the kernel's own. -/
abbrev scM : Memref sig .tc .vmem S10000x128 .f32 := Memref.whole cc1_scratch0

/-- The core's scoped memory outside stage two's staging buffers — stage one's staging buffers, each at some
    contents, and the scratch in the state `Q` — beside the generator register at some state. -/
def PhiWith (c : Dev nD) (Q : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ Q) ∗ ∃ r, prngReg c r)

/-- The region's untouched invariant is that state with the scratch at anything. -/
theorem PhiA_eq (c : Dev nD) :
    (Pipeline.ΦA spec1 c : sProp 𝕄) = PhiWith c (iprop(∃ d, owns (c : Thread nD τ) scM fullShare d)) := by
  unfold Pipeline.ΦA PhiWith; rw [scopedRest1_eq]; simp only [scM, owns_whole]; try rfl

/-- The invariant before position `n`: before the first point the scratch holds anything, afterwards the whole hidden array. -/
def PhiS (c : Dev nD) (n : ℕ) : sProp 𝕄 :=
  if n = 0 then Pipeline.ΦA spec1 c else PhiWith c (owns (c : Thread nD τ) scM fullShare (hiddenAll V c))

theorem PhiS_zero (c : Dev nD) (n : ℕ) (h : n = 0) : PhiS V c n = PhiWith c (iprop(∃ d, owns (c : Thread nD τ) scM fullShare d)) := by
  unfold PhiS; rw [if_pos h, PhiA_eq]
theorem PhiS_pos (c : Dev nD) (n : ℕ) (h : n ≠ 0) : PhiS V c n = PhiWith c (owns (c : Thread nD τ) scM fullShare (hiddenAll V c)) := by
  unfold PhiS; rw [if_neg h]

/-- The proof data: arrays as found; inputs left in place; outputs at the stored blocks; the scratch carried in the invariant. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => outBlockA (hiddenAll V c) (iblk V c 0 t) (iblk V c 4 t) (iblk V c 5 t) (iblk V c 6 t) (iblk V c 7 t) (iblk V c 8 t) (iblk V c 9 t) (iblk V c 10 t)
    | ⟨12, _⟩ => outBlockB (hiddenAll V c) (iblk V c 1 t) (iblk V c 4 t) (iblk V c 5 t) (iblk V c 6 t) (iblk V c 7 t) (iblk V c 8 t) (iblk V c 9 t) (iblk V c 10 t)
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg1.W) : (dat V c).A w = V c (Pipeline.arrRef spec1 w) := by
  dsimp only [dat]

theorem Phi_castSucc (c : Dev nD) (t : Fin cfg1.N) : (dat V c).Φ t.castSucc = PhiS V c t.val := by
  dsimp only [dat]; simp only [Fin.coe_castSucc]
theorem Phi_succ (c : Dev nD) (t : Fin cfg1.N) : (dat V c).Φ t.succ = PhiS V c (t.val + 1) := by
  dsimp only [dat]; simp only [Fin.val_succ]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) :
    (dat V c).after 11 t = outBlockA (hiddenAll V c) (iblk V c 0 t) (iblk V c 4 t) (iblk V c 5 t) (iblk V c 6 t) (iblk V c 7 t) (iblk V c 8 t) (iblk V c 9 t) (iblk V c 10 t) := by dsimp only [dat]
theorem after_12 (c : Dev nD) (t : Fin cfg1.N) :
    (dat V c).after 12 t = outBlockB (hiddenAll V c) (iblk V c 1 t) (iblk V c 4 t) (iblk V c 5 t) (iblk V c 6 t) (iblk V c 7 t) (iblk V c 8 t) (iblk V c 9 t) (iblk V c 10 t) := by dsimp only [dat]

/-- An input window's buffer holds its block at every point, whether the pipeline fetched it there or it stayed from the
    point before (its block index did not move). -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg1.N) (d) : (dat V c).before 10 t d = iblk V c 10 t :=
  ((dat V c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t))

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10]
  rw [show (dat V c).owesAt () t.succ = (dat V c).owesAt () t.castSucc from rfl,
    Phi_castSucc, Phi_succ, PhiS_pos V c (t.val + 1) (Nat.succ_ne_zero _),
    after_0, after_1, after_2, after_3, after_4, after_5, after_6, after_7, after_8, after_9, after_10, after_11, after_12]
  by_cases hz : t.val = 0
  · have ht : t = t₀ := Fin.ext hz
    subst ht
    rw [PhiS_zero V c _ rfl]
    unfold PhiWith hiddenAll
    iintro ⟨⟨⟨S0, S1, S2, S3, S4, S5, S6, S7, S8, S9, S10, S11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_first c Set.univ (grid1.coords t₀) ((hcondFirst t₀).mpr rfl) _ _ _ _ _ _ _ _ _ _ _ _ _ _ _ _ _ _ _ _ _ _ _ _ _ _ _ _
      (iblk V c 0 t₀) (iblk V c 1 t₀) (iblk V c 2 t₀) (iblk V c 3 t₀) (iblk V c 4 t₀) (iblk V c 5 t₀) (iblk V c 6 t₀) (iblk V c 7 t₀) (iblk V c 8 t₀) (iblk V c 9 t₀) (iblk V c 10 t₀) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS]; · iexact HS
    iintro ⟨H0, H1, H2, H3, H4, H5, H6, H7, H8, H9, H10, H11, H12, HS⟩
    isplitl [S0 S1 S2 S3 S4 S5 S6 S7 S8 S9 S10 S11 HS Hg]
    · isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [PhiS_pos V c _ hz]
    unfold PhiWith
    iintro ⟨⟨⟨S0, S1, S2, S3, S4, S5, S6, S7, S8, S9, S10, S11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_later c Set.univ (grid1.coords t) (fun h => hz (by have := (hcondFirst t).mp h; have hN : t.val < 25 := lt_of_lt_of_eq t.isLt (show cfg1.N = 25 from N_1); omega)) _ _ _ _ _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (iblk V c 8 t) (iblk V c 9 t) (iblk V c 10 t) (hiddenAll V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS]; · iexact HS
    iintro ⟨H0, H1, H2, H3, H4, H5, H6, H7, H8, H9, H10, H11, H12, HS⟩
    isplitl [S0 S1 S2 S3 S4 S5 S6 S7 S8 S9 S10 S11 HS Hg]
    · isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body obligation at every point. -/
theorem body_obligation (c : Dev nD) : BodyObligation (dat (F := F) V c) (defs₀ (F := F)) Variants.none () Set.univ := fun t => by
  rw [bigSep_W1, bigSep_W1]
  exact sound_body V c t

end Cert.KernelIdeal.Stage2

end
-- ==== Proof.IdealFold.lean ====
/-
  The buffer contents at each boundary of the kernel program's @main, on one core, from the launch memory `m`:
  after the first reshape (`Gen.V1`), after stage one (`W2`: its two outputs at what the pipeline's write-backs leave),
  after the four reshapes (`W3`), after stage two (`W4`), after the concatenation (`W5`); and each pallas_call's
  proof data at the contents its region is entered from. These are the contents the generated conditional frame
  (`Gen.frame_cond`) names `V2` … `V5` once its unknowns `outs` are what the regions really leave.
-/
import proofs.«110692_g7576322310719_cont_9to1c4b_828_13_alg».proof.Proof.IdealStage1Data
import proofs.«110692_g7576322310719_cont_9to1c4b_828_13_alg».proof.Proof.IdealStage2Data
import proofs.«110692_g7576322310719_cont_9to1c4b_828_13_alg».proof.Proof.Gen.KernelIdeal.Regions

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- What stage one is entered from, read at the TensorCore's references. -/
abbrev E1 (c : Dev nD) (b : Ref sig .tc) : Buf (Elt F) ((c : Thread nD τ).loc b) := Gen.V1 m c b

/-- What stage one leaves in its two output arrays. -/
@[irreducible] def hidA (c : Dev nD) : Buf (Elt F) ((c : Thread nD τ).loc main_v1_0) := (Stage1.dat (E1 m) c).arrAt 6 cfg0.N
@[irreducible] def hidB (c : Dev nD) : Buf (Elt F) ((c : Thread nD τ).loc main_v1_1) := (Stage1.dat (E1 m) c).arrAt 7 cfg0.N

theorem hidA_def (c : Dev nD) : hidA m c = (Stage1.dat (E1 m) c).arrAt 6 cfg0.N := by unfold hidA; rfl
theorem hidB_def (c : Dev nD) : hidB m c = (Stage1.dat (E1 m) c).arrAt 7 cfg0.N := by unfold hidB; rfl

/-- The contents after stage one. -/
@[irreducible] def W2 (c : Dev nD) : Valuation τ sig (Elt F) :=
  Function.update (Function.update (Gen.V1 m c) main_v1_0 (hidA m c)) main_v1_1 (hidB m c)

/-- After stage one its two outputs hold what it leaves, and every other buffer what it held. -/
theorem W2_hidA (c : Dev nD) : W2 m c main_v1_0 = hidA m c := by
  unfold W2
  rw [Function.update_of_ne (StableHlo.devRef_ne_of_ne (by decide : (main_v1_0 : Ref sig .tc) ≠ main_v1_1)), Function.update_self]
theorem W2_hidB (c : Dev nD) : W2 m c main_v1_1 = hidB m c := by
  unfold W2
  rw [Function.update_self]
theorem W2_of_ne (c : Dev nD) (b : Ref sig .tc) (hA : b ≠ main_v1_0) (hB : b ≠ main_v1_1) : W2 m c b = Gen.V1 m c b := by
  unfold W2
  rw [Function.update_of_ne (StableHlo.devRef_ne_of_ne hB), Function.update_of_ne (StableHlo.devRef_ne_of_ne hA)]

/-- The contents after the four reshapes: what stage two is entered from. -/
abbrev W3 (c : Dev nD) : Valuation τ sig (Elt F) := StableHlo.after hostOps1 (W2 m c)
abbrev E3 (c : Dev nD) (b : Ref sig .tc) : Buf (Elt F) ((c : Thread nD τ).loc b) := W3 m c b

/-- What stage two leaves in its two output arrays. -/
@[irreducible] def outA (c : Dev nD) : Buf (Elt F) ((c : Thread nD τ).loc main_v6_0) := (Stage2.dat (E3 m) c).arrAt 11 cfg1.N
@[irreducible] def outB (c : Dev nD) : Buf (Elt F) ((c : Thread nD τ).loc main_v6_1) := (Stage2.dat (E3 m) c).arrAt 12 cfg1.N

theorem outA_def (c : Dev nD) : outA m c = (Stage2.dat (E3 m) c).arrAt 11 cfg1.N := by unfold outA; rfl
theorem outB_def (c : Dev nD) : outB m c = (Stage2.dat (E3 m) c).arrAt 12 cfg1.N := by unfold outB; rfl

/-- The contents after stage two. -/
@[irreducible] def W4 (c : Dev nD) : Valuation τ sig (Elt F) :=
  Function.update (Function.update (W3 m c) main_v6_0 (outA m c)) main_v6_1 (outB m c)

/-- After stage two its two outputs hold what it leaves, and every other buffer what it held. -/
theorem W4_outA (c : Dev nD) : W4 m c main_v6_0 = outA m c := by
  unfold W4
  rw [Function.update_of_ne (StableHlo.devRef_ne_of_ne (by decide : (main_v6_0 : Ref sig .tc) ≠ main_v6_1)), Function.update_self]
theorem W4_outB (c : Dev nD) : W4 m c main_v6_1 = outB m c := by
  unfold W4
  rw [Function.update_self]
theorem W4_of_ne (c : Dev nD) (b : Ref sig .tc) (hA : b ≠ main_v6_0) (hB : b ≠ main_v6_1) : W4 m c b = W3 m c b := by
  unfold W4
  rw [Function.update_of_ne (StableHlo.devRef_ne_of_ne hB), Function.update_of_ne (StableHlo.devRef_ne_of_ne hA)]

/-- The contents at the end. -/
abbrev W5 (c : Dev nD) : Valuation τ sig (Elt F) := StableHlo.after hostOps2 (W4 m c)

/-- The regions' results as the conditional frame's unknowns. -/
@[irreducible] def outs : Gen.Outs (F := F) := fun j r c => if j = 2 then W2 m c r else W4 m c r

theorem outs_two (r : Ref sig .tc) (c : Dev nD) : outs m 2 r c = W2 m c r := by
  unfold outs; exact if_pos rfl
theorem outs_four (r : Ref sig .tc) (c : Dev nD) : outs m 4 r c = W4 m c r := by
  unfold outs; exact if_neg (by decide)

theorem V2_eq (c : Dev nD) : Gen.V2 m (outs m) c = W2 m c := by
  unfold Gen.V2
  rw [outs_two, outs_two, W2_hidA, W2_hidB]
  unfold W2
  rfl

theorem V3_eq (c : Dev nD) : Gen.V3 m (outs m) c = W3 m c := by
  unfold Gen.V3; rw [V2_eq]

theorem V4_eq (c : Dev nD) : Gen.V4 m (outs m) c = W4 m c := by
  unfold Gen.V4
  rw [outs_four, outs_four, W4_outA, W4_outB, V3_eq]
  unfold W4
  rfl

theorem V5_eq (c : Dev nD) : Gen.V5 m (outs m) c = W5 m c := by
  unfold Gen.V5; rw [V4_eq]

/-- Every pipeline's proof data, each at its region's entry contents. -/
def pdats : (p : Fin 2) → (c : Dev nD) → Dat τ (Elt F) Unit ℕ (UR sig nD τ) ℕ (cfgs p) c
  | ⟨0, _⟩ => fun c => Stage1.dat (E1 m) c
  | ⟨1, _⟩ => fun c => Stage2.dat (E3 m) c

end Cert.KernelIdeal.Launch

end
-- ==== Proof.IdealShare.lean ====
/-
  Two windows on one array. In each of the program's two pipelines, windows 0 and 1 read the same buffer, every other
  window a buffer of its own. The distinct buffers behind the windows' arrays, each held whole at the full share, are then
  the pipeline's windowed arrays: the shared buffer's full share is its left half, held by window 0, together with its
  right half, held by window 1, and every other buffer is held at the full share by its one window. Also: the unscoped
  buffers that are no window's array depend on a valuation only off the windows' arrays.
-/
import proofs.«110692_g7576322310719_cont_9to1c4b_828_13_alg».proof.Proof.Gen.KernelIdeal.Launch
import Idealize.ShloMosaic.Rules.PointsTo
import Idealize.SL.RA.TreeShare

noncomputable section

namespace Cert.KernelIdeal.Share

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

/-- A whole buffer at the full share is the same buffer at the two half shares. -/
theorem full_eq_halves (c : Dev nD) (V : (b : Ref sig .tc) → Buf (Elt F) ((c : Thread nD τ).loc b)) (b : Ref sig .tc) :
    (((c : Thread nD τ).loc b) ↦{fullShare} V b : sProp 𝕄)
      = iprop((((c : Thread nD τ).loc b) ↦{fullShare.left} V b) ∗ (((c : Thread nD τ).loc b) ↦{fullShare.right} V b)) :=
  have h := pointsTo_share (nD := nD) (τ := τ) (sig := sig) (Ix := Unit) (Val := Elt F) (Name := ℕ) (U := UR sig nD τ) (Lvl := ℕ)
    (ℓ := (c : Thread nD τ).loc b) (I := Finset.univ) (f := V b) (PosShare.mem_left_op_right fullShare)
  BI.equiv_iff.mp ⟨h.1, h.2⟩

/-- The distinct buffers behind custom_call 0's windows, listed in the windows' order. -/
theorem arrBufs0_eq (c : Dev nD) (V : (b : Ref sig .tc) → Buf (Elt F) ((c : Thread nD τ).loc b)) :
    (Pipeline.arrBufs spec0 c V : sProp 𝕄)
      = bigSepL [main_arg2, main_arg0, main_arg3, main_v0, main_arg5, main_v1_0, main_v1_1]
          (fun b => (((c : Thread nD τ).loc b) ↦{fullShare} V b : sProp 𝕄)) := by
  unfold Pipeline.arrBufs
  exact bigSep_eq_bigSepL_of_eq _ (by decide) (by decide) _

/-- One window's term of the pipeline's arrays: the buffer `b` behind its array, whole, at the window's share. -/
theorem win0_term (c : Dev nD) (q : PosShare TreeShare)
    (V : (b : Ref sig .tc) → Buf (Elt F) ((c : Thread nD τ).loc b))
    (Fw : (w : Fin cfg0.W) → Buf (Elt F) ((cfg0.win w).arr.view.loc (c.tc : Thread nD τ))) (hF : ∀ w, Fw w = V (Pipeline.arrRef spec0 w))
    (w : Fin cfg0.W) (b : Ref sig .tc) (hb : Pipeline.arrRef spec0 w = b) :
    ((cfg0.win w).arr.view.loc (c.tc : Thread nD τ) ↦[(cfg0.win w).arr.view.set]{q} Fw w : sProp 𝕄)
      = (((c : Thread nD τ).loc b) ↦{q} V b) := by
  subst hb
  rw [(arr_whole0 w).set_eq_univ, hF]

/-- The buffers behind custom_call 0's windows, each whole at the full share, are the pipeline's arrays: the one buffer
    behind windows 0 and 1 is held half by each, every other buffer wholly by its window. -/
theorem arrays0_eq (c : Dev nD) (dat : Dat τ (Elt F) Unit ℕ (UR sig nD τ) ℕ cfg0 c)
    (hs0 : dat.share 0 = fullShare.left) (hs1 : dat.share 1 = fullShare.right) (hs : ∀ w : Fin cfg0.W, 2 ≤ w.val → dat.share w = fullShare)
    (V : (b : Ref sig .tc) → Buf (Elt F) ((c : Thread nD τ).loc b))
    (Fw : (w : Fin cfg0.W) → Buf (Elt F) ((cfg0.win w).arr.view.loc (c.tc : Thread nD τ))) (hF : ∀ w, Fw w = V (Pipeline.arrRef spec0 w)) :
    (Pipeline.arrBufs spec0 c V : sProp 𝕄) = dat.arrays Fw := by
  rw [arrBufs0_eq]
  unfold Dat.arrays
  rw [Gen.bigSep_W0]
  rw [win0_term c _ V Fw hF 0 main_arg2 rfl,
    win0_term c _ V Fw hF 1 main_arg2 rfl,
    win0_term c _ V Fw hF 2 main_arg0 rfl,
    win0_term c _ V Fw hF 3 main_arg3 rfl,
    win0_term c _ V Fw hF 4 main_v0 rfl,
    win0_term c _ V Fw hF 5 main_arg5 rfl,
    win0_term c _ V Fw hF 6 main_v1_0 rfl,
    win0_term c _ V Fw hF 7 main_v1_1 rfl]
  rw [hs0, hs1, hs 2 (by decide), hs 3 (by decide), hs 4 (by decide), hs 5 (by decide), hs 6 (by decide), hs 7 (by decide)]
  simp only [bigSepL_cons_cons, bigSepL_singleton]
  rw [full_eq_halves c V main_arg2]
  exact BI.sep_assoc.antisymm BI.sep_assoc'

theorem arrays0_iff (c : Dev nD) (dat : Dat τ (Elt F) Unit ℕ (UR sig nD τ) ℕ cfg0 c)
    (hs0 : dat.share 0 = fullShare.left) (hs1 : dat.share 1 = fullShare.right) (hs : ∀ w : Fin cfg0.W, 2 ≤ w.val → dat.share w = fullShare)
    (V : (b : Ref sig .tc) → Buf (Elt F) ((c : Thread nD τ).loc b))
    (Fw : (w : Fin cfg0.W) → Buf (Elt F) ((cfg0.win w).arr.view.loc (c.tc : Thread nD τ))) (hF : ∀ w, Fw w = V (Pipeline.arrRef spec0 w)) :
    (Pipeline.arrBufs spec0 c V : sProp 𝕄) ⊣⊢ dat.arrays Fw := by
  rw [arrays0_eq c dat hs0 hs1 hs V Fw hF]

/-- The unscoped buffers that are no window's array of custom_call 0 depend on the contents only off the windows' arrays. -/
theorem unscopedRest0_congr (c : Dev nD) (V V' : (b : Ref sig .tc) → Buf (Elt F) ((c : Thread nD τ).loc b))
    (h : ∀ b, b ∉ Finset.univ.image (Pipeline.arrRef spec0) → V' b = V b) :
    (Pipeline.unscopedRest (Ix := Unit) (Name := ℕ) (U := UR sig nD τ) (Lvl := ℕ) spec0 c V' : sProp 𝕄) = Pipeline.unscopedRest spec0 c V := by
  unfold Pipeline.unscopedRest
  exact bigSep_congr fun b hb => by rw [h b (Finset.mem_sdiff.mp hb).2]

/-- The distinct buffers behind custom_call 1's windows, listed in the windows' order. -/
theorem arrBufs1_eq (c : Dev nD) (V : (b : Ref sig .tc) → Buf (Elt F) ((c : Thread nD τ).loc b)) :
    (Pipeline.arrBufs spec1 c V : sProp 𝕄)
      = bigSepL [main_arg1, main_v1_0, main_v1_1, main_v2, main_arg7, main_v3, main_arg9, main_v4, main_arg11, main_v5, main_v6_0, main_v6_1]
          (fun b => (((c : Thread nD τ).loc b) ↦{fullShare} V b : sProp 𝕄)) := by
  unfold Pipeline.arrBufs
  exact bigSep_eq_bigSepL_of_eq _ (by decide) (by decide) _

/-- One window's term of the pipeline's arrays: the buffer `b` behind its array, whole, at the window's share. -/
theorem win1_term (c : Dev nD) (q : PosShare TreeShare)
    (V : (b : Ref sig .tc) → Buf (Elt F) ((c : Thread nD τ).loc b))
    (Fw : (w : Fin cfg1.W) → Buf (Elt F) ((cfg1.win w).arr.view.loc (c.tc : Thread nD τ))) (hF : ∀ w, Fw w = V (Pipeline.arrRef spec1 w))
    (w : Fin cfg1.W) (b : Ref sig .tc) (hb : Pipeline.arrRef spec1 w = b) :
    ((cfg1.win w).arr.view.loc (c.tc : Thread nD τ) ↦[(cfg1.win w).arr.view.set]{q} Fw w : sProp 𝕄)
      = (((c : Thread nD τ).loc b) ↦{q} V b) := by
  subst hb
  rw [(arr_whole1 w).set_eq_univ, hF]

/-- The buffers behind custom_call 1's windows, each whole at the full share, are the pipeline's arrays: the one buffer
    behind windows 0 and 1 is held half by each, every other buffer wholly by its window. -/
theorem arrays1_eq (c : Dev nD) (dat : Dat τ (Elt F) Unit ℕ (UR sig nD τ) ℕ cfg1 c)
    (hs0 : dat.share 0 = fullShare.left) (hs1 : dat.share 1 = fullShare.right) (hs : ∀ w : Fin cfg1.W, 2 ≤ w.val → dat.share w = fullShare)
    (V : (b : Ref sig .tc) → Buf (Elt F) ((c : Thread nD τ).loc b))
    (Fw : (w : Fin cfg1.W) → Buf (Elt F) ((cfg1.win w).arr.view.loc (c.tc : Thread nD τ))) (hF : ∀ w, Fw w = V (Pipeline.arrRef spec1 w)) :
    (Pipeline.arrBufs spec1 c V : sProp 𝕄) = dat.arrays Fw := by
  rw [arrBufs1_eq]
  unfold Dat.arrays
  rw [Gen.bigSep_W1]
  rw [win1_term c _ V Fw hF 0 main_arg1 rfl,
    win1_term c _ V Fw hF 1 main_arg1 rfl,
    win1_term c _ V Fw hF 2 main_v1_0 rfl,
    win1_term c _ V Fw hF 3 main_v1_1 rfl,
    win1_term c _ V Fw hF 4 main_v2 rfl,
    win1_term c _ V Fw hF 5 main_arg7 rfl,
    win1_term c _ V Fw hF 6 main_v3 rfl,
    win1_term c _ V Fw hF 7 main_arg9 rfl,
    win1_term c _ V Fw hF 8 main_v4 rfl,
    win1_term c _ V Fw hF 9 main_arg11 rfl,
    win1_term c _ V Fw hF 10 main_v5 rfl,
    win1_term c _ V Fw hF 11 main_v6_0 rfl,
    win1_term c _ V Fw hF 12 main_v6_1 rfl]
  rw [hs0, hs1, hs 2 (by decide), hs 3 (by decide), hs 4 (by decide), hs 5 (by decide), hs 6 (by decide), hs 7 (by decide), hs 8 (by decide), hs 9 (by decide), hs 10 (by decide), hs 11 (by decide), hs 12 (by decide)]
  simp only [bigSepL_cons_cons, bigSepL_singleton]
  rw [full_eq_halves c V main_arg1]
  exact BI.sep_assoc.antisymm BI.sep_assoc'

theorem arrays1_iff (c : Dev nD) (dat : Dat τ (Elt F) Unit ℕ (UR sig nD τ) ℕ cfg1 c)
    (hs0 : dat.share 0 = fullShare.left) (hs1 : dat.share 1 = fullShare.right) (hs : ∀ w : Fin cfg1.W, 2 ≤ w.val → dat.share w = fullShare)
    (V : (b : Ref sig .tc) → Buf (Elt F) ((c : Thread nD τ).loc b))
    (Fw : (w : Fin cfg1.W) → Buf (Elt F) ((cfg1.win w).arr.view.loc (c.tc : Thread nD τ))) (hF : ∀ w, Fw w = V (Pipeline.arrRef spec1 w)) :
    (Pipeline.arrBufs spec1 c V : sProp 𝕄) ⊣⊢ dat.arrays Fw := by
  rw [arrays1_eq c dat hs0 hs1 hs V Fw hF]

/-- The unscoped buffers that are no window's array of custom_call 1 depend on the contents only off the windows' arrays. -/
theorem unscopedRest1_congr (c : Dev nD) (V V' : (b : Ref sig .tc) → Buf (Elt F) ((c : Thread nD τ).loc b))
    (h : ∀ b, b ∉ Finset.univ.image (Pipeline.arrRef spec1) → V' b = V b) :
    (Pipeline.unscopedRest (Ix := Unit) (Name := ℕ) (U := UR sig nD τ) (Lvl := ℕ) spec1 c V' : sProp 𝕄) = Pipeline.unscopedRest spec1 c V := by
  unfold Pipeline.unscopedRest
  exact bigSep_congr fun b hb => by rw [h b (Finset.mem_sdiff.mp hb).2]

end Cert.KernelIdeal.Share

end
-- ==== Proof.IdealRegions.lean ====
/-
  The two pallas_calls of the idealized kernel as regions of @main, over the thread state "every unscoped buffer at
  the boundary's contents, the generator register at some state, nothing owed". A region's arrays are split out of
  the unscoped buffers at its entry — the adjacency array, read through two windows, as two half shares — and put
  back at its exit at the contents the pipeline's write-backs leave; the generator register and the scoped rest go
  through the region's invariant; no semaphore of the kernel's own.
-/
import proofs.«110692_g7576322310719_cont_9to1c4b_828_13_alg».proof.Proof.IdealFold
import proofs.«110692_g7576322310719_cont_9to1c4b_828_13_alg».proof.Proof.IdealShare

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## Stage one's arrays at entry and exit -/

theorem share0_0 (c : Dev nD) : (pdats m 0 c).share 0 = fullShare.left := rfl
theorem share0_1 (c : Dev nD) : (pdats m 0 c).share 1 = fullShare.right := rfl
theorem share0_rest (c : Dev nD) : ∀ w : Fin cfg0.W, 2 ≤ w.val → (pdats m 0 c).share w = fullShare
  | ⟨0, _⟩, h => absurd h (by simp)
  | ⟨1, _⟩, h => absurd h (by simp)
  | ⟨2, _⟩, _ => rfl
  | ⟨3, _⟩, _ => rfl
  | ⟨4, _⟩, _ => rfl
  | ⟨5, _⟩, _ => rfl
  | ⟨6, _⟩, _ => rfl
  | ⟨7, _⟩, _ => rfl

theorem arr0_entry (c : Dev nD) (w : Fin cfg0.W) : (pdats m 0 c).arrAt w 0 = E1 m c (Pipeline.arrRef spec0 w) :=
  Stage1.A_eq (E1 m) c w

set_option maxHeartbeats 4000000 in
/-- An input array is as entered at the exit; each output array holds what the write-backs leave. -/
theorem arr0_exit (c : Dev nD) : ∀ w : Fin cfg0.W, (pdats m 0 c).arrAt w cfg0.N = W2 m c (Pipeline.arrRef spec0 w)
  | ⟨0, _⟩ => ((pdats m 0 c).arrAt_in 0 rfl _).trans ((Stage1.A_eq (E1 m) c 0).trans (W2_of_ne m c _ (by decide) (by decide)).symm)
  | ⟨1, _⟩ => ((pdats m 0 c).arrAt_in 1 rfl _).trans ((Stage1.A_eq (E1 m) c 1).trans (W2_of_ne m c _ (by decide) (by decide)).symm)
  | ⟨2, _⟩ => ((pdats m 0 c).arrAt_in 2 rfl _).trans ((Stage1.A_eq (E1 m) c 2).trans (W2_of_ne m c _ (by decide) (by decide)).symm)
  | ⟨3, _⟩ => ((pdats m 0 c).arrAt_in 3 rfl _).trans ((Stage1.A_eq (E1 m) c 3).trans (W2_of_ne m c _ (by decide) (by decide)).symm)
  | ⟨4, _⟩ => ((pdats m 0 c).arrAt_in 4 rfl _).trans ((Stage1.A_eq (E1 m) c 4).trans (W2_of_ne m c _ (by decide) (by decide)).symm)
  | ⟨5, _⟩ => ((pdats m 0 c).arrAt_in 5 rfl _).trans ((Stage1.A_eq (E1 m) c 5).trans (W2_of_ne m c _ (by decide) (by decide)).symm)
  | ⟨6, _⟩ => (hidA_def m c).symm.trans (W2_hidA m c).symm
  | ⟨7, _⟩ => (hidB_def m c).symm.trans (W2_hidB m c).symm

/-- Off stage one's arrays the contents do not change. -/
theorem rest0 (c : Dev nD) (b : Ref sig .tc) (hb : b ∉ Finset.univ.image (Pipeline.arrRef spec0)) : W2 m c b = E1 m c b := by
  have h6 : b ≠ main_v1_0 := fun e => hb (Finset.mem_image.mpr ⟨6, Finset.mem_univ _, e.symm⟩)
  have h7 : b ≠ main_v1_1 := fun e => hb (Finset.mem_image.mpr ⟨7, Finset.mem_univ _, e.symm⟩)
  exact W2_of_ne m c b h6 h7

theorem entry0 (c : Dev nD) :
    (StableHlo.held (c : Thread nD τ) (Pipeline.ucRefs τ sig) (Gen.V1 m c) : sProp 𝕄)
      ⊢ iprop((pdats m 0 c).arrays ((pdats m 0 c).arrAt · 0) ∗ Pipeline.unscopedRest spec0 c (E1 m c)) := by
  rw [← Pipeline.unscopedBufs_held (Ix := Unit) (Name := ℕ) (U := UR sig nD τ) (Lvl := ℕ) c (Gen.V1 m c),
    Pipeline.unscopedBufs_split₀ cfgs 0 winFacts₀0.arr_unscoped c (E1 m c)]
  exact sep_mono (Share.arrays0_iff c (pdats m 0 c) (share0_0 m c) (share0_1 m c) (share0_rest m c) (E1 m c) _ (arr0_entry m c)).1 .rfl

theorem exit0 (c : Dev nD) :
    iprop((pdats m 0 c).arrays ((pdats m 0 c).arrAt · cfg0.N) ∗ Pipeline.unscopedRest spec0 c (E1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c (fun b => W2 m c b)]
  exact BIClass.sep_mono (Share.arrays0_iff c (pdats m 0 c) (share0_0 m c) (share0_1 m c) (share0_rest m c) (fun b => W2 m c b) _ (arr0_exit m c)).2
    (Entails.of_eq (Share.unscopedRest0_congr c (E1 m c) (fun b => W2 m c b) (rest0 m c)).symm)

/-! ## Stage two's arrays at entry and exit -/

theorem share1_0 (c : Dev nD) : (pdats m 1 c).share 0 = fullShare.left := rfl
theorem share1_1 (c : Dev nD) : (pdats m 1 c).share 1 = fullShare.right := rfl
theorem share1_rest (c : Dev nD) : ∀ w : Fin cfg1.W, 2 ≤ w.val → (pdats m 1 c).share w = fullShare
  | ⟨0, _⟩, h => absurd h (by simp)
  | ⟨1, _⟩, h => absurd h (by simp)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl

theorem arr1_entry (c : Dev nD) (w : Fin cfg1.W) : (pdats m 1 c).arrAt w 0 = E3 m c (Pipeline.arrRef spec1 w) :=
  Stage2.A_eq (E3 m) c w

set_option maxHeartbeats 4000000 in
theorem arr1_exit (c : Dev nD) : ∀ w : Fin cfg1.W, (pdats m 1 c).arrAt w cfg1.N = W4 m c (Pipeline.arrRef spec1 w)
  | ⟨0, _⟩ => ((pdats m 1 c).arrAt_in 0 rfl _).trans ((Stage2.A_eq (E3 m) c 0).trans (W4_of_ne m c _ (by decide) (by decide)).symm)
  | ⟨1, _⟩ => ((pdats m 1 c).arrAt_in 1 rfl _).trans ((Stage2.A_eq (E3 m) c 1).trans (W4_of_ne m c _ (by decide) (by decide)).symm)
  | ⟨2, _⟩ => ((pdats m 1 c).arrAt_in 2 rfl _).trans ((Stage2.A_eq (E3 m) c 2).trans (W4_of_ne m c _ (by decide) (by decide)).symm)
  | ⟨3, _⟩ => ((pdats m 1 c).arrAt_in 3 rfl _).trans ((Stage2.A_eq (E3 m) c 3).trans (W4_of_ne m c _ (by decide) (by decide)).symm)
  | ⟨4, _⟩ => ((pdats m 1 c).arrAt_in 4 rfl _).trans ((Stage2.A_eq (E3 m) c 4).trans (W4_of_ne m c _ (by decide) (by decide)).symm)
  | ⟨5, _⟩ => ((pdats m 1 c).arrAt_in 5 rfl _).trans ((Stage2.A_eq (E3 m) c 5).trans (W4_of_ne m c _ (by decide) (by decide)).symm)
  | ⟨6, _⟩ => ((pdats m 1 c).arrAt_in 6 rfl _).trans ((Stage2.A_eq (E3 m) c 6).trans (W4_of_ne m c _ (by decide) (by decide)).symm)
  | ⟨7, _⟩ => ((pdats m 1 c).arrAt_in 7 rfl _).trans ((Stage2.A_eq (E3 m) c 7).trans (W4_of_ne m c _ (by decide) (by decide)).symm)
  | ⟨8, _⟩ => ((pdats m 1 c).arrAt_in 8 rfl _).trans ((Stage2.A_eq (E3 m) c 8).trans (W4_of_ne m c _ (by decide) (by decide)).symm)
  | ⟨9, _⟩ => ((pdats m 1 c).arrAt_in 9 rfl _).trans ((Stage2.A_eq (E3 m) c 9).trans (W4_of_ne m c _ (by decide) (by decide)).symm)
  | ⟨10, _⟩ => ((pdats m 1 c).arrAt_in 10 rfl _).trans ((Stage2.A_eq (E3 m) c 10).trans (W4_of_ne m c _ (by decide) (by decide)).symm)
  | ⟨11, _⟩ => (outA_def m c).symm.trans (W4_outA m c).symm
  | ⟨12, _⟩ => (outB_def m c).symm.trans (W4_outB m c).symm

theorem rest1 (c : Dev nD) (b : Ref sig .tc) (hb : b ∉ Finset.univ.image (Pipeline.arrRef spec1)) : W4 m c b = E3 m c b := by
  have h11 : b ≠ main_v6_0 := fun e => hb (Finset.mem_image.mpr ⟨11, Finset.mem_univ _, e.symm⟩)
  have h12 : b ≠ main_v6_1 := fun e => hb (Finset.mem_image.mpr ⟨12, Finset.mem_univ _, e.symm⟩)
  exact W4_of_ne m c b h11 h12

theorem entry1 (c : Dev nD) :
    (StableHlo.held (c : Thread nD τ) (Pipeline.ucRefs τ sig) (W3 m c) : sProp 𝕄)
      ⊢ iprop((pdats m 1 c).arrays ((pdats m 1 c).arrAt · 0) ∗ Pipeline.unscopedRest spec1 c (E3 m c)) := by
  rw [← Pipeline.unscopedBufs_held (Ix := Unit) (Name := ℕ) (U := UR sig nD τ) (Lvl := ℕ) c (W3 m c),
    Pipeline.unscopedBufs_split₀ cfgs 1 winFacts₀1.arr_unscoped c (E3 m c)]
  exact sep_mono (Share.arrays1_iff c (pdats m 1 c) (share1_0 m c) (share1_1 m c) (share1_rest m c) (E3 m c) _ (arr1_entry m c)).1 .rfl

theorem exit1 (c : Dev nD) :
    iprop((pdats m 1 c).arrays ((pdats m 1 c).arrAt · cfg1.N) ∗ Pipeline.unscopedRest spec1 c (E3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs 1 winFacts₀1.arr_unscoped c (fun b => W4 m c b)]
  exact BIClass.sep_mono (Share.arrays1_iff c (pdats m 1 c) (share1_0 m c) (share1_1 m c) (share1_rest m c) (fun b => W4 m c b) _ (arr1_exit m c)).2
    (Entails.of_eq (Share.unscopedRest1_congr c (E3 m c) (fun b => W4 m c b) (rest1 m c)).symm)

/-! ## The regions as segments -/

set_option backward.isDefEq.respectTransparency.types false in
/-- Stage one, entered from the contents after the first reshape and left at `W2`. -/
def reg0 : Pipeline.RegionSeg (pcfgs (F := F)) Gen.adm (pdats m) () defs₀ Variants.none Lz lvz 0 where
  win := winFacts₀0
  block_pos := block_pos0
  stage_whole := stage_whole0
  K := PEmpty
  osem k := k.elim
  ho := Pipeline.OwnSemFacts.none _
  hbody c := (Stage1.body_obligation (E1 m) c).loose
  hwaits := Pipeline.hwaits_of_owed_zero _ _ _ _ Lz lvz 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage two, entered from the contents after the four reshapes and left at `W4`. Its invariant takes the scoped rest
    in with the scratch at anything and gives it back with the scratch at the hidden array, which is again "anything". -/
def reg1 : Pipeline.RegionSeg (pcfgs (F := F)) Gen.adm (pdats m) () defs₀ Variants.none Lz lvz 1 where
  win := winFacts₀1
  block_pos := block_pos1
  stage_whole := stage_whole1
  K := PEmpty
  osem k := k.elim
  ho := Pipeline.OwnSemFacts.none _
  hbody c := (Stage2.body_obligation (E3 m) c).loose
  hwaits := Pipeline.hwaits_of_owed_zero _ _ _ _ Lz lvz 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Stage2.PhiS (E3 m) c cfg1.N from rfl,
      Stage2.PhiS_pos (E3 m) c cfg1.N (by decide)]
    have hback : Stage2.PhiWith c (owns (c : Thread nD τ) Stage2.scM fullShare (Stage2.hiddenAll (E3 m) c)) ⊢ (Pipeline.ΦA spec1 c : sProp 𝕄) := by
      rw [Stage2.PhiA_eq]; unfold Stage2.PhiWith
      iintro ⟨⟨S0, S1, S2, S3, S4, S5, S6, S7, S8, S9, S10, S11, HS⟩, Hg⟩
      isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        iexists _; iexact HS
      iexact Hg
    refine hback.trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

end Cert.KernelIdeal.Launch

end
-- ==== Proof.IdealFrames.lean ====
/-
  The kernel program's @main runs, at any float instance: every weakly fair execution from any memory with zero
  counters terminates, nothing faulting, and the arguments end as launched — the generated conditional frame at the
  two regions' records, with the unknown contents the regions leave set to what they do leave.
-/
import proofs.«110692_g7576322310719_cont_9to1c4b_828_13_alg».proof.Proof.IdealRegions

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element is the pipeline library's own. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core's first rest state from what the launch deals it: the generator register, and owing nothing. -/
theorem first_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lz lvz)
      ⊢ (|={Set.univ}=> bigSep Finset.univ (fun c : Dev nD => R (F := F) c) : sProp 𝕄) := by
  refine Pipeline.initEach Lz lvz fun c => ?_
  iintro ⟨⟨-, HO, -, Hp, -⟩, -⟩
  imodintro
  isplitl [Hp]; · iexists _; iexact Hp
  iexists ∅; iexact HO

set_option backward.isDefEq.respectTransparency.types false in
/-- THE FRAME of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m emb₁ () Variants.none Lz lvz (fun _ _ => rfl) ρ (outs m) (pdats m) 0 (fun _ => iprop(emp))
    (initOf (Pipeline.cells cfgs cellOf_inj) (Pipeline.launchToks cfgs cellOf_inj)) launch_elt
    (fun _ c => R c) (first_rest ρ) (fun c => by iintro ⟨-, HO⟩; iexact HO)
    (reg0 m) (fun c => .rfl) (fun c => by rw [V2_eq]; exact .rfl)
    (reg1 m) (fun c => by rw [V3_eq]; exact .rfl) (fun c => by rw [V4_eq]; exact .rfl)

end Cert.KernelIdeal.Launch

end
-- ==== Proof.Spec.lean ====
/-
  The mathematics both programs compute, on the extended reals, written index by index over plain coordinate types
  (no program is mentioned here). Matrices are functions of a row and a column coordinate.

  * `mm a w` is the matrix product, `dense a w b` the product plus a bias row, `act` the hyperbolic tangent entrywise.
  * `hiddenK` is the hidden layer as the kernel associates it, `((G · x) · W_s + b_s).tanh · W_f`, and `hiddenR` as the
    reference does, `(G · (x · W_s) + b_s).tanh · W_f`.
  * `head` is what follows: one propagation over the sample adjacency and three dense layers,
    `tanh(tanh(tanh(A · hf + b_f) · W1 + b1) · W2 + b2) · W3 + b3`.
-/
import Idealize.ShloMosaic.PureOps.Ideal
import Idealize.ShloMosaic.Lib.ValueIdx

noncomputable section

namespace Cert.Spec

open Idealize.ShloMosaic

variable {I : Type} {N D D' D'' D1 D2 D3 K J : ℕ}

/-- The matrix product over the extended reals. -/
def mm (a : I → Fin K → EReal) (w : Fin K → Fin J → EReal) : I → Fin J → EReal :=
  fun i j => ∑ k : Fin K, a i k * w k j

/-- A dense layer before its activation: the product plus the bias row. -/
def dense (a : I → Fin K → EReal) (w : Fin K → Fin J → EReal) (b : Fin J → EReal) : I → Fin J → EReal :=
  fun i j => mm a w i j + b j

/-- The activation, entry by entry. -/
def act (u : I → Fin J → EReal) : I → Fin J → EReal := fun i j => Ideal.tanh (u i j)

/-- The hidden layer, associated as the kernel computes it: the adjacency rows times the features first. -/
def hiddenK (G : I → Fin N → EReal) (x : Fin N → Fin D → EReal) (Ws : Fin D → Fin D' → EReal) (bs : Fin D' → EReal)
    (Wf : Fin D' → Fin D'' → EReal) : I → Fin D'' → EReal :=
  mm (act (dense (mm G x) Ws bs)) Wf

/-- The hidden layer, associated as the reference computes it: the features times the weights first. -/
def hiddenR (G : I → Fin N → EReal) (x : Fin N → Fin D → EReal) (Ws : Fin D → Fin D' → EReal) (bs : Fin D' → EReal)
    (Wf : Fin D' → Fin D'' → EReal) : I → Fin D'' → EReal :=
  mm (act (fun i j => mm G (mm x Ws) i j + bs j)) Wf

/-- The propagation over the sample adjacency and the three dense layers after it. -/
def head (A : I → Fin N → EReal) (hf : Fin N → Fin D → EReal) (bf : Fin D → EReal)
    (W1 : Fin D → Fin D1 → EReal) (b1 : Fin D1 → EReal) (W2 : Fin D1 → Fin D2 → EReal) (b2 : Fin D2 → EReal)
    (W3 : Fin D2 → Fin D3 → EReal) (b3 : Fin D3 → EReal) : I → Fin D3 → EReal :=
  dense (act (dense (act (dense (act (dense A hf bf)) W1 b1)) W2 b2)) W3 b3

/-- The product only looks at the rows it is asked for: restricting the left factor's rows restricts the product's. -/
theorem mm_rows {I' : Type} (f : I' → I) (a : I → Fin K → EReal) (w : Fin K → Fin J → EReal) :
    mm (fun i => a (f i)) w = fun i => mm a w (f i) := rfl

theorem hiddenK_rows {I' : Type} (f : I' → I) (G : I → Fin N → EReal) (x : Fin N → Fin D → EReal) (Ws : Fin D → Fin D' → EReal)
    (bs : Fin D' → EReal) (Wf : Fin D' → Fin D'' → EReal) :
    hiddenK (fun i => G (f i)) x Ws bs Wf = fun i => hiddenK G x Ws bs Wf (f i) := rfl

theorem head_rows {I' : Type} (f : I' → I) (A : I → Fin N → EReal) (hf : Fin N → Fin D → EReal) (bf : Fin D → EReal)
    (W1 : Fin D → Fin D1 → EReal) (b1 : Fin D1 → EReal) (W2 : Fin D1 → Fin D2 → EReal) (b2 : Fin D2 → EReal)
    (W3 : Fin D2 → Fin D3 → EReal) (b3 : Fin D3 → EReal) :
    head (fun i => A (f i)) hf bf W1 b1 W2 b2 W3 b3 = fun i => head A hf bf W1 b1 W2 b2 W3 b3 (f i) := rfl

end Cert.Spec

end
-- ==== Proof.SpecIdx.lean ====
/-
  Arrays as matrices: a rank-2 array read as a function of its row and column coordinates, a rank-1 array and a
  one-row array as functions of one coordinate — the forms `Cert.Spec`'s definitions take their arguments in.
-/
import proofs.«110692_g7576322310719_cont_9to1c4b_828_13_alg».proof.Proof.Spec

noncomputable section

namespace Cert.Spec

open Idealize.ShloMosaic

/-- A rank-2 array as a function of its two coordinates. -/
def mat {n0 n1 : ℕ} (v : (⟨2, ![n0, n1]⟩ : Shape).Idx → EReal) : Fin n0 → Fin n1 → EReal := fun i j => v (ValueIdx.ix2 i j)

/-- A rank-1 array as a function of its coordinate. -/
def vec {n : ℕ} (v : (⟨1, ![n]⟩ : Shape).Idx → EReal) : Fin n → EReal := fun k => v (ValueIdx.ix1 k)

/-- A one-row array as a function of the column. -/
def row {n : ℕ} (v : (⟨2, ![1, n]⟩ : Shape).Idx → EReal) : Fin n → EReal := fun k => v (ValueIdx.ix2 0 k)

end Cert.Spec

end
-- ==== Proof.IdealPayloads.lean ====
/-
  The values the two kernel bodies store, read entry by entry. Each body's stored value is a chain of matrix products
  into a zero accumulator, one-row biases spread over the rows, and the hyperbolic tangent entrywise; at the row `p` and
  column `q` of the stored block it is the specification's `hiddenK` (first body) or `head` (second body) of its
  operands read as matrices.
-/
import proofs.«110692_g7576322310719_cont_9to1c4b_828_13_alg».proof.Proof.Gen.KernelIdeal.Skeleton
import proofs.«110692_g7576322310719_cont_9to1c4b_828_13_alg».proof.Proof.SpecIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Cert.Spec Idealize.ShloMosaic Idealize.ShloMosaic.ValueIdx

/-! ## The product of a [200, 10000] matrix by a [10000, 128] matrix -/

theorem lhs_10000_128_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_10000_128_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_10000_128_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_10000_128_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product into a zero accumulator, at row `p` and column `q`, is the specification's matrix product of the
    operands read as matrices: the sum over `k` of the left operand at `(p, k)` times the right at `(k, q)`. -/
theorem matmul_10000_128 (a : FVec Ideal S200x10000 .f32) (b : FVec Ideal S10000x128 .f32) (p : Fin 200) (q : Fin 128) :
    matmul dot_S200x10000_S10000x128_S200x128_1_0_0_1_n_n none a b (constant (F := Ideal) S200x128 .f32 0x00000000#32) (ix2 p q) = mm (mat a) (mat b) p q := by
  show FloatOps.matmul dot_S200x10000_S10000x128_S200x128_1_0_0_1_n_n none a b (constant (F := Ideal) S200x128 .f32 0x00000000#32) (ix2 p q) = ∑ k : Fin 10000, a (ix2 p k) * b (ix2 k q)
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact lhs_10000_128_0 _ _
    | ⟨1, _⟩ => exact (lhs_10000_128_1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (rhs_10000_128_0 _ _).trans hk
    | ⟨1, _⟩ => exact rhs_10000_128_1 _ _)
  rw [el, er]

/-- The same with the left operand already known as a matrix. -/
theorem matmul_10000_128_of (a : FVec Ideal S200x10000 .f32) (b : FVec Ideal S10000x128 .f32) (m : Fin 200 → Fin 10000 → EReal)
    (ha : mat a = m) (p : Fin 200) (q : Fin 128) :
    matmul dot_S200x10000_S10000x128_S200x128_1_0_0_1_n_n none a b (constant (F := Ideal) S200x128 .f32 0x00000000#32) (ix2 p q) = mm m (mat b) p q :=
  ha ▸ matmul_10000_128 a b p q

/-! ## The product of a [200, 128] matrix by a [128, 128] matrix -/

theorem lhs_128_128_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhs_128_128_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhs_128_128_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhs_128_128_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The product into a zero accumulator, at row `p` and column `q`, is the specification's matrix product of the
    operands read as matrices: the sum over `k` of the left operand at `(p, k)` times the right at `(k, q)`. -/
theorem matmul_128_128 (a : FVec Ideal S200x128 .f32) (b : FVec Ideal S128x128 .f32) (p : Fin 200) (q : Fin 128) :
    matmul dot_S200x128_S128x128_S200x128_1_0_0_1_n_n none a b (constant (F := Ideal) S200x128 .f32 0x00000000#32) (ix2 p q) = mm (mat a) (mat b) p q := by
  show FloatOps.matmul dot_S200x128_S128x128_S200x128_1_0_0_1_n_n none a b (constant (F := Ideal) S200x128 .f32 0x00000000#32) (ix2 p q) = ∑ k : Fin 128, a (ix2 p k) * b (ix2 k q)
  rw [Ideal.matmul_constant_zero_apply, ← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p q) ((contrEquiv1 dot_S200x128_S128x128_S200x128_1_0_0_1_n_n 128 rfl rfl).symm k) = ix2 p k := funext fun a => Fin.ext (by
    match a with
    | ⟨0, _⟩ => exact lhs_128_128_0 _ _
    | ⟨1, _⟩ => exact (lhs_128_128_1 _ _).trans hk)
  have er : dot_S200x128_S128x128_S200x128_1_0_0_1_n_n.rhsIdx (ix2 p q) ((contrEquiv1 dot_S200x128_S128x128_S200x128_1_0_0_1_n_n 128 rfl rfl).symm k) = ix2 k q := funext fun a => Fin.ext (by
    match a with
    | ⟨0, _⟩ => exact (rhs_128_128_0 _ _).trans hk
    | ⟨1, _⟩ => exact rhs_128_128_1 _ _)
  rw [el, er]

/-- The same with the left operand already known as a matrix. -/
theorem matmul_128_128_of (a : FVec Ideal S200x128 .f32) (b : FVec Ideal S128x128 .f32) (m : Fin 200 → Fin 128 → EReal)
    (ha : mat a = m) (p : Fin 200) (q : Fin 128) :
    matmul dot_S200x128_S128x128_S200x128_1_0_0_1_n_n none a b (constant (F := Ideal) S200x128 .f32 0x00000000#32) (ix2 p q) = mm m (mat b) p q :=
  ha ▸ matmul_128_128 a b p q

/-! ## The product of a [200, 128] matrix by a [128, 64] matrix -/

theorem lhs_128_64_0 (i : S200x64.Idx) (q : dot_S200x128_S128x64_S200x64_1_0_0_1_n_n.contr.Idx) :
    (dot_S200x128_S128x64_S200x64_1_0_0_1_n_n.lhsIdx i q 0).val = (i 0).val := by
  unfold DotDims.lhsIdx
  rw [dif_neg (show ¬(0 : Fin S200x128.rank) ∈ dot_S200x128_S128x64_S200x64_1_0_0_1_n_n.lhsBatch by decide), dif_pos (show (0 : Fin S200x128.rank) ∈ dot_S200x128_S128x64_S200x64_1_0_0_1_n_n.lhsNonContracting by decide)]
  rfl
theorem lhs_128_64_1 (i : S200x64.Idx) (q : dot_S200x128_S128x64_S200x64_1_0_0_1_n_n.contr.Idx) :
    (dot_S200x128_S128x64_S200x64_1_0_0_1_n_n.lhsIdx i q 1).val = (q ⟨0, by decide⟩).val :=
  dot_S200x128_S128x64_S200x64_1_0_0_1_n_n.lhsIdx_val_of_single rfl i q
theorem rhs_128_64_0 (i : S200x64.Idx) (q : dot_S200x128_S128x64_S200x64_1_0_0_1_n_n.contr.Idx) :
    (dot_S200x128_S128x64_S200x64_1_0_0_1_n_n.rhsIdx i q 0).val = (q ⟨0, by decide⟩).val :=
  dot_S200x128_S128x64_S200x64_1_0_0_1_n_n.rhsIdx_val_of_single rfl i q
theorem rhs_128_64_1 (i : S200x64.Idx) (q : dot_S200x128_S128x64_S200x64_1_0_0_1_n_n.contr.Idx) :
    (dot_S200x128_S128x64_S200x64_1_0_0_1_n_n.rhsIdx i q 1).val = (i 1).val := by
  unfold DotDims.rhsIdx
  rw [dif_neg (show ¬(1 : Fin S128x64.rank) ∈ dot_S200x128_S128x64_S200x64_1_0_0_1_n_n.rhsBatch by decide), dif_pos (show (1 : Fin S128x64.rank) ∈ dot_S200x128_S128x64_S200x64_1_0_0_1_n_n.rhsNonContracting by decide)]
  rfl

/-- The product into a zero accumulator, at row `p` and column `q`, is the specification's matrix product of the
    operands read as matrices: the sum over `k` of the left operand at `(p, k)` times the right at `(k, q)`. -/
theorem matmul_128_64 (a : FVec Ideal S200x128 .f32) (b : FVec Ideal S128x64 .f32) (p : Fin 200) (q : Fin 64) :
    matmul dot_S200x128_S128x64_S200x64_1_0_0_1_n_n none a b (constant (F := Ideal) S200x64 .f32 0x00000000#32) (ix2 p q) = mm (mat a) (mat b) p q := by
  show FloatOps.matmul dot_S200x128_S128x64_S200x64_1_0_0_1_n_n none a b (constant (F := Ideal) S200x64 .f32 0x00000000#32) (ix2 p q) = ∑ k : Fin 128, a (ix2 p k) * b (ix2 k q)
  rw [Ideal.matmul_constant_zero_apply, ← Equiv.sum_comp (contrEquiv1 dot_S200x128_S128x64_S200x64_1_0_0_1_n_n 128 rfl rfl).symm]
  refine Finset.sum_congr rfl fun k _ => ?_
  have hk := contrEquiv1_symm_val dot_S200x128_S128x64_S200x64_1_0_0_1_n_n 128 rfl rfl k
  have el : dot_S200x128_S128x64_S200x64_1_0_0_1_n_n.lhsIdx (ix2 p q) ((contrEquiv1 dot_S200x128_S128x64_S200x64_1_0_0_1_n_n 128 rfl rfl).symm k) = ix2 p k := funext fun a => Fin.ext (by
    match a with
    | ⟨0, _⟩ => exact lhs_128_64_0 _ _
    | ⟨1, _⟩ => exact (lhs_128_64_1 _ _).trans hk)
  have er : dot_S200x128_S128x64_S200x64_1_0_0_1_n_n.rhsIdx (ix2 p q) ((contrEquiv1 dot_S200x128_S128x64_S200x64_1_0_0_1_n_n 128 rfl rfl).symm k) = ix2 k q := funext fun a => Fin.ext (by
    match a with
    | ⟨0, _⟩ => exact (rhs_128_64_0 _ _).trans hk
    | ⟨1, _⟩ => exact rhs_128_64_1 _ _)
  rw [el, er]

/-- The same with the left operand already known as a matrix. -/
theorem matmul_128_64_of (a : FVec Ideal S200x128 .f32) (b : FVec Ideal S128x64 .f32) (m : Fin 200 → Fin 128 → EReal)
    (ha : mat a = m) (p : Fin 200) (q : Fin 64) :
    matmul dot_S200x128_S128x64_S200x64_1_0_0_1_n_n none a b (constant (F := Ideal) S200x64 .f32 0x00000000#32) (ix2 p q) = mm m (mat b) p q :=
  ha ▸ matmul_128_64 a b p q

/-! ## The product of a [200, 64] matrix by a [64, 16] matrix -/

theorem lhs_64_16_0 (i : S200x16.Idx) (q : dot_S200x64_S64x16_S200x16_1_0_0_1_n_n.contr.Idx) :
    (dot_S200x64_S64x16_S200x16_1_0_0_1_n_n.lhsIdx i q 0).val = (i 0).val := by
  unfold DotDims.lhsIdx
  rw [dif_neg (show ¬(0 : Fin S200x64.rank) ∈ dot_S200x64_S64x16_S200x16_1_0_0_1_n_n.lhsBatch by decide), dif_pos (show (0 : Fin S200x64.rank) ∈ dot_S200x64_S64x16_S200x16_1_0_0_1_n_n.lhsNonContracting by decide)]
  rfl
theorem lhs_64_16_1 (i : S200x16.Idx) (q : dot_S200x64_S64x16_S200x16_1_0_0_1_n_n.contr.Idx) :
    (dot_S200x64_S64x16_S200x16_1_0_0_1_n_n.lhsIdx i q 1).val = (q ⟨0, by decide⟩).val :=
  dot_S200x64_S64x16_S200x16_1_0_0_1_n_n.lhsIdx_val_of_single rfl i q
theorem rhs_64_16_0 (i : S200x16.Idx) (q : dot_S200x64_S64x16_S200x16_1_0_0_1_n_n.contr.Idx) :
    (dot_S200x64_S64x16_S200x16_1_0_0_1_n_n.rhsIdx i q 0).val = (q ⟨0, by decide⟩).val :=
  dot_S200x64_S64x16_S200x16_1_0_0_1_n_n.rhsIdx_val_of_single rfl i q
theorem rhs_64_16_1 (i : S200x16.Idx) (q : dot_S200x64_S64x16_S200x16_1_0_0_1_n_n.contr.Idx) :
    (dot_S200x64_S64x16_S200x16_1_0_0_1_n_n.rhsIdx i q 1).val = (i 1).val := by
  unfold DotDims.rhsIdx
  rw [dif_neg (show ¬(1 : Fin S64x16.rank) ∈ dot_S200x64_S64x16_S200x16_1_0_0_1_n_n.rhsBatch by decide), dif_pos (show (1 : Fin S64x16.rank) ∈ dot_S200x64_S64x16_S200x16_1_0_0_1_n_n.rhsNonContracting by decide)]
  rfl

/-- The product into a zero accumulator, at row `p` and column `q`, is the specification's matrix product of the
    operands read as matrices: the sum over `k` of the left operand at `(p, k)` times the right at `(k, q)`. -/
theorem matmul_64_16 (a : FVec Ideal S200x64 .f32) (b : FVec Ideal S64x16 .f32) (p : Fin 200) (q : Fin 16) :
    matmul dot_S200x64_S64x16_S200x16_1_0_0_1_n_n none a b (constant (F := Ideal) S200x16 .f32 0x00000000#32) (ix2 p q) = mm (mat a) (mat b) p q := by
  show FloatOps.matmul dot_S200x64_S64x16_S200x16_1_0_0_1_n_n none a b (constant (F := Ideal) S200x16 .f32 0x00000000#32) (ix2 p q) = ∑ k : Fin 64, a (ix2 p k) * b (ix2 k q)
  rw [Ideal.matmul_constant_zero_apply, ← Equiv.sum_comp (contrEquiv1 dot_S200x64_S64x16_S200x16_1_0_0_1_n_n 64 rfl rfl).symm]
  refine Finset.sum_congr rfl fun k _ => ?_
  have hk := contrEquiv1_symm_val dot_S200x64_S64x16_S200x16_1_0_0_1_n_n 64 rfl rfl k
  have el : dot_S200x64_S64x16_S200x16_1_0_0_1_n_n.lhsIdx (ix2 p q) ((contrEquiv1 dot_S200x64_S64x16_S200x16_1_0_0_1_n_n 64 rfl rfl).symm k) = ix2 p k := funext fun a => Fin.ext (by
    match a with
    | ⟨0, _⟩ => exact lhs_64_16_0 _ _
    | ⟨1, _⟩ => exact (lhs_64_16_1 _ _).trans hk)
  have er : dot_S200x64_S64x16_S200x16_1_0_0_1_n_n.rhsIdx (ix2 p q) ((contrEquiv1 dot_S200x64_S64x16_S200x16_1_0_0_1_n_n 64 rfl rfl).symm k) = ix2 k q := funext fun a => Fin.ext (by
    match a with
    | ⟨0, _⟩ => exact (rhs_64_16_0 _ _).trans hk
    | ⟨1, _⟩ => exact rhs_64_16_1 _ _)
  rw [el, er]

/-- The same with the left operand already known as a matrix. -/
theorem matmul_64_16_of (a : FVec Ideal S200x64 .f32) (b : FVec Ideal S64x16 .f32) (m : Fin 200 → Fin 64 → EReal)
    (ha : mat a = m) (p : Fin 200) (q : Fin 16) :
    matmul dot_S200x64_S64x16_S200x16_1_0_0_1_n_n none a b (constant (F := Ideal) S200x16 .f32 0x00000000#32) (ix2 p q) = mm m (mat b) p q :=
  ha ▸ matmul_64_16 a b p q

/-! ## The product of a [200, 16] matrix by a [16, 10] matrix -/

theorem lhs_16_10_0 (i : S200x10.Idx) (q : dot_S200x16_S16x10_S200x10_1_0_0_1_n_n.contr.Idx) :
    (dot_S200x16_S16x10_S200x10_1_0_0_1_n_n.lhsIdx i q 0).val = (i 0).val := by
  unfold DotDims.lhsIdx
  rw [dif_neg (show ¬(0 : Fin S200x16.rank) ∈ dot_S200x16_S16x10_S200x10_1_0_0_1_n_n.lhsBatch by decide), dif_pos (show (0 : Fin S200x16.rank) ∈ dot_S200x16_S16x10_S200x10_1_0_0_1_n_n.lhsNonContracting by decide)]
  rfl
theorem lhs_16_10_1 (i : S200x10.Idx) (q : dot_S200x16_S16x10_S200x10_1_0_0_1_n_n.contr.Idx) :
    (dot_S200x16_S16x10_S200x10_1_0_0_1_n_n.lhsIdx i q 1).val = (q ⟨0, by decide⟩).val :=
  dot_S200x16_S16x10_S200x10_1_0_0_1_n_n.lhsIdx_val_of_single rfl i q
theorem rhs_16_10_0 (i : S200x10.Idx) (q : dot_S200x16_S16x10_S200x10_1_0_0_1_n_n.contr.Idx) :
    (dot_S200x16_S16x10_S200x10_1_0_0_1_n_n.rhsIdx i q 0).val = (q ⟨0, by decide⟩).val :=
  dot_S200x16_S16x10_S200x10_1_0_0_1_n_n.rhsIdx_val_of_single rfl i q
theorem rhs_16_10_1 (i : S200x10.Idx) (q : dot_S200x16_S16x10_S200x10_1_0_0_1_n_n.contr.Idx) :
    (dot_S200x16_S16x10_S200x10_1_0_0_1_n_n.rhsIdx i q 1).val = (i 1).val := by
  unfold DotDims.rhsIdx
  rw [dif_neg (show ¬(1 : Fin S16x10.rank) ∈ dot_S200x16_S16x10_S200x10_1_0_0_1_n_n.rhsBatch by decide), dif_pos (show (1 : Fin S16x10.rank) ∈ dot_S200x16_S16x10_S200x10_1_0_0_1_n_n.rhsNonContracting by decide)]
  rfl

/-- The product into a zero accumulator, at row `p` and column `q`, is the specification's matrix product of the
    operands read as matrices: the sum over `k` of the left operand at `(p, k)` times the right at `(k, q)`. -/
theorem matmul_16_10 (a : FVec Ideal S200x16 .f32) (b : FVec Ideal S16x10 .f32) (p : Fin 200) (q : Fin 10) :
    matmul dot_S200x16_S16x10_S200x10_1_0_0_1_n_n none a b (constant (F := Ideal) S200x10 .f32 0x00000000#32) (ix2 p q) = mm (mat a) (mat b) p q := by
  show FloatOps.matmul dot_S200x16_S16x10_S200x10_1_0_0_1_n_n none a b (constant (F := Ideal) S200x10 .f32 0x00000000#32) (ix2 p q) = ∑ k : Fin 16, a (ix2 p k) * b (ix2 k q)
  rw [Ideal.matmul_constant_zero_apply, ← Equiv.sum_comp (contrEquiv1 dot_S200x16_S16x10_S200x10_1_0_0_1_n_n 16 rfl rfl).symm]
  refine Finset.sum_congr rfl fun k _ => ?_
  have hk := contrEquiv1_symm_val dot_S200x16_S16x10_S200x10_1_0_0_1_n_n 16 rfl rfl k
  have el : dot_S200x16_S16x10_S200x10_1_0_0_1_n_n.lhsIdx (ix2 p q) ((contrEquiv1 dot_S200x16_S16x10_S200x10_1_0_0_1_n_n 16 rfl rfl).symm k) = ix2 p k := funext fun a => Fin.ext (by
    match a with
    | ⟨0, _⟩ => exact lhs_16_10_0 _ _
    | ⟨1, _⟩ => exact (lhs_16_10_1 _ _).trans hk)
  have er : dot_S200x16_S16x10_S200x10_1_0_0_1_n_n.rhsIdx (ix2 p q) ((contrEquiv1 dot_S200x16_S16x10_S200x10_1_0_0_1_n_n 16 rfl rfl).symm k) = ix2 k q := funext fun a => Fin.ext (by
    match a with
    | ⟨0, _⟩ => exact (rhs_16_10_0 _ _).trans hk
    | ⟨1, _⟩ => exact rhs_16_10_1 _ _)
  rw [el, er]

/-- The same with the left operand already known as a matrix. -/
theorem matmul_16_10_of (a : FVec Ideal S200x16 .f32) (b : FVec Ideal S16x10 .f32) (m : Fin 200 → Fin 16 → EReal)
    (ha : mat a = m) (p : Fin 200) (q : Fin 10) :
    matmul dot_S200x16_S16x10_S200x10_1_0_0_1_n_n none a b (constant (F := Ideal) S200x10 .f32 0x00000000#32) (ix2 p q) = mm m (mat b) p q :=
  ha ▸ matmul_16_10 a b p q

/-! ## A one-row bias spread over the rows, and the activation -/

/-- A one-row array, cast to its own shape and spread over `a` rows, reads at row `p` and column `q` its entry `q`. -/
theorem bias_apply {a b : ℕ} (bs : FVec Ideal (⟨2, ![1, b]⟩ : Shape) .f32)
    (h1 : (⟨2, ![1, b]⟩ : Shape).ShapeCasts ⟨2, ![1, b]⟩) (h2 : (⟨2, ![1, b]⟩ : Shape).Broadcasts ⟨2, ![a, b]⟩) (p : Fin a) (q : Fin b) :
    broadcastTo (⟨2, ![a, b]⟩ : Shape) (shapeCast (⟨2, ![1, b]⟩ : Shape) bs h1) h2 (ix2 p q) = row bs q := by
  rw [shapeCast_self]
  exact broadcastTo_1b_ab_apply bs h2 p q

/-- A product plus the spread bias row is the specification's dense layer, entry by entry. -/
theorem dense_apply {a k b : ℕ} (u : FVec Ideal (⟨2, ![a, b]⟩ : Shape) .f32) (bs : FVec Ideal (⟨2, ![1, b]⟩ : Shape) .f32)
    (h1 : (⟨2, ![1, b]⟩ : Shape).ShapeCasts ⟨2, ![1, b]⟩) (h2 : (⟨2, ![1, b]⟩ : Shape).Broadcasts ⟨2, ![a, b]⟩)
    (x : Fin a → Fin k → EReal) (w : Fin k → Fin b → EReal) (hu : ∀ p q, u (ix2 p q) = mm x w p q) (p : Fin a) (q : Fin b) :
    addf u (broadcastTo (⟨2, ![a, b]⟩ : Shape) (shapeCast (⟨2, ![1, b]⟩ : Shape) bs h1) h2) (ix2 p q) = dense x w (row bs) p q := by
  rw [addf_apply, hu p q, bias_apply bs h1 h2 p q]
  rfl

/-- The activation of an array is the specification's activation of it read as a matrix. -/
theorem mat_tanh {a b : ℕ} (u : FVec Ideal (⟨2, ![a, b]⟩ : Shape) .f32) (m : Fin a → Fin b → EReal)
    (hu : ∀ p q, u (ix2 p q) = m p q) : mat (tanh u) = act m := by
  funext p q
  show Ideal.tanh (u (ix2 p q)) = Ideal.tanh (m p q)
  rw [hu p q]

/-! ## The first body's two stored values -/

/-- The value the first body stores into its first output block, at row `p` and column `q`: the hidden layer of the 200 rows `g`. -/
theorem pay_hiddenA (g : Vec Ideal S200x10000 .f32) (x : Vec Ideal S10000x128 .f32) (ws : Vec Ideal S128x128 .f32)
    (bs : Vec Ideal S1x128 .f32) (wf : Vec Ideal S128x128 .f32) (p : Fin 200) (q : Fin 128) :
    k0_pay1 (F := Ideal) g x ws bs wf (ix2 p q) = hiddenK (mat g) (mat x) (mat ws) (row bs) (mat wf) p q := by
  unfold k0_pay1 hiddenK
  refine matmul_128_128_of _ wf _ (mat_tanh _ _ fun i j => ?_) p q
  refine dense_apply _ bs _ _ _ _ (fun i' j' => ?_) i j
  refine matmul_128_128_of _ ws _ ?_ i' j'
  funext r c
  exact matmul_10000_128 g x r c

/-- The value it stores into its second output block: the same function of the rows handed to it there. -/
theorem pay_hiddenB (g : Vec Ideal S200x10000 .f32) (x : Vec Ideal S10000x128 .f32) (ws : Vec Ideal S128x128 .f32)
    (bs : Vec Ideal S1x128 .f32) (wf : Vec Ideal S128x128 .f32) (p : Fin 200) (q : Fin 128) :
    k0_pay2 (F := Ideal) g x ws bs wf (ix2 p q) = hiddenK (mat g) (mat x) (mat ws) (row bs) (mat wf) p q := by
  unfold k0_pay2 hiddenK
  refine matmul_128_128_of _ wf _ (mat_tanh _ _ fun i j => ?_) p q
  refine dense_apply _ bs _ _ _ _ (fun i' j' => ?_) i j
  refine matmul_128_128_of _ ws _ ?_ i' j'
  funext r c
  exact matmul_10000_128 g x r c

/-! ## The second body's two stored values -/

/-- The value the second body stores into its first output block, at row `p` and column `q`: the propagation over the 200 adjacency rows `a` and the three dense layers after it. -/
theorem pay_headA (hf : Vec Ideal S10000x128 .f32) (a : Vec Ideal S200x10000 .f32) (bf : Vec Ideal S1x128 .f32)
    (w1 : Vec Ideal S128x64 .f32) (b1 : Vec Ideal S1x64 .f32) (w2 : Vec Ideal S64x16 .f32) (b2 : Vec Ideal S1x16 .f32)
    (w3 : Vec Ideal S16x10 .f32) (b3 : Vec Ideal S1x10 .f32) (p : Fin 200) (q : Fin 10) :
    k1_pay4 (F := Ideal) hf a bf w1 b1 w2 b2 w3 b3 (ix2 p q)
      = head (mat a) (mat hf) (row bf) (mat w1) (row b1) (mat w2) (row b2) (mat w3) (row b3) p q := by
  unfold k1_pay4 head
  refine dense_apply _ b3 _ _ _ _ (fun i3 j3 => ?_) p q
  refine matmul_16_10_of _ w3 _ (mat_tanh _ _ fun r3 c3 => ?_) i3 j3
  refine dense_apply _ b2 _ _ _ _ (fun i2 j2 => ?_) r3 c3
  refine matmul_64_16_of _ w2 _ (mat_tanh _ _ fun r2 c2 => ?_) i2 j2
  refine dense_apply _ b1 _ _ _ _ (fun i1 j1 => ?_) r2 c2
  refine matmul_128_64_of _ w1 _ (mat_tanh _ _ fun r1 c1 => ?_) i1 j1
  refine dense_apply _ bf _ _ _ _ (fun i0 j0 => ?_) r1 c1
  exact matmul_10000_128 a hf i0 j0

/-- The value it stores into its second output block: the same function of the rows handed to it there. -/
theorem pay_headB (hf : Vec Ideal S10000x128 .f32) (a : Vec Ideal S200x10000 .f32) (bf : Vec Ideal S1x128 .f32)
    (w1 : Vec Ideal S128x64 .f32) (b1 : Vec Ideal S1x64 .f32) (w2 : Vec Ideal S64x16 .f32) (b2 : Vec Ideal S1x16 .f32)
    (w3 : Vec Ideal S16x10 .f32) (b3 : Vec Ideal S1x10 .f32) (p : Fin 200) (q : Fin 10) :
    k1_pay1 (F := Ideal) hf a bf w1 b1 w2 b2 w3 b3 (ix2 p q)
      = head (mat a) (mat hf) (row bf) (mat w1) (row b1) (mat w2) (row b2) (mat w3) (row b3) p q := by
  unfold k1_pay1 head
  refine dense_apply _ b3 _ _ _ _ (fun i3 j3 => ?_) p q
  refine matmul_16_10_of _ w3 _ (mat_tanh _ _ fun r3 c3 => ?_) i3 j3
  refine dense_apply _ b2 _ _ _ _ (fun i2 j2 => ?_) r3 c3
  refine matmul_64_16_of _ w2 _ (mat_tanh _ _ fun r2 c2 => ?_) i2 j2
  refine dense_apply _ b1 _ _ _ _ (fun i1 j1 => ?_) r2 c2
  refine matmul_128_64_of _ w1 _ (mat_tanh _ _ fun r1 c1 => ?_) i1 j1
  refine dense_apply _ bf _ _ _ _ (fun i0 j0 => ?_) r1 c1
  exact matmul_10000_128 a hf i0 j0

end Cert.KernelIdeal.Payloads

end
-- ==== Proof.IdealStage1Value.lean ====
/-
  Stage one's output arrays, read entry by entry. Every grid point writes back, into block `t` of each output array, the
  hidden layer `tanh ((rows · x) · W_s + b_s) · W_f` of the 200 adjacency rows it was handed: rows `200 t …` for the first
  output, rows `5000 + 200 t …` for the second. The hidden layer only looks at the rows it is asked for, so each block is
  the restriction of ONE function of the array's index — the hidden layer of all 10000 rows, read at the row (or the row
  plus 5000) — and the 25 blocks tile the array: after the last point each output array holds that function.
-/
import proofs.«110692_g7576322310719_cont_9to1c4b_828_13_alg».proof.Proof.IdealStage1Data
import proofs.«110692_g7576322310719_cont_9to1c4b_828_13_alg».proof.Proof.IdealPayloads
import proofs.«110692_g7576322310719_cont_9to1c4b_828_13_alg».proof.Proof.SpecIdx
import Idealize.ShloMosaic.Lib.Pipeline.Value
import Idealize.ShloMosaic.Lib.ValueIdx

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Spec Idealize.ShloMosaic.ValueIdx

variable (V : (c : Dev nD) → (b : Ref sig .tc) → Buf (Elt Ideal) ((c : Thread nD τ).loc b))

/-! ## The literal offsets, the grid's size, the index maps -/

/-- The offsets of a whole-buffer rectangle are zero. -/
theorem hz : (![0, 0] : Fin 2 → Nat) = fun _ => 0 := funext fun a => by
  match a with
  | ⟨0, _⟩ => rfl
  | ⟨1, _⟩ => rfl

/-- A grid point's number is below 25. -/
theorem lt25 (t : Fin cfg0.N) : t.val < 25 := Nat.lt_of_lt_of_eq t.isLt (N_0 : cfg0.N = 25)

/-- The index maps, decided over the grid: window 0 is at block row `t`, window 1 at block row `25 + t`, windows 2–5 at
    block `(0, 0)`, the two output windows at block row `t`. -/
theorem idx_facts : ∀ t : Fin cfg0.N,
    (win0_0.index t (0 : Fin 2) = t.val ∧ win0_0.index t (1 : Fin 2) = 0)
    ∧ (win0_1.index t (0 : Fin 2) = 25 + t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! ## The whole-array functions -/

/-- The hidden layer of all 10000 adjacency rows, at the arrays the region is entered from. -/
def hid (c : Dev nD) : Fin 10000 → Fin 128 → EReal :=
  hiddenK (mat (V c main_arg2)) (mat (V c main_arg0)) (mat (V c main_arg3)) (row (V c main_v0)) (mat (V c main_arg5))

/-- Row `p` of point `t`'s block of the first 5000 rows, -/
def rowLo (t : Fin cfg0.N) (p : Fin 200) : Fin 10000 := ⟨200 * t.val + p.val, by have := lt25 t; omega⟩
/-- and of the last 5000. -/
def rowHi (t : Fin cfg0.N) (p : Fin 200) : Fin 10000 := ⟨200 * (25 + t.val) + p.val, by have := lt25 t; omega⟩

/-- What the first output array ends holding: at row `i` the hidden layer's row `i`. -/
def G6 (c : Dev nD) : S5000x128.Idx → EReal :=
  fun idx => hid V c (Fin.castLE (by decide : 5000 ≤ 10000) (idx 0 : Fin 5000)) (idx 1 : Fin 128)

/-- What the second ends holding: at row `i` the hidden layer's row `i + 5000`. -/
def G7 (c : Dev nD) : S5000x128.Idx → EReal :=
  fun idx => hid V c ⟨(idx 0).val + 5000, by have := idx2_lt0 idx; omega⟩ (idx 1 : Fin 128)

/-! ## The stored value at a point, over plain operands -/

/-- If the adjacency block's rows are rows `r p` of a matrix `Gm`, the first stored value at `(p, q)` is the hidden layer of
    `Gm` at row `r p`: the hidden layer only looks at the rows it is asked for. -/
theorem payA_rows (g : Vec Ideal S200x10000 .f32) (x : Vec Ideal S10000x128 .f32) (ws : Vec Ideal S128x128 .f32)
    (bs : Vec Ideal S1x128 .f32) (wf : Vec Ideal S128x128 .f32)
    (Gm : Fin 10000 → Fin 10000 → EReal) (xm : Fin 10000 → Fin 128 → EReal) (wsm : Fin 128 → Fin 128 → EReal)
    (bsm : Fin 128 → EReal) (wfm : Fin 128 → Fin 128 → EReal) (r : Fin 200 → Fin 10000)
    (hg : mat g = fun p => Gm (r p)) (hx : mat x = xm) (hws : mat ws = wsm) (hbs : row bs = bsm) (hwf : mat wf = wfm)
    (j : S200x128.Idx) :
    k0_pay1 (F := Ideal) g x ws bs wf j = hiddenK Gm xm wsm bsm wfm (r (j 0)) (j 1) := by
  refine (congrArg (k0_pay1 (F := Ideal) g x ws bs wf) (eq_ix2 j)).trans ?_
  refine (Payloads.pay_hiddenA g x ws bs wf (j 0) (j 1)).trans ?_
  rw [hg, hx, hws, hbs, hwf, hiddenK_rows]

/-- The same for the second stored value. -/
theorem payB_rows (g : Vec Ideal S200x10000 .f32) (x : Vec Ideal S10000x128 .f32) (ws : Vec Ideal S128x128 .f32)
    (bs : Vec Ideal S1x128 .f32) (wf : Vec Ideal S128x128 .f32)
    (Gm : Fin 10000 → Fin 10000 → EReal) (xm : Fin 10000 → Fin 128 → EReal) (wsm : Fin 128 → Fin 128 → EReal)
    (bsm : Fin 128 → EReal) (wfm : Fin 128 → Fin 128 → EReal) (r : Fin 200 → Fin 10000)
    (hg : mat g = fun p => Gm (r p)) (hx : mat x = xm) (hws : mat ws = wsm) (hbs : row bs = bsm) (hwf : mat wf = wfm)
    (j : S200x128.Idx) :
    k0_pay2 (F := Ideal) g x ws bs wf j = hiddenK Gm xm wsm bsm wfm (r (j 0)) (j 1) := by
  refine (congrArg (k0_pay2 (F := Ideal) g x ws bs wf) (eq_ix2 j)).trans ?_
  refine (Payloads.pay_hiddenB g x ws bs wf (j 0) (j 1)).trans ?_
  rw [hg, hx, hws, hbs, hwf, hiddenK_rows]

/-! ## The input blocks, read off their arrays -/

/-- Window 0's block at point `t` is rows `200 t …` of the adjacency. -/
theorem blk0_apply (c : Dev nD) (t : Fin cfg0.N) (p : Fin 200) (k : Fin 10000) :
    (iblk V c 0 t : Vec Ideal S200x10000 .f32) (ix2 p k) = (V c main_arg2 : S10000x10000.Idx → EReal) (ix2 (rowLo t p) k) := by
  obtain ⟨⟨e0, e1⟩, -⟩ := idx_facts t
  unfold iblk
  rw [View.read_apply]
  show V c main_arg2 (((cfg0.win 0).blk t).view.emb (ix2 p k)) = V c main_arg2 (ix2 (rowLo t p) k)
  refine congrArg (V c main_arg2) ?_
  funext a
  apply Fin.ext
  match a with
  | ⟨0, _⟩ => show win0_0.index t (0 : Fin 2) * 200 + 1 * p.val = 200 * t.val + p.val; rw [e0]; omega
  | ⟨1, _⟩ => show win0_0.index t (1 : Fin 2) * 10000 + 1 * k.val = k.val; rw [e1]; omega

/-- Window 1's block at point `t` is rows `5000 + 200 t …` of the same array. -/
theorem blk1_apply (c : Dev nD) (t : Fin cfg0.N) (p : Fin 200) (k : Fin 10000) :
    (iblk V c 1 t : Vec Ideal S200x10000 .f32) (ix2 p k) = (V c main_arg2 : S10000x10000.Idx → EReal) (ix2 (rowHi t p) k) := by
  obtain ⟨-, ⟨e0, e1⟩, -⟩ := idx_facts t
  unfold iblk
  rw [View.read_apply]
  show V c main_arg2 (((cfg0.win 1).blk t).view.emb (ix2 p k)) = V c main_arg2 (ix2 (rowHi t p) k)
  refine congrArg (V c main_arg2) ?_
  funext a
  apply Fin.ext
  match a with
  | ⟨0, _⟩ => show win0_1.index t (0 : Fin 2) * 200 + 1 * p.val = 200 * (25 + t.val) + p.val; rw [e0]; omega
  | ⟨1, _⟩ => show win0_1.index t (1 : Fin 2) * 10000 + 1 * k.val = k.val; rw [e1]; omega

theorem rows0 (c : Dev nD) (t : Fin cfg0.N) :
    mat (iblk V c 0 t : Vec Ideal S200x10000 .f32) = fun p => mat (V c main_arg2) (rowLo t p) := by
  funext p k
  exact blk0_apply V c t p k

theorem rows1 (c : Dev nD) (t : Fin cfg0.N) :
    mat (iblk V c 1 t : Vec Ideal S200x10000 .f32) = fun p => mat (V c main_arg2) (rowHi t p) := by
  funext p k
  exact blk1_apply V c t p k

/-- Windows 2 to 5 hand the body their whole arrays. -/
theorem blk2_eq (c : Dev nD) (t : Fin cfg0.N) :
    mat (iblk V c 2 t : Vec Ideal S10000x128 .f32) = mat (V c main_arg0) := by
  obtain ⟨-, -, ⟨e0, e1⟩, -⟩ := idx_facts t
  funext p k
  show (iblk V c 2 t : Vec Ideal S10000x128 .f32) (ix2 p k) = (V c main_arg0 : S10000x128.Idx → EReal) (ix2 p k)
  unfold iblk
  rw [View.read_apply]
  show V c main_arg0 (((cfg0.win 2).blk t).view.emb (ix2 p k)) = V c main_arg0 (ix2 p k)
  refine congrArg (V c main_arg0) ?_
  funext a
  apply Fin.ext
  match a with
  | ⟨0, _⟩ => show win0_2.index t (0 : Fin 2) * 10000 + 1 * p.val = p.val; rw [e0]; omega
  | ⟨1, _⟩ => show win0_2.index t (1 : Fin 2) * 128 + 1 * k.val = k.val; rw [e1]; omega

theorem blk3_eq (c : Dev nD) (t : Fin cfg0.N) :
    mat (iblk V c 3 t : Vec Ideal S128x128 .f32) = mat (V c main_arg3) := by
  obtain ⟨-, -, -, ⟨e0, e1⟩, -⟩ := idx_facts t
  funext p k
  show (iblk V c 3 t : Vec Ideal S128x128 .f32) (ix2 p k) = (V c main_arg3 : S128x128.Idx → EReal) (ix2 p k)
  unfold iblk
  rw [View.read_apply]
  show V c main_arg3 (((cfg0.win 3).blk t).view.emb (ix2 p k)) = V c main_arg3 (ix2 p k)
  refine congrArg (V c main_arg3) ?_
  funext a
  apply Fin.ext
  match a with
  | ⟨0, _⟩ => show win0_3.index t (0 : Fin 2) * 128 + 1 * p.val = p.val; rw [e0]; omega
  | ⟨1, _⟩ => show win0_3.index t (1 : Fin 2) * 128 + 1 * k.val = k.val; rw [e1]; omega

theorem blk4_eq (c : Dev nD) (t : Fin cfg0.N) :
    row (iblk V c 4 t : Vec Ideal S1x128 .f32) = row (V c main_v0) := by
  obtain ⟨-, -, -, -, ⟨e0, e1⟩, -⟩ := idx_facts t
  funext k
  show (iblk V c 4 t : Vec Ideal S1x128 .f32) (ix2 0 k) = (V c main_v0 : S1x128.Idx → EReal) (ix2 0 k)
  unfold iblk
  rw [View.read_apply]
  show V c main_v0 (((cfg0.win 4).blk t).view.emb (ix2 0 k)) = V c main_v0 (ix2 0 k)
  refine congrArg (V c main_v0) ?_
  funext a
  apply Fin.ext
  match a with
  | ⟨0, _⟩ => show win0_4.index t (0 : Fin 2) * 1 + 1 * 0 = 0; rw [e0]
  | ⟨1, _⟩ => show win0_4.index t (1 : Fin 2) * 128 + 1 * k.val = k.val; rw [e1]; omega

theorem blk5_eq (c : Dev nD) (t : Fin cfg0.N) :
    mat (iblk V c 5 t : Vec Ideal S128x128 .f32) = mat (V c main_arg5) := by
  obtain ⟨-, -, -, -, -, ⟨e0, e1⟩, -⟩ := idx_facts t
  funext p k
  show (iblk V c 5 t : Vec Ideal S128x128 .f32) (ix2 p k) = (V c main_arg5 : S128x128.Idx → EReal) (ix2 p k)
  unfold iblk
  rw [View.read_apply]
  show V c main_arg5 (((cfg0.win 5).blk t).view.emb (ix2 p k)) = V c main_arg5 (ix2 p k)
  refine congrArg (V c main_arg5) ?_
  funext a
  apply Fin.ext
  match a with
  | ⟨0, _⟩ => show win0_5.index t (0 : Fin 2) * 128 + 1 * p.val = p.val; rw [e0]; omega
  | ⟨1, _⟩ => show win0_5.index t (1 : Fin 2) * 128 + 1 * k.val = k.val; rw [e1]; omega

/-! ## What each point writes back -/

/-- Point `t` writes back, into the first output, block `t` of `G6`. -/
theorem flushed6_eq (c : Dev nD) (t : Fin cfg0.N) :
    (dat (F := Ideal) V c).flushed 6 t = ((cfg0.win 6).blk t).view.read (Elt Ideal) (G6 V c) := by
  show (cfg0.win 6).cut (grid0.coords t) ((dat (F := Ideal) V c).after 6 t) = _
  rw [after_6]
  unfold halfBlockA
  rw [View.canon_unit_zero hz]
  simp only [View.ld_unit_zero (S := S200x10000) hz, View.ld_unit_zero (S := S10000x128) hz,
    View.ld_unit_zero (S := S128x128) hz, View.ld_unit_zero (S := S1x128) hz]
  obtain ⟨-, -, -, -, -, -, ⟨e0, e1⟩, -⟩ := idx_facts t
  funext j
  show k0_pay1 (F := Ideal) (iblk V c 0 t) (iblk V c 2 t) (iblk V c 3 t) (iblk V c 4 t) (iblk V c 5 t) j
    = G6 V c (((cfg0.win 6).blk t).view.emb j)
  refine (payA_rows (iblk V c 0 t) (iblk V c 2 t) (iblk V c 3 t) (iblk V c 4 t) (iblk V c 5 t)
    (mat (V c main_arg2)) (mat (V c main_arg0)) (mat (V c main_arg3)) (row (V c main_v0)) (mat (V c main_arg5)) (rowLo t)
    (rows0 V c t) (blk2_eq V c t) (blk3_eq V c t) (blk4_eq V c t) (blk5_eq V c t) j).trans ?_
  have h0 : ((((cfg0.win 6).blk t).view.emb j) 0).val = 200 * t.val + (j 0).val := by
    show win0_6.index t (0 : Fin 2) * 200 + 1 * (j 0).val = 200 * t.val + (j 0).val
    rw [e0]; omega
  have h1 : ((((cfg0.win 6).blk t).view.emb j) 1).val = (j 1).val := by
    show win0_6.index t (1 : Fin 2) * 128 + 1 * (j 1).val = (j 1).val
    rw [e1]; omega
  exact congrArg₂ (hid V c) (Fin.ext h0.symm) (Fin.ext h1.symm)

/-- Point `t` writes back, into the second output, block `t` of `G7`. -/
theorem flushed7_eq (c : Dev nD) (t : Fin cfg0.N) :
    (dat (F := Ideal) V c).flushed 7 t = ((cfg0.win 7).blk t).view.read (Elt Ideal) (G7 V c) := by
  show (cfg0.win 7).cut (grid0.coords t) ((dat (F := Ideal) V c).after 7 t) = _
  rw [after_7]
  unfold halfBlockB
  rw [View.canon_unit_zero hz]
  simp only [View.ld_unit_zero (S := S200x10000) hz, View.ld_unit_zero (S := S10000x128) hz,
    View.ld_unit_zero (S := S128x128) hz, View.ld_unit_zero (S := S1x128) hz]
  obtain ⟨-, -, -, -, -, -, -, ⟨e0, e1⟩⟩ := idx_facts t
  funext j
  show k0_pay2 (F := Ideal) (iblk V c 1 t) (iblk V c 2 t) (iblk V c 3 t) (iblk V c 4 t) (iblk V c 5 t) j
    = G7 V c (((cfg0.win 7).blk t).view.emb j)
  refine (payB_rows (iblk V c 1 t) (iblk V c 2 t) (iblk V c 3 t) (iblk V c 4 t) (iblk V c 5 t)
    (mat (V c main_arg2)) (mat (V c main_arg0)) (mat (V c main_arg3)) (row (V c main_v0)) (mat (V c main_arg5)) (rowHi t)
    (rows1 V c t) (blk2_eq V c t) (blk3_eq V c t) (blk4_eq V c t) (blk5_eq V c t) j).trans ?_
  have h0 : ((((cfg0.win 7).blk t).view.emb j) 0).val + 5000 = 200 * (25 + t.val) + (j 0).val := by
    show win0_7.index t (0 : Fin 2) * 200 + 1 * (j 0).val + 5000 = 200 * (25 + t.val) + (j 0).val
    rw [e0]; omega
  have h1 : ((((cfg0.win 7).blk t).view.emb j) 1).val = (j 1).val := by
    show win0_7.index t (1 : Fin 2) * 128 + 1 * (j 1).val = (j 1).val
    rw [e1]; omega
  exact congrArg₂ (hid V c) (Fin.ext h0.symm) (Fin.ext h1.symm)

/-! ## The blocks tile the output arrays -/

/-- An index of the first output is in point `t`'s block iff each coordinate is in the block's range on its axis. -/
theorem mem_blk6 (t : Fin cfg0.N) (i : S5000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v1_0).slice (win0_6.rect t)).set ↔ _
  rw [View.set_slice_whole, Rect.mem_set_unit]
  exact Iff.rfl

theorem mem_blk7 (t : Fin cfg0.N) (i : S5000x128.Idx) :
    i ∈ ((cfg0.win 7).blk t).view.set ↔ ∀ a : Fin 2, win0_7.index t a * S200x128.size a ≤ (i a).val ∧ (i a).val < win0_7.index t a * S200x128.size a + S200x128.size a := by
  show i ∈ ((View.whole main_v1_1).slice (win0_7.rect t)).set ↔ _
  rw [View.set_slice_whole, Rect.mem_set_unit]
  exact Iff.rfl

/-- Row `r` of an output array is in the block of point `r / 200`. -/
theorem cover6 (i : S5000x128.Idx) :
    ∃ t : Fin cfg0.N, (cfg0.win 6).flush t = true ∧ i ∈ ((cfg0.win 6).blk t).view.set := by
  have hi0 : (i 0).val < 5000 := idx2_lt0 i
  have hi1 : (i 1).val < 128 := idx2_lt1 i
  have hN : (i 0).val / 200 < cfg0.N := by rw [show cfg0.N = 25 from N_0]; omega
  obtain ⟨-, -, -, -, -, -, ⟨e0, e1⟩, -⟩ := idx_facts ⟨(i 0).val / 200, hN⟩
  refine ⟨⟨(i 0).val / 200, hN⟩, flush0_6 _, ?_⟩
  rw [mem_blk6]
  intro a
  match a with
  | ⟨0, _⟩ =>
    show win0_6.index ⟨(i 0).val / 200, hN⟩ (0 : Fin 2) * 200 ≤ (i 0).val ∧ (i 0).val < win0_6.index ⟨(i 0).val / 200, hN⟩ (0 : Fin 2) * 200 + 200
    rw [e0]; show (i 0).val / 200 * 200 ≤ (i 0).val ∧ (i 0).val < (i 0).val / 200 * 200 + 200; omega
  | ⟨1, _⟩ =>
    show win0_6.index ⟨(i 0).val / 200, hN⟩ (1 : Fin 2) * 128 ≤ (i 1).val ∧ (i 1).val < win0_6.index ⟨(i 0).val / 200, hN⟩ (1 : Fin 2) * 128 + 128
    rw [e1]; omega

theorem cover7 (i : S5000x128.Idx) :
    ∃ t : Fin cfg0.N, (cfg0.win 7).flush t = true ∧ i ∈ ((cfg0.win 7).blk t).view.set := by
  have hi0 : (i 0).val < 5000 := idx2_lt0 i
  have hi1 : (i 1).val < 128 := idx2_lt1 i
  have hN : (i 0).val / 200 < cfg0.N := by rw [show cfg0.N = 25 from N_0]; omega
  obtain ⟨-, -, -, -, -, -, -, ⟨e0, e1⟩⟩ := idx_facts ⟨(i 0).val / 200, hN⟩
  refine ⟨⟨(i 0).val / 200, hN⟩, flush0_7 _, ?_⟩
  rw [mem_blk7]
  intro a
  match a with
  | ⟨0, _⟩ =>
    show win0_7.index ⟨(i 0).val / 200, hN⟩ (0 : Fin 2) * 200 ≤ (i 0).val ∧ (i 0).val < win0_7.index ⟨(i 0).val / 200, hN⟩ (0 : Fin 2) * 200 + 200
    rw [e0]; show (i 0).val / 200 * 200 ≤ (i 0).val ∧ (i 0).val < (i 0).val / 200 * 200 + 200; omega
  | ⟨1, _⟩ =>
    show win0_7.index ⟨(i 0).val / 200, hN⟩ (1 : Fin 2) * 128 ≤ (i 1).val ∧ (i 1).val < win0_7.index ⟨(i 0).val / 200, hN⟩ (1 : Fin 2) * 128 + 128
    rw [e1]; omega

/-! ## The arrays after the last point -/

/-- The first output array ends holding `G6`, -/
theorem final6 (c : Dev nD) : (dat (F := Ideal) V c).arrAt 6 cfg0.N = G6 V c :=
  (dat (F := Ideal) V c).arrAt_eq_of_cover 6 (G6 V c) (fun t _ => flushed6_eq V c t) cover6

/-- the second `G7`. -/
theorem final7 (c : Dev nD) : (dat (F := Ideal) V c).arrAt 7 cfg0.N = G7 V c :=
  (dat (F := Ideal) V c).arrAt_eq_of_cover 7 (G7 V c) (fun t _ => flushed7_eq V c t) cover7

/-- Entry `(i, l)` of the first output array after stage one: the hidden layer of adjacency row `i`, column `l`. -/
theorem hidden_lo (c : Dev nD) (i : Fin 5000) (l : Fin 128) :
    (dat (F := Ideal) V c).arrAt 6 cfg0.N (ix2 i l)
      = hiddenK (mat (V c main_arg2)) (mat (V c main_arg0)) (mat (V c main_arg3)) (row (V c main_v0)) (mat (V c main_arg5)) (Fin.castLE (by decide : 5000 ≤ 10000) i) l :=
  congrFun (final6 V c) (ix2 i l)

/-- Entry `(i, l)` of the second: the hidden layer of adjacency row `i + 5000`, column `l`. -/
theorem hidden_hi (c : Dev nD) (i : Fin 5000) (l : Fin 128) :
    (dat (F := Ideal) V c).arrAt 7 cfg0.N (ix2 i l)
      = hiddenK (mat (V c main_arg2)) (mat (V c main_arg0)) (mat (V c main_arg3)) (row (V c main_v0)) (mat (V c main_arg5)) ⟨i.val + 5000, by omega⟩ l :=
  congrFun (final7 V c) (ix2 i l)

end Cert.KernelIdeal.Stage1

end
-- ==== Proof.IdealStage2Value.lean ====
/-
  Stage two's two output arrays, entry by entry, on one core. The scratch holds the two halves of the hidden array laid
  one over the other (`hiddenAll_apply`). At grid point `t` window 0 hands the body rows `200 t …` of the sample
  adjacency and window 1 rows `5000 + 200 t …` of the same array; the weights and bias rows arrive whole. The block the
  body leaves in each output window is the four layers
      tanh (tanh (tanh (rows · hf + b_f) · W1 + b1) · W2 + b2) · W3 + b3
  of its own 200 rows, and a row of that value depends on the matching adjacency row only. So each point writes back
  its block of ONE function of the arrays the region finds; the 25 blocks of 200 rows tile each output array; hence the
  first output array is the four layers over adjacency rows 0–4999 (`out_lo`) and the second over rows 5000–9999
  (`out_hi`).
-/
import proofs.«110692_g7576322310719_cont_9to1c4b_828_13_alg».proof.Proof.IdealStage2Data
import proofs.«110692_g7576322310719_cont_9to1c4b_828_13_alg».proof.Proof.IdealPayloads
import proofs.«110692_g7576322310719_cont_9to1c4b_828_13_alg».proof.Proof.SpecIdx
import Idealize.ShloMosaic.Lib.Pipeline.Value
import Idealize.ShloMosaic.Lib.ValueIdx

set_option maxRecDepth 16384

noncomputable section

namespace Cert.KernelIdeal.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Spec Idealize.ShloMosaic.ValueIdx

/-! ## The hidden array the scratch holds, entry by entry -/

/-- The zero offsets, as the constant function. -/
theorem hz : (![0, 0] : Fin 2 → Nat) = fun _ => 0 := funext fun a => by fin_cases a <;> rfl

/-- The scratch after the two half stores, at row `j` and column `l`: a row below 5000 is the first half's row `j`,
    a row from 5000 on is the second half's row `j - 5000`. -/
theorem hiddenWhole_apply (hfa hfb : Vec Ideal S5000x128 .f32) (j : Fin 10000) (l : Fin 128) :
    hiddenWhole (F := Ideal) hfa hfb (ix2 j l)
      = if h : j.val < 5000 then hfa (ix2 ⟨j.val, h⟩ l) else hfb (ix2 ⟨j.val - 5000, by omega⟩ l) := by
  unfold hiddenWhole k1_pay2 k1_pay3
  simp only [shapeCast_self, View.ld_unit_zero (S := S5000x128) hz]
  split
  · rename_i h
    -- a row below 5000 is outside the lower half's rectangle, and is row `j` of the upper half's
    have hn : ix2 j l ∉ (rHi : Rect S10000x128).set := by
      rw [Rect.mem_set_unit]
      intro hm
      have h0 : 5000 ≤ j.val := (hm 0).1
      omega
    rw [View.canon_cons_of_not_mem (⟨rHi, hfb⟩ : View.Piece (Elt Ideal) S10000x128 .f32) [⟨rLo, hfa⟩] hn]
    have e : ix2 j l = (rLo : Rect S10000x128).emb (ix2 ⟨j.val, h⟩ l) := by
      funext a; apply Fin.ext
      match a with
      | ⟨0, _⟩ => show j.val = 0 + 1 * j.val; omega
      | ⟨1, _⟩ => show l.val = 0 + 1 * l.val; omega
    rw [e, View.canon_cons_emb]
  · rename_i h
    -- a row from 5000 on is row `j - 5000` of the lower half's rectangle
    have e : ix2 j l = (rHi : Rect S10000x128).emb (ix2 ⟨j.val - 5000, by omega⟩ l) := by
      funext a; apply Fin.ext
      match a with
      | ⟨0, _⟩ => show j.val = 5000 + 1 * (j.val - 5000); omega
      | ⟨1, _⟩ => show l.val = 0 + 1 * l.val; omega
    rw [e, View.canon_cons_emb]

variable (V : (c : Dev nD) → (b : Ref sig .tc) → Buf (Elt Ideal) ((c : Thread nD τ).loc b))

/-! ## The index maps, decided over the grid -/

/-- The windows that move: at point `t` window 0 is at block row `t` of the sample adjacency and window 1 at block row
    `25 + t` of the same array; each output window is at block row `t` of its own array. -/
theorem idx_rows : ∀ t : Fin cfg1.N, win1_0.index t (0 : Fin 2) = t.val ∧ win1_0.index t (1 : Fin 2) = 0
    ∧ win1_1.index t (0 : Fin 2) = 25 + t.val ∧ win1_1.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- The windows that stay: every one of windows 2–10 is at block (0, 0) of its array at every point. -/
theorem idx_whole : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

theorem lt_N (t : Fin cfg1.N) : t.val < 25 := lt_of_lt_of_eq t.isLt (show cfg1.N = 25 from N_1)

/-! ## Each input block, read off its array -/

/-- Window 0's block at point `t` is rows `200 t …` of the sample adjacency. -/
theorem blk0_apply (c : Dev nD) (t : Fin cfg1.N) (p : Fin 200) (k : Fin 10000) (h : 200 * t.val + p.val < 10000) :
    (iblk V c 0 t : Vec Ideal S200x10000 .f32) (ix2 p k) = (V c main_arg1 : S10000x10000.Idx → EReal) (ix2 ⟨200 * t.val + p.val, h⟩ k) := by
  obtain ⟨e0, e1, -⟩ := idx_rows t
  unfold iblk
  rw [View.read_apply]
  show V c main_arg1 _ = V c main_arg1 _
  congr 1
  funext a; apply Fin.ext
  match a with
  | ⟨0, _⟩ => show win1_0.index t (0 : Fin 2) * 200 + 1 * p.val = 200 * t.val + p.val; rw [e0]; omega
  | ⟨1, _⟩ => show win1_0.index t (1 : Fin 2) * 10000 + 1 * k.val = k.val; rw [e1]; omega

/-- Window 1's block at point `t` is rows `5000 + 200 t …` of the same array. -/
theorem blk1_apply (c : Dev nD) (t : Fin cfg1.N) (p : Fin 200) (k : Fin 10000) (h : 5000 + 200 * t.val + p.val < 10000) :
    (iblk V c 1 t : Vec Ideal S200x10000 .f32) (ix2 p k) = (V c main_arg1 : S10000x10000.Idx → EReal) (ix2 ⟨5000 + 200 * t.val + p.val, h⟩ k) := by
  obtain ⟨-, -, e0, e1, -⟩ := idx_rows t
  unfold iblk
  rw [View.read_apply]
  show V c main_arg1 _ = V c main_arg1 _
  congr 1
  funext a; apply Fin.ext
  match a with
  | ⟨0, _⟩ => show win1_1.index t (0 : Fin 2) * 200 + 1 * p.val = 5000 + 200 * t.val + p.val; rw [e0]; omega
  | ⟨1, _⟩ => show win1_1.index t (1 : Fin 2) * 10000 + 1 * k.val = k.val; rw [e1]; omega

/-- Window 2's block is the whole first half of the hidden array, at every point. -/
theorem blk2_eq (c : Dev nD) (t : Fin cfg1.N) : (iblk V c 2 t : Vec Ideal S5000x128 .f32) = (V c main_v1_0 : S5000x128.Idx → EReal) := by
  obtain ⟨e0, e1, -⟩ := idx_whole t
  funext x
  unfold iblk
  rw [View.read_apply]
  show V c main_v1_0 _ = V c main_v1_0 x
  congr 1
  funext a; apply Fin.ext
  match a with
  | ⟨0, _⟩ => show win1_2.index t (0 : Fin 2) * 5000 + 1 * (x 0).val = (x 0).val; rw [e0]; omega
  | ⟨1, _⟩ => show win1_2.index t (1 : Fin 2) * 128 + 1 * (x 1).val = (x 1).val; rw [e1]; omega

/-- Window 3's block is the whole second half of the hidden array, at every point. -/
theorem blk3_eq (c : Dev nD) (t : Fin cfg1.N) : (iblk V c 3 t : Vec Ideal S5000x128 .f32) = (V c main_v1_1 : S5000x128.Idx → EReal) := by
  obtain ⟨-, -, e0, e1, -⟩ := idx_whole t
  funext x
  unfold iblk
  rw [View.read_apply]
  show V c main_v1_1 _ = V c main_v1_1 x
  congr 1
  funext a; apply Fin.ext
  match a with
  | ⟨0, _⟩ => show win1_3.index t (0 : Fin 2) * 5000 + 1 * (x 0).val = (x 0).val; rw [e0]; omega
  | ⟨1, _⟩ => show win1_3.index t (1 : Fin 2) * 128 + 1 * (x 1).val = (x 1).val; rw [e1]; omega

/-- Window 4's block is the whole bias row of the propagation, at every point. -/
theorem blk4_eq (c : Dev nD) (t : Fin cfg1.N) : (iblk V c 4 t : Vec Ideal S1x128 .f32) = (V c main_v2 : S1x128.Idx → EReal) := by
  obtain ⟨-, -, -, -, e0, e1, -⟩ := idx_whole t
  funext x
  unfold iblk
  rw [View.read_apply]
  show V c main_v2 _ = V c main_v2 x
  congr 1
  funext a; apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Window 5's block is the whole first dense layer's weights, at every point. -/
theorem blk5_eq (c : Dev nD) (t : Fin cfg1.N) : (iblk V c 5 t : Vec Ideal S128x64 .f32) = (V c main_arg7 : S128x64.Idx → EReal) := by
  obtain ⟨-, -, -, -, -, -, e0, e1, -⟩ := idx_whole t
  funext x
  unfold iblk
  rw [View.read_apply]
  show V c main_arg7 _ = V c main_arg7 x
  congr 1
  funext a; apply Fin.ext
  match a with
  | ⟨0, _⟩ => show win1_5.index t (0 : Fin 2) * 128 + 1 * (x 0).val = (x 0).val; rw [e0]; omega
  | ⟨1, _⟩ => show win1_5.index t (1 : Fin 2) * 64 + 1 * (x 1).val = (x 1).val; rw [e1]; omega

/-- Window 6's block is the whole first dense layer's bias row, at every point. -/
theorem blk6_eq (c : Dev nD) (t : Fin cfg1.N) : (iblk V c 6 t : Vec Ideal S1x64 .f32) = (V c main_v3 : S1x64.Idx → EReal) := by
  obtain ⟨-, -, -, -, -, -, -, -, e0, e1, -⟩ := idx_whole t
  funext x
  unfold iblk
  rw [View.read_apply]
  show V c main_v3 _ = V c main_v3 x
  congr 1
  funext a; apply Fin.ext
  match a with
  | ⟨0, _⟩ => show win1_6.index t (0 : Fin 2) * 1 + 1 * (x 0).val = (x 0).val; rw [e0]; omega
  | ⟨1, _⟩ => show win1_6.index t (1 : Fin 2) * 64 + 1 * (x 1).val = (x 1).val; rw [e1]; omega

/-- Window 7's block is the whole second dense layer's weights, at every point. -/
theorem blk7_eq (c : Dev nD) (t : Fin cfg1.N) : (iblk V c 7 t : Vec Ideal S64x16 .f32) = (V c main_arg9 : S64x16.Idx → EReal) := by
  obtain ⟨-, -, -, -, -, -, -, -, -, -, e0, e1, -⟩ := idx_whole t
  funext x
  unfold iblk
  rw [View.read_apply]
  show V c main_arg9 _ = V c main_arg9 x
  congr 1
  funext a; apply Fin.ext
  match a with
  | ⟨0, _⟩ => show win1_7.index t (0 : Fin 2) * 64 + 1 * (x 0).val = (x 0).val; rw [e0]; omega
  | ⟨1, _⟩ => show win1_7.index t (1 : Fin 2) * 16 + 1 * (x 1).val = (x 1).val; rw [e1]; omega

/-- Window 8's block is the whole second dense layer's bias row, at every point. -/
theorem blk8_eq (c : Dev nD) (t : Fin cfg1.N) : (iblk V c 8 t : Vec Ideal S1x16 .f32) = (V c main_v4 : S1x16.Idx → EReal) := by
  obtain ⟨-, -, -, -, -, -, -, -, -, -, -, -, e0, e1, -⟩ := idx_whole t
  funext x
  unfold iblk
  rw [View.read_apply]
  show V c main_v4 _ = V c main_v4 x
  congr 1
  funext a; apply Fin.ext
  match a with
  | ⟨0, _⟩ => show win1_8.index t (0 : Fin 2) * 1 + 1 * (x 0).val = (x 0).val; rw [e0]; omega
  | ⟨1, _⟩ => show win1_8.index t (1 : Fin 2) * 16 + 1 * (x 1).val = (x 1).val; rw [e1]; omega

/-- Window 9's block is the whole third dense layer's weights, at every point. -/
theorem blk9_eq (c : Dev nD) (t : Fin cfg1.N) : (iblk V c 9 t : Vec Ideal S16x10 .f32) = (V c main_arg11 : S16x10.Idx → EReal) := by
  obtain ⟨-, -, -, -, -, -, -, -, -, -, -, -, -, -, e0, e1, -⟩ := idx_whole t
  funext x
  unfold iblk
  rw [View.read_apply]
  show V c main_arg11 _ = V c main_arg11 x
  congr 1
  funext a; apply Fin.ext
  match a with
  | ⟨0, _⟩ => show win1_9.index t (0 : Fin 2) * 16 + 1 * (x 0).val = (x 0).val; rw [e0]; omega
  | ⟨1, _⟩ => show win1_9.index t (1 : Fin 2) * 10 + 1 * (x 1).val = (x 1).val; rw [e1]; omega

/-- Window 10's block is the whole third dense layer's bias row, at every point. -/
theorem blk10_eq (c : Dev nD) (t : Fin cfg1.N) : (iblk V c 10 t : Vec Ideal S1x10 .f32) = (V c main_v5 : S1x10.Idx → EReal) := by
  obtain ⟨-, -, -, -, -, -, -, -, -, -, -, -, -, -, -, -, e0, e1⟩ := idx_whole t
  funext x
  unfold iblk
  rw [View.read_apply]
  show V c main_v5 _ = V c main_v5 x
  congr 1
  funext a; apply Fin.ext
  match a with
  | ⟨0, _⟩ => show win1_10.index t (0 : Fin 2) * 1 + 1 * (x 0).val = (x 0).val; rw [e0]; omega
  | ⟨1, _⟩ => show win1_10.index t (1 : Fin 2) * 10 + 1 * (x 1).val = (x 1).val; rw [e1]; omega

/-! ## The block the body leaves, entry by entry -/

/-- The first output's block at row `p` and column `q`: the four layers of the 200 rows `a` and the hidden array `hf`. -/
theorem outBlockA_apply (hf : Vec Ideal S10000x128 .f32) (a : Vec Ideal S200x10000 .f32) (bf : Vec Ideal S1x128 .f32)
    (w1 : Vec Ideal S128x64 .f32) (b1 : Vec Ideal S1x64 .f32) (w2 : Vec Ideal S64x16 .f32) (b2 : Vec Ideal S1x16 .f32)
    (w3 : Vec Ideal S16x10 .f32) (b3 : Vec Ideal S1x10 .f32) (p : Fin 200) (q : Fin 10) :
    outBlockA (F := Ideal) hf a bf w1 b1 w2 b2 w3 b3 (ix2 p q)
      = head (mat a) (mat hf) (row bf) (mat w1) (row b1) (mat w2) (row b2) (mat w3) (row b3) p q := by
  unfold outBlockA
  rw [View.canon_unit_zero hz]
  simp only [View.ld_unit_zero (S := S10000x128) hz, View.ld_unit_zero (S := S200x10000) hz, View.ld_unit_zero (S := S1x128) hz,
    View.ld_unit_zero (S := S128x64) hz, View.ld_unit_zero (S := S1x64) hz, View.ld_unit_zero (S := S64x16) hz,
    View.ld_unit_zero (S := S1x16) hz, View.ld_unit_zero (S := S16x10) hz, View.ld_unit_zero (S := S1x10) hz]
  exact Payloads.pay_headA hf a bf w1 b1 w2 b2 w3 b3 p q

/-- The second output's block: the same function of the rows handed through window 1. -/
theorem outBlockB_apply (hf : Vec Ideal S10000x128 .f32) (a : Vec Ideal S200x10000 .f32) (bf : Vec Ideal S1x128 .f32)
    (w1 : Vec Ideal S128x64 .f32) (b1 : Vec Ideal S1x64 .f32) (w2 : Vec Ideal S64x16 .f32) (b2 : Vec Ideal S1x16 .f32)
    (w3 : Vec Ideal S16x10 .f32) (b3 : Vec Ideal S1x10 .f32) (p : Fin 200) (q : Fin 10) :
    outBlockB (F := Ideal) hf a bf w1 b1 w2 b2 w3 b3 (ix2 p q)
      = head (mat a) (mat hf) (row bf) (mat w1) (row b1) (mat w2) (row b2) (mat w3) (row b3) p q := by
  unfold outBlockB
  rw [View.canon_unit_zero hz]
  simp only [View.ld_unit_zero (S := S10000x128) hz, View.ld_unit_zero (S := S200x10000) hz, View.ld_unit_zero (S := S1x128) hz,
    View.ld_unit_zero (S := S128x64) hz, View.ld_unit_zero (S := S1x64) hz, View.ld_unit_zero (S := S64x16) hz,
    View.ld_unit_zero (S := S1x16) hz, View.ld_unit_zero (S := S16x10) hz, View.ld_unit_zero (S := S1x10) hz]
  exact Payloads.pay_headB hf a bf w1 b1 w2 b2 w3 b3 p q

/-- A row of the four layers depends on the matching adjacency row only: if the 200 rows `a` are rows `f` of the
    adjacency `A`, the layers of `a` at row `p` are the layers of `A` at row `f p`. -/
theorem head_of_rows (A : Fin 10000 → Fin 10000 → EReal) (a : Fin 200 → Fin 10000 → EReal) (f : Fin 200 → Fin 10000)
    (ha : ∀ p k, a p k = A (f p) k) (hf : Fin 10000 → Fin 128 → EReal) (bf : Fin 128 → EReal)
    (W1 : Fin 128 → Fin 64 → EReal) (b1 : Fin 64 → EReal) (W2 : Fin 64 → Fin 16 → EReal) (b2 : Fin 16 → EReal)
    (W3 : Fin 16 → Fin 10 → EReal) (b3 : Fin 10 → EReal) (p : Fin 200) (q : Fin 10) :
    head a hf bf W1 b1 W2 b2 W3 b3 p q = head A hf bf W1 b1 W2 b2 W3 b3 (f p) q := by
  obtain rfl : a = fun i => A (f i) := funext fun p => funext fun k => ha p k
  exact congrFun (congrFun (head_rows f A hf bf W1 b1 W2 b2 W3 b3) p) q

/-! ## Each output array as one function of the arrays the region finds -/

/-- The first output array: at row `i` and column `q` the four layers over row `i` of the sample adjacency. -/
def outLo (c : Dev nD) : S5000x10.Idx → EReal := fun idx =>
  head (mat (V c main_arg1)) (mat (hiddenAll V c)) (row (V c main_v2)) (mat (V c main_arg7)) (row (V c main_v3))
    (mat (V c main_arg9)) (row (V c main_v4)) (mat (V c main_arg11)) (row (V c main_v5))
    (⟨(idx 0).val, by have := idx2_lt0 idx; omega⟩ : Fin 10000) (⟨(idx 1).val, idx2_lt1 idx⟩ : Fin 10)

/-- The second output array: at row `i` and column `q` the four layers over row `5000 + i` of the sample adjacency. -/
def outHi (c : Dev nD) : S5000x10.Idx → EReal := fun idx =>
  head (mat (V c main_arg1)) (mat (hiddenAll V c)) (row (V c main_v2)) (mat (V c main_arg7)) (row (V c main_v3))
    (mat (V c main_arg9)) (row (V c main_v4)) (mat (V c main_arg11)) (row (V c main_v5))
    (⟨(idx 0).val + 5000, by have := idx2_lt0 idx; omega⟩ : Fin 10000) (⟨(idx 1).val, idx2_lt1 idx⟩ : Fin 10)

/-- What point `t` writes back into the first output array is block `t` of `outLo`: the body's block is the four layers of
    its 200 rows, those rows are rows `200 * t.val …` of the sample adjacency, every other operand is a whole array, and
    row `p` of block `t` of the output is its row `200 t + p`. -/
theorem flushedLo_eq (c : Dev nD) (t : Fin cfg1.N) :
    (dat (F := Ideal) V c).flushed 11 t = ((cfg1.win 11).blk t).view.read (Elt Ideal) (outLo V c) := by
  have hN : t.val < 25 := lt_N t
  obtain ⟨-, -, -, -, eA0, eA1, eB0, eB1⟩ := idx_rows t
  show (cfg1.win 11).cut (grid1.coords t) ((dat V c).after 11 t) = _
  rw [after_11]
  funext y
  obtain ⟨p, q, rfl⟩ : ∃ (p : Fin 200) (q : Fin 10), y = ix2 p q := ⟨y 0, y 1, eq_ix2 y⟩
  have hp : p.val < 200 := p.isLt
  refine (outBlockA_apply (hiddenAll V c) (iblk V c 0 t) (iblk V c 4 t) (iblk V c 5 t) (iblk V c 6 t) (iblk V c 7 t)
    (iblk V c 8 t) (iblk V c 9 t) (iblk V c 10 t) p q).trans ?_
  rw [blk4_eq V c t, blk5_eq V c t, blk6_eq V c t, blk7_eq V c t, blk8_eq V c t, blk9_eq V c t, blk10_eq V c t]
  refine (head_of_rows (mat (V c main_arg1)) _ (fun p' => ⟨200 * t.val + p'.val, by have := p'.isLt; omega⟩)
    (fun p' k => blk0_apply V c t p' k _) _ _ _ _ _ _ _ _ p q).trans ?_
  show _ = outLo V c (((cfg1.win 11).blk t).view.emb (ix2 p q))
  unfold outLo
  refine congr (congrArg _ (Fin.ext ?_)) (Fin.ext ?_)
  · show 200 * t.val + p.val = win1_11.index t (0 : Fin 2) * 200 + 1 * p.val
    rw [eA0]; omega
  · show q.val = win1_11.index t (1 : Fin 2) * 10 + 1 * q.val
    rw [eA1]; omega

/-- What point `t` writes back into the second output array is block `t` of `outHi`: the body's block is the four layers of
    its 200 rows, those rows are rows `5000 + 200 * t.val …` of the sample adjacency, every other operand is a whole array, and
    row `p` of block `t` of the output is its row `200 t + p`. -/
theorem flushedHi_eq (c : Dev nD) (t : Fin cfg1.N) :
    (dat (F := Ideal) V c).flushed 12 t = ((cfg1.win 12).blk t).view.read (Elt Ideal) (outHi V c) := by
  have hN : t.val < 25 := lt_N t
  obtain ⟨-, -, -, -, eA0, eA1, eB0, eB1⟩ := idx_rows t
  show (cfg1.win 12).cut (grid1.coords t) ((dat V c).after 12 t) = _
  rw [after_12]
  funext y
  obtain ⟨p, q, rfl⟩ : ∃ (p : Fin 200) (q : Fin 10), y = ix2 p q := ⟨y 0, y 1, eq_ix2 y⟩
  have hp : p.val < 200 := p.isLt
  refine (outBlockB_apply (hiddenAll V c) (iblk V c 1 t) (iblk V c 4 t) (iblk V c 5 t) (iblk V c 6 t) (iblk V c 7 t)
    (iblk V c 8 t) (iblk V c 9 t) (iblk V c 10 t) p q).trans ?_
  rw [blk4_eq V c t, blk5_eq V c t, blk6_eq V c t, blk7_eq V c t, blk8_eq V c t, blk9_eq V c t, blk10_eq V c t]
  refine (head_of_rows (mat (V c main_arg1)) _ (fun p' => ⟨5000 + 200 * t.val + p'.val, by have := p'.isLt; omega⟩)
    (fun p' k => blk1_apply V c t p' k _) _ _ _ _ _ _ _ _ p q).trans ?_
  show _ = outHi V c (((cfg1.win 12).blk t).view.emb (ix2 p q))
  unfold outHi
  refine congr (congrArg _ (Fin.ext ?_)) (Fin.ext ?_)
  · show 5000 + 200 * t.val + p.val = win1_12.index t (0 : Fin 2) * 200 + 1 * p.val + 5000
    rw [eB0]; omega
  · show q.val = win1_12.index t (1 : Fin 2) * 10 + 1 * q.val
    rw [eB1]; omega

/-! ## The blocks tile each output array -/

/-- An index of the first output array is in point `t`'s block iff each coordinate is in the block's range on its axis. -/
theorem mem_blkLo (t : Fin cfg1.N) (i : S5000x10.Idx) :
    i ∈ ((cfg1.win 11).blk t).view.set ↔ ∀ a : Fin 2, win1_11.index t a * S200x10.size a ≤ (i a).val ∧ (i a).val < win1_11.index t a * S200x10.size a + S200x10.size a := by
  show i ∈ ((View.whole main_v6_0).slice (win1_11.rect t)).set ↔ _
  rw [View.set_slice_whole, Rect.mem_set_unit]
  exact Iff.rfl

/-- Row `r` of the array is in the block of point `r / 200`, which is written back: the 25 blocks of 200 rows tile the array. -/
theorem coverLo (i : S5000x10.Idx) : ∃ t : Fin cfg1.N, (cfg1.win 11).flush t = true ∧ i ∈ ((cfg1.win 11).blk t).view.set := by
  have hi0 : (i 0).val < 5000 := (i 0).isLt
  have hi1 : (i 1).val < 10 := (i 1).isLt
  have hN : cfg1.N = 25 := N_1
  obtain ⟨t, ht⟩ : ∃ t : Fin cfg1.N, t.val = (i 0).val / 200 := ⟨⟨(i 0).val / 200, by rw [hN]; omega⟩, rfl⟩
  obtain ⟨-, -, -, -, e0, e1, -⟩ := idx_rows t
  refine ⟨t, flush1_11 t, ?_⟩
  rw [mem_blkLo]
  intro a
  match a with
  | ⟨0, _⟩ => show win1_11.index t (0 : Fin 2) * 200 ≤ (i 0).val ∧ (i 0).val < win1_11.index t (0 : Fin 2) * 200 + 200; rw [e0, ht]; omega
  | ⟨1, _⟩ => show win1_11.index t (1 : Fin 2) * 10 ≤ (i 1).val ∧ (i 1).val < win1_11.index t (1 : Fin 2) * 10 + 10; rw [e1]; omega

/-- An index of the second output array is in point `t`'s block iff each coordinate is in the block's range on its axis. -/
theorem mem_blkHi (t : Fin cfg1.N) (i : S5000x10.Idx) :
    i ∈ ((cfg1.win 12).blk t).view.set ↔ ∀ a : Fin 2, win1_12.index t a * S200x10.size a ≤ (i a).val ∧ (i a).val < win1_12.index t a * S200x10.size a + S200x10.size a := by
  show i ∈ ((View.whole main_v6_1).slice (win1_12.rect t)).set ↔ _
  rw [View.set_slice_whole, Rect.mem_set_unit]
  exact Iff.rfl

/-- Row `r` of the array is in the block of point `r / 200`, which is written back: the 25 blocks of 200 rows tile the array. -/
theorem coverHi (i : S5000x10.Idx) : ∃ t : Fin cfg1.N, (cfg1.win 12).flush t = true ∧ i ∈ ((cfg1.win 12).blk t).view.set := by
  have hi0 : (i 0).val < 5000 := (i 0).isLt
  have hi1 : (i 1).val < 10 := (i 1).isLt
  have hN : cfg1.N = 25 := N_1
  obtain ⟨t, ht⟩ : ∃ t : Fin cfg1.N, t.val = (i 0).val / 200 := ⟨⟨(i 0).val / 200, by rw [hN]; omega⟩, rfl⟩
  obtain ⟨-, -, -, -, -, -, e0, e1⟩ := idx_rows t
  refine ⟨t, flush1_12 t, ?_⟩
  rw [mem_blkHi]
  intro a
  match a with
  | ⟨0, _⟩ => show win1_12.index t (0 : Fin 2) * 200 ≤ (i 0).val ∧ (i 0).val < win1_12.index t (0 : Fin 2) * 200 + 200; rw [e0, ht]; omega
  | ⟨1, _⟩ => show win1_12.index t (1 : Fin 2) * 10 ≤ (i 1).val ∧ (i 1).val < win1_12.index t (1 : Fin 2) * 10 + 10; rw [e1]; omega

/-! ## The two output arrays after the region -/

/-- The first output array ends holding `outLo`. -/
theorem arrLo (c : Dev nD) : (dat (F := Ideal) V c).arrAt 11 cfg1.N = outLo V c :=
  (dat (F := Ideal) V c).arrAt_eq_of_cover 11 (outLo V c) (fun t _ => flushedLo_eq V c t) coverLo

/-- The second output array ends holding `outHi`. -/
theorem arrHi (c : Dev nD) : (dat (F := Ideal) V c).arrAt 12 cfg1.N = outHi V c :=
  (dat (F := Ideal) V c).arrAt_eq_of_cover 12 (outHi V c) (fun t _ => flushedHi_eq V c t) coverHi

/-- The whole hidden array at row `j` and column `l`: a row below 5000 is row `j` of the first half as the region finds
    it, a row from 5000 on is row `j - 5000` of the second half. -/
theorem hiddenAll_apply (c : Dev nD) (j : Fin 10000) (l : Fin 128) :
    hiddenAll (F := Ideal) V c (ix2 j l)
      = if h : j.val < 5000 then (V c main_v1_0 : S5000x128.Idx → EReal) (ix2 ⟨j.val, h⟩ l)
        else (V c main_v1_1 : S5000x128.Idx → EReal) (ix2 ⟨j.val - 5000, by omega⟩ l) := by
  unfold hiddenAll
  refine (hiddenWhole_apply (iblk V c 2 t₀) (iblk V c 3 t₀) j l).trans ?_
  rw [blk2_eq V c t₀, blk3_eq V c t₀]

/-- The first output array at row `i` and column `q`: the four layers over row `i` of the sample adjacency. -/
theorem out_lo (c : Dev nD) (i : Fin 5000) (q : Fin 10) :
    (dat (F := Ideal) V c).arrAt 11 cfg1.N (ix2 i q)
      = head (mat (V c main_arg1)) (mat (hiddenAll V c)) (row (V c main_v2)) (mat (V c main_arg7)) (row (V c main_v3))
          (mat (V c main_arg9)) (row (V c main_v4)) (mat (V c main_arg11)) (row (V c main_v5))
          (Fin.castLE (by decide : 5000 ≤ 10000) i) q := by
  rw [arrLo]; rfl

/-- The second output array at row `i` and column `q`: the four layers over row `5000 + i` of the sample adjacency. -/
theorem out_hi (c : Dev nD) (i : Fin 5000) (q : Fin 10) :
    (dat (F := Ideal) V c).arrAt 12 cfg1.N (ix2 i q)
      = head (mat (V c main_arg1)) (mat (hiddenAll V c)) (row (V c main_v2)) (mat (V c main_arg7)) (row (V c main_v3))
          (mat (V c main_arg9)) (row (V c main_v4)) (mat (V c main_arg11)) (row (V c main_v5))
          (⟨i.val + 5000, by omega⟩ : Fin 10000) q := by
  rw [arrHi]; rfl

end Cert.KernelIdeal.Stage2

end
-- ==== Proof.IdealHostReads.lean ====
/-
  What the host operations of the idealized kernel's @main leave in the buffers they write, read index by index:
  a bias vector reshaped to one row reads back as the vector; the concatenation of the two halves along the rows
  reads the first half below row 5000 and the second half from there on; every buffer a stretch of host
  operations does not write keeps its contents.
-/
import proofs.«110692_g7576322310719_cont_9to1c4b_828_13_alg».proof.Proof.Gen.KernelIdeal.Regions
import proofs.«110692_g7576322310719_cont_9to1c4b_828_13_alg».proof.Proof.SpecIdx
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostReads

open Cert.KernelIdeal Cert.KernelIdeal.Gen Cert.Spec
open Idealize.ShloMosaic Idealize.ShloMosaic.TcCoe Idealize.ShloMosaic.ValueIdx Idealize.ShloMosaic.StableHlo

theorem bias0 (W : Valuation τ sig (Elt Ideal)) :
    row (StableHlo.after (hostOps0 (F := Ideal)) W main_v0 : S1x128.Idx → EReal) = vec (W main_arg4 : S128.Idx → EReal) := by
  funext k
  show StableHlo.after (hostOps0 (F := Ideal)) W (Proc.devRef .tc main_v0) (ix2 0 k) = _
  after_results
  exact shapeCast_a_1a_apply (W (Proc.devRef .tc main_arg4) : S128.Idx → EReal) shapeCasts_S128_S1x128 0 k

theorem bias1_v2 (W : Valuation τ sig (Elt Ideal)) :
    row (StableHlo.after (hostOps1 (F := Ideal)) W main_v2 : S1x128.Idx → EReal) = vec (W main_arg6 : S128.Idx → EReal) := by
  funext k
  show StableHlo.after (hostOps1 (F := Ideal)) W (Proc.devRef .tc main_v2) (ix2 0 k) = _
  after_results
  exact shapeCast_a_1a_apply (W (Proc.devRef .tc main_arg6) : S128.Idx → EReal) shapeCasts_S128_S1x128 0 k

theorem bias1_v3 (W : Valuation τ sig (Elt Ideal)) :
    row (StableHlo.after (hostOps1 (F := Ideal)) W main_v3 : S1x64.Idx → EReal) = vec (W main_arg8 : S64.Idx → EReal) := by
  funext k
  show StableHlo.after (hostOps1 (F := Ideal)) W (Proc.devRef .tc main_v3) (ix2 0 k) = _
  after_results
  exact shapeCast_a_1a_apply (W (Proc.devRef .tc main_arg8) : S64.Idx → EReal) shapeCasts_S64_S1x64 0 k

theorem bias1_v4 (W : Valuation τ sig (Elt Ideal)) :
    row (StableHlo.after (hostOps1 (F := Ideal)) W main_v4 : S1x16.Idx → EReal) = vec (W main_arg10 : S16.Idx → EReal) := by
  funext k
  show StableHlo.after (hostOps1 (F := Ideal)) W (Proc.devRef .tc main_v4) (ix2 0 k) = _
  after_results
  exact shapeCast_a_1a_apply (W (Proc.devRef .tc main_arg10) : S16.Idx → EReal) shapeCasts_S16_S1x16 0 k

theorem bias1_v5 (W : Valuation τ sig (Elt Ideal)) :
    row (StableHlo.after (hostOps1 (F := Ideal)) W main_v5 : S1x10.Idx → EReal) = vec (W main_arg12 : S10.Idx → EReal) := by
  funext k
  show StableHlo.after (hostOps1 (F := Ideal)) W (Proc.devRef .tc main_v5) (ix2 0 k) = _
  after_results
  exact shapeCast_a_1a_apply (W (Proc.devRef .tc main_arg12) : S10.Idx → EReal) shapeCasts_S10_S1x10 0 k

theorem keep0 (W : Valuation τ sig (Elt Ideal)) (r : Ref sig .tc) (h : r ∉ hostOps0_W) :
    StableHlo.after (hostOps0 (F := Ideal)) W r = W r :=
  StableHlo.after_of_writes_sub hostOps0 W hostOps0_writes h

theorem keep1 (W : Valuation τ sig (Elt Ideal)) (r : Ref sig .tc) (h : r ∉ hostOps1_W) :
    StableHlo.after (hostOps1 (F := Ideal)) W r = W r :=
  StableHlo.after_of_writes_sub hostOps1 W hostOps1_writes h

theorem keep2 (W : Valuation τ sig (Elt Ideal)) (r : Ref sig .tc) (h : r ∉ hostOps2_W) :
    StableHlo.after (hostOps2 (F := Ideal)) W r = W r :=
  StableHlo.after_of_writes_sub hostOps2 W hostOps2_writes h

theorem concat2 (W : Valuation τ sig (Elt Ideal)) (p : Fin 10000) (q : Fin 10) :
    (StableHlo.after (hostOps2 (F := Ideal)) W main_v7 : S10000x10.Idx → EReal) (ix2 p q)
      = if h : p.val < 5000 then (W main_v6_0 : S5000x10.Idx → EReal) (ix2 ⟨p.val, h⟩ q)
        else (W main_v6_1 : S5000x10.Idx → EReal) (ix2 ⟨p.val - 5000, by omega⟩ q) := by
  show StableHlo.after (hostOps2 (F := Ideal)) W (Proc.devRef .tc main_v7) (ix2 p q) = _
  after_results
  by_cases h : p.val < 5000
  · rw [dif_pos h]
    exact concatenate_pair_apply_left (t := S10000x10) (s₁ := S5000x10) (s₂ := S5000x10) 0
      (W (Proc.devRef .tc main_v6_0) : S5000x10.Idx → EReal) (W (Proc.devRef .tc main_v6_1) : S5000x10.Idx → EReal)
      concatenates_S5000x10_S5000x10_S10000x10_d0 (ix2 p q) rfl (ix2 ⟨p.val, h⟩ q)
      (fun b => by fin_cases b <;> rfl)
  · rw [dif_neg h]
    exact concatenate_pair_apply_right (t := S10000x10) (s₁ := S5000x10) (s₂ := S5000x10) 0
      (W (Proc.devRef .tc main_v6_0) : S5000x10.Idx → EReal) (W (Proc.devRef .tc main_v6_1) : S5000x10.Idx → EReal)
      concatenates_S5000x10_S5000x10_S10000x10_d0 (ix2 p q) rfl rfl (ix2 ⟨p.val - 5000, by omega⟩ q)
      (fun b hb => by
        fin_cases b
        · exact absurd rfl hb
        · rfl)
      (by show p.val - 5000 + 5000 = p.val; omega)

end Cert.KernelIdeal.HostReads

end
-- ==== Proof.RefSide.lean ====
/-
  The reference's result, read index by index, is the specification (`Cert.Spec.head` over `Cert.Spec.hiddenR`).

  The reference is a chain of 26 array operations. Each is read here at one row `p` and one column `q`:
  a contraction is the sum over its inner coordinate of left entry times right entry (`Cert.Spec.mm`), a bias
  broadcast is the bias at the column, an addition is the sum of the two entries, the activation is the hyperbolic
  tangent of the entry. The readings are chained bottom-up, each stage using the reading of the stage below it at a
  generic coordinate pair, so no step looks inside a sum.
-/
import proofs.«110692_g7576322310719_cont_9to1c4b_828_13_alg».proof.Proof.Gen.ReferenceIdeal.Run
import proofs.«110692_g7576322310719_cont_9to1c4b_828_13_alg».proof.Proof.Gen.ReferenceIdeal.Read
import proofs.«110692_g7576322310719_cont_9to1c4b_828_13_alg».proof.Proof.Spec
import proofs.«110692_g7576322310719_cont_9to1c4b_828_13_alg».proof.Proof.SpecIdx
import Idealize.ShloMosaic.Lib.ValueIdx

noncomputable section

namespace Cert.ReferenceIdeal.RefValue

open Cert.ReferenceIdeal Cert.ReferenceIdeal.Read Cert.Spec Idealize.ShloMosaic Idealize.ShloMosaic.ValueIdx

variable (x0 : (⟨S10000x128, .f32⟩ : BufTy).Contents (Elt Ideal)) (x1 x2 : (⟨S10000x10000, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x64, .f32⟩ : BufTy).Contents (Elt Ideal)) (x8 : (⟨S64, .f32⟩ : BufTy).Contents (Elt Ideal))
  (x9 : (⟨S64x16, .f32⟩ : BufTy).Contents (Elt Ideal)) (x10 : (⟨S16, .f32⟩ : BufTy).Contents (Elt Ideal))
  (x11 : (⟨S16x10, .f32⟩ : BufTy).Contents (Elt Ideal)) (x12 : (⟨S10, .f32⟩ : BufTy).Contents (Elt Ideal))

/-! ## The hidden layer -/

/-- The features times the first weights. -/
theorem v0_at (p : Fin 10000) (q : Fin 128) :
    val_main_v0 (F := Ideal) x0 x3 (ix2 p q) = mm (mat x0) (mat x3) p q := by
  rw [val_main_v0_apply]
  show _ = ∑ k : Fin 128, mat x0 p k * mat x3 k q
  refine Finset.sum_congr rfl fun k _ => ?_
  have el : lidx_main_v0 (ix2 p q) k = ix2 p k := funext fun a => Fin.ext (by match a with | ⟨0, _⟩ => rfl | ⟨1, _⟩ => rfl)
  have er : ridx_main_v0 (ix2 p q) k = ix2 k q := funext fun a => Fin.ext (by match a with | ⟨0, _⟩ => rfl | ⟨1, _⟩ => rfl)
  rw [el, er]
  rfl

/-- The gene adjacency times that product. -/
theorem v1_at (p : Fin 10000) (q : Fin 128) :
    val_main_v1 (F := Ideal) x0 x2 x3 (ix2 p q) = mm (mat x2) (mm (mat x0) (mat x3)) p q := by
  rw [val_main_v1_apply]
  show _ = ∑ k : Fin 10000, mat x2 p k * (mm (mat x0) (mat x3)) k q
  refine Finset.sum_congr rfl fun k _ => ?_
  have el : lidx_main_v1 (ix2 p q) k = ix2 p k := funext fun a => Fin.ext (by match a with | ⟨0, _⟩ => rfl | ⟨1, _⟩ => rfl)
  have er : ridx_main_v1 (ix2 p q) k = ix2 k q := funext fun a => Fin.ext (by match a with | ⟨0, _⟩ => rfl | ⟨1, _⟩ => rfl)
  rw [el, er, v0_at]
  rfl

/-- The first bias, spread over the rows, is the bias at the column. -/
theorem v3_at (p : Fin 10000) (q : Fin 128) : val_main_v3 (F := Ideal) x4 (ix2 p q) = vec x4 q := by
  rw [val_main_v3_apply, val_main_v2_apply]
  exact congrArg x4 (funext fun a => Fin.ext (by match a with | ⟨0, _⟩ => rfl))

/-- The propagated product plus the bias. -/
theorem v4_at (p : Fin 10000) (q : Fin 128) :
    val_main_v4 (F := Ideal) x0 x2 x3 x4 (ix2 p q) = (fun i j => mm (mat x2) (mm (mat x0) (mat x3)) i j + vec x4 j) p q := by
  rw [val_main_v4_apply, v1_at, v3_at]
  rfl

/-- Its activation. -/
theorem v5_at (p : Fin 10000) (q : Fin 128) :
    val_main_v5 (F := Ideal) x0 x2 x3 x4 (ix2 p q) = act (fun i j => mm (mat x2) (mm (mat x0) (mat x3)) i j + vec x4 j) p q := by
  rw [val_main_v5_apply, v4_at]
  rfl

/-- The hidden layer: the activation times the second weights. -/
theorem v6_at (p : Fin 10000) (q : Fin 128) :
    val_main_v6 (F := Ideal) x0 x2 x3 x4 x5 (ix2 p q) = hiddenR (mat x2) (mat x0) (mat x3) (vec x4) (mat x5) p q := by
  rw [val_main_v6_apply]
  show _ = ∑ k : Fin 128, act (fun i j => mm (mat x2) (mm (mat x0) (mat x3)) i j + vec x4 j) p k * mat x5 k q
  refine Finset.sum_congr rfl fun k _ => ?_
  have el : lidx_main_v6 (ix2 p q) k = ix2 p k := funext fun a => Fin.ext (by match a with | ⟨0, _⟩ => rfl | ⟨1, _⟩ => rfl)
  have er : ridx_main_v6 (ix2 p q) k = ix2 k q := funext fun a => Fin.ext (by match a with | ⟨0, _⟩ => rfl | ⟨1, _⟩ => rfl)
  rw [el, er, v5_at]
  rfl

/-! ## The propagation over the sample adjacency and the three dense layers -/

/-- The sample adjacency times the hidden layer. -/
theorem v7_at (p : Fin 10000) (q : Fin 128) :
    val_main_v7 (F := Ideal) x0 x1 x2 x3 x4 x5 (ix2 p q) = mm (mat x1) (hiddenR (mat x2) (mat x0) (mat x3) (vec x4) (mat x5)) p q := by
  rw [val_main_v7_apply]
  show _ = ∑ k : Fin 10000, mat x1 p k * (hiddenR (mat x2) (mat x0) (mat x3) (vec x4) (mat x5)) k q
  refine Finset.sum_congr rfl fun k _ => ?_
  have el : lidx_main_v7 (ix2 p q) k = ix2 p k := funext fun a => Fin.ext (by match a with | ⟨0, _⟩ => rfl | ⟨1, _⟩ => rfl)
  have er : ridx_main_v7 (ix2 p q) k = ix2 k q := funext fun a => Fin.ext (by match a with | ⟨0, _⟩ => rfl | ⟨1, _⟩ => rfl)
  rw [el, er, v6_at]
  rfl

/-- The second bias at the column. -/
theorem v9_at (p : Fin 10000) (q : Fin 128) : val_main_v9 (F := Ideal) x6 (ix2 p q) = vec x6 q := by
  rw [val_main_v9_apply, val_main_v8_apply]
  exact congrArg x6 (funext fun a => Fin.ext (by match a with | ⟨0, _⟩ => rfl))

/-- The propagation plus its bias. -/
theorem v10_at (p : Fin 10000) (q : Fin 128) :
    val_main_v10 (F := Ideal) x0 x1 x2 x3 x4 x5 x6 (ix2 p q) = dense (mat x1) (hiddenR (mat x2) (mat x0) (mat x3) (vec x4) (mat x5)) (vec x6) p q := by
  rw [val_main_v10_apply, v7_at, v9_at]
  rfl

/-- Its activation. -/
theorem v11_at (p : Fin 10000) (q : Fin 128) :
    val_main_v11 (F := Ideal) x0 x1 x2 x3 x4 x5 x6 (ix2 p q) = act (dense (mat x1) (hiddenR (mat x2) (mat x0) (mat x3) (vec x4) (mat x5)) (vec x6)) p q := by
  rw [val_main_v11_apply, v10_at]
  rfl

/-- The first dense layer's product. -/
theorem v12_at (p : Fin 10000) (q : Fin 64) :
    val_main_v12 (F := Ideal) x0 x1 x2 x3 x4 x5 x6 x7 (ix2 p q) = mm (act (dense (mat x1) (hiddenR (mat x2) (mat x0) (mat x3) (vec x4) (mat x5)) (vec x6))) (mat x7) p q := by
  rw [val_main_v12_apply]
  show _ = ∑ k : Fin 128, act (dense (mat x1) (hiddenR (mat x2) (mat x0) (mat x3) (vec x4) (mat x5)) (vec x6)) p k * mat x7 k q
  refine Finset.sum_congr rfl fun k _ => ?_
  have el : lidx_main_v12 (ix2 p q) k = ix2 p k := funext fun a => Fin.ext (by match a with | ⟨0, _⟩ => rfl | ⟨1, _⟩ => rfl)
  have er : ridx_main_v12 (ix2 p q) k = ix2 k q := funext fun a => Fin.ext (by match a with | ⟨0, _⟩ => rfl | ⟨1, _⟩ => rfl)
  rw [el, er, v11_at]
  rfl

/-- The first dense layer's bias at the column. -/
theorem v14_at (p : Fin 10000) (q : Fin 64) : val_main_v14 (F := Ideal) x8 (ix2 p q) = vec x8 q := by
  rw [val_main_v14_apply, val_main_v13_apply]
  exact congrArg x8 (funext fun a => Fin.ext (by match a with | ⟨0, _⟩ => rfl))

/-- The first dense layer before its activation. -/
theorem v15_at (p : Fin 10000) (q : Fin 64) :
    val_main_v15 (F := Ideal) x0 x1 x2 x3 x4 x5 x6 x7 x8 (ix2 p q) = dense (act (dense (mat x1) (hiddenR (mat x2) (mat x0) (mat x3) (vec x4) (mat x5)) (vec x6))) (mat x7) (vec x8) p q := by
  rw [val_main_v15_apply, v12_at, v14_at]
  rfl

/-- Its activation. -/
theorem v16_at (p : Fin 10000) (q : Fin 64) :
    val_main_v16 (F := Ideal) x0 x1 x2 x3 x4 x5 x6 x7 x8 (ix2 p q) = act (dense (act (dense (mat x1) (hiddenR (mat x2) (mat x0) (mat x3) (vec x4) (mat x5)) (vec x6))) (mat x7) (vec x8)) p q := by
  rw [val_main_v16_apply, v15_at]
  rfl

/-- The second dense layer's product. -/
theorem v17_at (p : Fin 10000) (q : Fin 16) :
    val_main_v17 (F := Ideal) x0 x1 x2 x3 x4 x5 x6 x7 x8 x9 (ix2 p q) = mm (act (dense (act (dense (mat x1) (hiddenR (mat x2) (mat x0) (mat x3) (vec x4) (mat x5)) (vec x6))) (mat x7) (vec x8))) (mat x9) p q := by
  rw [val_main_v17_apply]
  show _ = ∑ k : Fin 64, act (dense (act (dense (mat x1) (hiddenR (mat x2) (mat x0) (mat x3) (vec x4) (mat x5)) (vec x6))) (mat x7) (vec x8)) p k * mat x9 k q
  refine Finset.sum_congr rfl fun k _ => ?_
  have el : lidx_main_v17 (ix2 p q) k = ix2 p k := funext fun a => Fin.ext (by match a with | ⟨0, _⟩ => rfl | ⟨1, _⟩ => rfl)
  have er : ridx_main_v17 (ix2 p q) k = ix2 k q := funext fun a => Fin.ext (by match a with | ⟨0, _⟩ => rfl | ⟨1, _⟩ => rfl)
  rw [el, er, v16_at]
  rfl

/-- The second dense layer's bias at the column. -/
theorem v19_at (p : Fin 10000) (q : Fin 16) : val_main_v19 (F := Ideal) x10 (ix2 p q) = vec x10 q := by
  rw [val_main_v19_apply, val_main_v18_apply]
  exact congrArg x10 (funext fun a => Fin.ext (by match a with | ⟨0, _⟩ => rfl))

/-- The second dense layer before its activation. -/
theorem v20_at (p : Fin 10000) (q : Fin 16) :
    val_main_v20 (F := Ideal) x0 x1 x2 x3 x4 x5 x6 x7 x8 x9 x10 (ix2 p q) = dense (act (dense (act (dense (mat x1) (hiddenR (mat x2) (mat x0) (mat x3) (vec x4) (mat x5)) (vec x6))) (mat x7) (vec x8))) (mat x9) (vec x10) p q := by
  rw [val_main_v20_apply, v17_at, v19_at]
  rfl

/-- Its activation. -/
theorem v21_at (p : Fin 10000) (q : Fin 16) :
    val_main_v21 (F := Ideal) x0 x1 x2 x3 x4 x5 x6 x7 x8 x9 x10 (ix2 p q) = act (dense (act (dense (act (dense (mat x1) (hiddenR (mat x2) (mat x0) (mat x3) (vec x4) (mat x5)) (vec x6))) (mat x7) (vec x8))) (mat x9) (vec x10)) p q := by
  rw [val_main_v21_apply, v20_at]
  rfl

/-- The last layer's product. -/
theorem v22_at (p : Fin 10000) (q : Fin 10) :
    val_main_v22 (F := Ideal) x0 x1 x2 x3 x4 x5 x6 x7 x8 x9 x10 x11 (ix2 p q) = mm (act (dense (act (dense (act (dense (mat x1) (hiddenR (mat x2) (mat x0) (mat x3) (vec x4) (mat x5)) (vec x6))) (mat x7) (vec x8))) (mat x9) (vec x10))) (mat x11) p q := by
  rw [val_main_v22_apply]
  show _ = ∑ k : Fin 16, act (dense (act (dense (act (dense (mat x1) (hiddenR (mat x2) (mat x0) (mat x3) (vec x4) (mat x5)) (vec x6))) (mat x7) (vec x8))) (mat x9) (vec x10)) p k * mat x11 k q
  refine Finset.sum_congr rfl fun k _ => ?_
  have el : lidx_main_v22 (ix2 p q) k = ix2 p k := funext fun a => Fin.ext (by match a with | ⟨0, _⟩ => rfl | ⟨1, _⟩ => rfl)
  have er : ridx_main_v22 (ix2 p q) k = ix2 k q := funext fun a => Fin.ext (by match a with | ⟨0, _⟩ => rfl | ⟨1, _⟩ => rfl)
  rw [el, er, v21_at]
  rfl

/-- The last bias at the column. -/
theorem v24_at (p : Fin 10000) (q : Fin 10) : val_main_v24 (F := Ideal) x12 (ix2 p q) = vec x12 q := by
  rw [val_main_v24_apply, val_main_v23_apply]
  exact congrArg x12 (funext fun a => Fin.ext (by match a with | ⟨0, _⟩ => rfl))

/-! ## The result -/

/-- The reference's result at row `p`, column `q` is the specification's head over the reference's hidden layer. -/
theorem result_apply (p : Fin 10000) (q : Fin 10) :
    val_main_v25 (F := Ideal) x0 x1 x2 x3 x4 x5 x6 x7 x8 x9 x10 x11 x12 (ix2 p q)
      = head (mat x1) (hiddenR (mat x2) (mat x0) (mat x3) (vec x4) (mat x5)) (vec x6) (mat x7) (vec x8) (mat x9) (vec x10) (mat x11) (vec x12) p q := by
  rw [val_main_v25_apply, v22_at, v24_at]
  rfl

end Cert.ReferenceIdeal.RefValue

end
-- ==== Proof.AssocLaw.lean ====
/-
  The associativity of the hidden layer's two matrix products, and the finiteness it rests on.

  * `hiddenK_eq_hiddenR`: over matrices whose entries are all real numbers, `(G · x) · W = G · (x · W)`, because the
    finite sums are then sums of reals, where multiplication distributes over them and is associative. (On the
    extended reals this fails: `⊤ · (1 + (-1)) ≠ ⊤ · 1 + ⊤ · (-1)`.) Hence the two hidden layers agree.
  * `real_of_pre`: the precondition says of every argument `|a| < +∞` entrywise; an extended real whose absolute value
    is below `⊤` is neither `⊤` nor `⊥`, so it is a real.
-/
import proofs.«110692_g7576322310719_cont_9to1c4b_828_13_alg».proof.Proof.SpecIdx
import proofs.«110692_g7576322310719_cont_9to1c4b_828_13_alg».proof.Pre_finite_inputs
import Idealize.ShloMosaic.Lib.ReduceAll
import Idealize.ShloMosaic.Lib.ValueIdx

noncomputable section

namespace Cert.Assoc

open Cert.Spec Idealize.ShloMosaic Idealize.ShloMosaic.ValueIdx

/-! ## The law -/

/-- The coercion of the reals into the extended reals goes through a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The matrix product of real matrices is associative. -/
theorem mm_assoc {I : Type} {N D D' : ℕ} (G : I → Fin N → EReal) (x : Fin N → Fin D → EReal) (Ws : Fin D → Fin D' → EReal)
    (hG : ∀ i j, ∃ r : ℝ, G i j = (r : EReal)) (hx : ∀ j k, ∃ r : ℝ, x j k = (r : EReal))
    (hW : ∀ k l, ∃ r : ℝ, Ws k l = (r : EReal)) :
    mm (mm G x) Ws = mm G (mm x Ws) := by
  choose g hg using hG
  choose y hy using hx
  choose w hw using hW
  funext i l
  show ∑ k : Fin D, (∑ j : Fin N, G i j * x j k) * Ws k l = ∑ j : Fin N, G i j * ∑ k : Fin D, x j k * Ws k l
  have hL : ∑ k : Fin D, (∑ j : Fin N, G i j * x j k) * Ws k l
      = ((∑ k : Fin D, (∑ j : Fin N, g i j * y j k) * w k l : ℝ) : EReal) := by
    rw [coe_sum]
    refine Finset.sum_congr rfl fun k _ => ?_
    rw [EReal.coe_mul, coe_sum, hw]
    refine congrArg (· * (w k l : EReal)) (Finset.sum_congr rfl fun j _ => ?_)
    rw [EReal.coe_mul, hg, hy]
  have hR : ∑ j : Fin N, G i j * ∑ k : Fin D, x j k * Ws k l
      = ((∑ j : Fin N, g i j * ∑ k : Fin D, y j k * w k l : ℝ) : EReal) := by
    rw [coe_sum]
    refine Finset.sum_congr rfl fun j _ => ?_
    rw [EReal.coe_mul, coe_sum, hg]
    refine congrArg ((g i j : EReal) * ·) (Finset.sum_congr rfl fun k _ => ?_)
    rw [EReal.coe_mul, hy, hw]
  rw [hL, hR]
  refine congrArg (fun r : ℝ => (r : EReal)) ?_
  simp only [Finset.sum_mul, Finset.mul_sum]
  rw [Finset.sum_comm]
  refine Finset.sum_congr rfl fun j _ => Finset.sum_congr rfl fun k _ => ?_
  exact mul_assoc _ _ _

/-- Over real matrices the hidden layer is the same whichever product is taken first. -/
theorem hiddenK_eq_hiddenR {I : Type} {N D D' D'' : ℕ} (G : I → Fin N → EReal) (x : Fin N → Fin D → EReal)
    (Ws : Fin D → Fin D' → EReal) (bs : Fin D' → EReal) (Wf : Fin D' → Fin D'' → EReal)
    (hG : ∀ i j, ∃ r : ℝ, G i j = (r : EReal)) (hx : ∀ j k, ∃ r : ℝ, x j k = (r : EReal))
    (hW : ∀ k l, ∃ r : ℝ, Ws k l = (r : EReal)) :
    hiddenK G x Ws bs Wf = hiddenR G x Ws bs Wf := by
  unfold hiddenK hiddenR dense
  rw [mm_assoc G x Ws hG hx hW]

/-! ## Finiteness from the precondition -/

/-- An extended real whose absolute value is below `+∞` is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

instance : Subsingleton Cert.Pre_finite_inputs.S_.Idx := ⟨fun a b => funext fun d => d.elim0⟩

/-- A conjunction of two truth values, read at an index, that is true has both conjuncts true there. -/
theorem and_at {s : Shape} {p q : IVec s 1} {i : s.Idx} (h : andi p q i = 1#1) : p i = 1#1 ∧ q i = 1#1 := by
  change IntOp.andi (p i) (q i) = 1#1 at h
  exact IntOp.andi_eq_one.1 h

open Cert.Pre_finite_inputs in
/-- One conjunct of the precondition: if `|a| < +∞` holds at every entry of `a`, every entry of `a` is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ix0 = 1#1) (i : s.Idx) : ∃ r : ℝ, a i = (r : EReal) :=
  real_of_abs_lt_inf (a i) (Host.reduce_andi_all _ _ hr hu ix0 h i)

open Cert.Pre_finite_inputs in
/-- Under the precondition, every entry of the gene adjacency, of the features and of the first weight matrix is a real. -/
theorem real_of_pre [Cert.Pre_finite_inputs.Facts]
    (a0 : FVec Ideal S10000x128 .f32) (a1 a2 : FVec Ideal S10000x10000 .f32) (a3 : FVec Ideal S128x128 .f32)
    (a4 : FVec Ideal S128 .f32) (a5 : FVec Ideal S128x128 .f32) (a6 : FVec Ideal S128 .f32) (a7 : FVec Ideal S128x64 .f32)
    (a8 : FVec Ideal S64 .f32) (a9 : FVec Ideal S64x16 .f32) (a10 : FVec Ideal S16 .f32) (a11 : FVec Ideal S16x10 .f32)
    (a12 : FVec Ideal S10 .f32)
    (h : Cert.Pre_finite_inputs.fn (F := Ideal) a0 a1 a2 a3 a4 a5 a6 a7 a8 a9 a10 a11 a12 = fun _ => 1#1) :
    (∀ i, ∃ r : ℝ, a2 i = (r : EReal)) ∧ (∀ i, ∃ r : ℝ, a0 i = (r : EReal)) ∧ (∀ i, ∃ r : ℝ, a3 i = (r : EReal)) := by
  have h0 := congrFun h ix0
  dsimp only [Cert.Pre_finite_inputs.fn, fn_part1, fn_part2, fn_part3] at h0
  -- the conjuncts of the last nine arguments are not needed
  obtain ⟨h0, -⟩ := and_at h0
  obtain ⟨h0, -⟩ := and_at h0
  obtain ⟨h0, -⟩ := and_at h0
  obtain ⟨h0, -⟩ := and_at h0
  obtain ⟨h0, -⟩ := and_at h0
  obtain ⟨h0, -⟩ := and_at h0
  obtain ⟨h0, -⟩ := and_at h0
  obtain ⟨h0, -⟩ := and_at h0
  obtain ⟨h0, -⟩ := and_at h0
  -- the fourth, the third and the first
  obtain ⟨h0, h3⟩ := and_at h0
  obtain ⟨h0, h2⟩ := and_at h0
  obtain ⟨h0, -⟩ := and_at h0
  exact ⟨real_of_all a2 _ _ _ h2, real_of_all a0 _ _ _ h0, real_of_all a3 _ _ _ h3⟩

end Cert.Assoc

end
-- ==== Proof.IdealResult.lean ====
/-
  The value of the idealized kernel's result, on the extended reals, and its equality with the reference's.

  The result buffer ends at the concatenation of stage two's two outputs. Row `p` of it is the head — one propagation
  over the sample adjacency and three dense layers — of row `p` of the adjacency and the WHOLE hidden array, which stage
  two's scratch holds as stage one's two outputs laid one over the other; and row `j` of the hidden array is
  `tanh ((G · x) · W_s + b_s) · W_f` at row `j` of the gene adjacency `G` (`hiddenK`). The reference computes the same
  head over `tanh (G · (x · W_s) + b_s) · W_f` (`hiddenR`); the two hidden layers agree because matrix multiplication
  associates on REAL entries, and the precondition makes every entry of `G`, `x` and `W_s` real.
-/
import proofs.«110692_g7576322310719_cont_9to1c4b_828_13_alg».proof.Proof.IdealFold
import proofs.«110692_g7576322310719_cont_9to1c4b_828_13_alg».proof.Proof.IdealStage1Value
import proofs.«110692_g7576322310719_cont_9to1c4b_828_13_alg».proof.Proof.IdealStage2Value
import proofs.«110692_g7576322310719_cont_9to1c4b_828_13_alg».proof.Proof.IdealHostReads
import proofs.«110692_g7576322310719_cont_9to1c4b_828_13_alg».proof.Proof.RefSide
import proofs.«110692_g7576322310719_cont_9to1c4b_828_13_alg».proof.Proof.AssocLaw

set_option maxRecDepth 16384

noncomputable section

namespace Cert.KernelIdeal.Result

open Idealize.ShloMosaic Idealize.ShloMosaic.TcCoe Idealize.SL.Sem
open Idealize.ShloMosaic.ValueIdx
open Cert.KernelIdeal Cert.KernelIdeal.Gen Cert.KernelIdeal.Launch Cert.KernelIdeal.HostReads
open Cert.Spec

variable (m : (ℓ : Loc nD τ sig) → Buf (Elt Ideal) ℓ)

/-- A matrix entry is the array's entry at the pair of coordinates. -/
theorem mat_apply {n0 n1 : ℕ} (v : (⟨2, ![n0, n1]⟩ : Shape).Idx → EReal) (i : Fin n0) (j : Fin n1) : mat v i j = v (ix2 i j) := rfl

/-! ## The arguments as the regions find them -/

/-- A buffer the first reshape does not write is as launched when stage one is entered. -/
theorem E1_keep (c : Dev nD) (r : Ref sig .tc) (h : r ∉ hostOps0_W) : E1 m c r = m ((c.tc : Thread nD τ).loc r) :=
  keep0 (Gen.V0 m c) r h

/-- An argument is as launched when stage two is entered. -/
theorem E3_keep (c : Dev nD) (r : Ref sig .tc) (h1 : r ∉ hostOps1_W) (hA : r ≠ main_v1_0) (hB : r ≠ main_v1_1) (h0 : r ∉ hostOps0_W) :
    E3 m c r = m ((c.tc : Thread nD τ).loc r) :=
  (keep1 (W2 m c) r h1).trans ((W2_of_ne m c r hA hB).trans (keep0 (Gen.V0 m c) r h0))

/-- The bias rows are the bias vectors. -/
theorem E1_bias (c : Dev nD) : row (E1 m c main_v0) = vec (m ((c.tc : Thread nD τ).loc main_arg4)) := bias0 (Gen.V0 m c)

theorem W2_keep (c : Dev nD) (r : Ref sig .tc) (hA : r ≠ main_v1_0) (hB : r ≠ main_v1_1) (h0 : r ∉ hostOps0_W) :
    W2 m c r = m ((c.tc : Thread nD τ).loc r) :=
  (W2_of_ne m c r hA hB).trans (keep0 (Gen.V0 m c) r h0)

theorem E3_bias2 (c : Dev nD) : row (E3 m c main_v2) = vec (m ((c.tc : Thread nD τ).loc main_arg6)) :=
  (bias1_v2 (W2 m c)).trans (congrArg vec (W2_keep m c main_arg6 (by decide) (by decide) (by decide)))
theorem E3_bias3 (c : Dev nD) : row (E3 m c main_v3) = vec (m ((c.tc : Thread nD τ).loc main_arg8)) :=
  (bias1_v3 (W2 m c)).trans (congrArg vec (W2_keep m c main_arg8 (by decide) (by decide) (by decide)))
theorem E3_bias4 (c : Dev nD) : row (E3 m c main_v4) = vec (m ((c.tc : Thread nD τ).loc main_arg10)) :=
  (bias1_v4 (W2 m c)).trans (congrArg vec (W2_keep m c main_arg10 (by decide) (by decide) (by decide)))
theorem E3_bias5 (c : Dev nD) : row (E3 m c main_v5) = vec (m ((c.tc : Thread nD τ).loc main_arg12)) :=
  (bias1_v5 (W2 m c)).trans (congrArg vec (W2_keep m c main_arg12 (by decide) (by decide) (by decide)))

/-! ## The hidden array -/

/-- The hidden layer of all 10000 rows, in the kernel's association, of the launch arguments. -/
def hiddenOf (c : Dev nD) : Fin 10000 → Fin 128 → EReal :=
  hiddenK (mat (m ((c.tc : Thread nD τ).loc main_arg2))) (mat (m ((c.tc : Thread nD τ).loc main_arg0))) (mat (m ((c.tc : Thread nD τ).loc main_arg3)))
    (vec (m ((c.tc : Thread nD τ).loc main_arg4))) (mat (m ((c.tc : Thread nD τ).loc main_arg5)))

/-- Stage one's first output is the hidden layer's rows 0–4999, -/
theorem hidA_apply (c : Dev nD) (i : Fin 5000) (l : Fin 128) :
    hidA m c (ix2 i l) = hiddenOf m c (Fin.castLE (by decide : 5000 ≤ 10000) i) l := by
  rw [hidA_def, Stage1.hidden_lo (E1 m) c i l, E1_bias,
    E1_keep m c main_arg2 (by decide), E1_keep m c main_arg0 (by decide), E1_keep m c main_arg3 (by decide), E1_keep m c main_arg5 (by decide)]
  rfl

/-- its second output rows 5000–9999. -/
theorem hidB_apply (c : Dev nD) (i : Fin 5000) (l : Fin 128) :
    hidB m c (ix2 i l) = hiddenOf m c ⟨i.val + 5000, by omega⟩ l := by
  rw [hidB_def, Stage1.hidden_hi (E1 m) c i l, E1_bias,
    E1_keep m c main_arg2 (by decide), E1_keep m c main_arg0 (by decide), E1_keep m c main_arg3 (by decide), E1_keep m c main_arg5 (by decide)]
  rfl

/-- So the scratch of stage two holds the whole hidden layer. -/
theorem hiddenAll_eq (c : Dev nD) : mat (Stage2.hiddenAll (E3 m) c) = hiddenOf m c := by
  funext j l
  rw [mat_apply, Stage2.hiddenAll_apply (E3 m) c j l]
  have hA : E3 m c main_v1_0 = hidA m c := (keep1 (W2 m c) main_v1_0 (by decide)).trans (W2_hidA m c)
  have hB : E3 m c main_v1_1 = hidB m c := (keep1 (W2 m c) main_v1_1 (by decide)).trans (W2_hidB m c)
  by_cases h : j.val < 5000
  · rw [dif_pos h, hA, hidA_apply]
    exact congrArg (fun r => hiddenOf m c r l) (Fin.ext rfl)
  · rw [dif_neg h, hB, hidB_apply]
    exact congrArg (fun r => hiddenOf m c r l) (Fin.ext (by show j.val - 5000 + 5000 = j.val; omega))

/-! ## The result -/

/-- The kernel's result, row by row: the head over the launch arguments and the hidden layer. -/
def resultOf (c : Dev nD) : Fin 10000 → Fin 10 → EReal :=
  head (mat (m ((c.tc : Thread nD τ).loc main_arg1))) (hiddenOf m c) (vec (m ((c.tc : Thread nD τ).loc main_arg6)))
    (mat (m ((c.tc : Thread nD τ).loc main_arg7))) (vec (m ((c.tc : Thread nD τ).loc main_arg8)))
    (mat (m ((c.tc : Thread nD τ).loc main_arg9))) (vec (m ((c.tc : Thread nD τ).loc main_arg10)))
    (mat (m ((c.tc : Thread nD τ).loc main_arg11))) (vec (m ((c.tc : Thread nD τ).loc main_arg12)))

theorem outA_apply (c : Dev nD) (i : Fin 5000) (q : Fin 10) :
    outA m c (ix2 i q) = resultOf m c (Fin.castLE (by decide : 5000 ≤ 10000) i) q := by
  rw [outA_def, Stage2.out_lo (E3 m) c i q, hiddenAll_eq, E3_bias2, E3_bias3, E3_bias4, E3_bias5,
    E3_keep m c main_arg1 (by decide) (by decide) (by decide) (by decide), E3_keep m c main_arg7 (by decide) (by decide) (by decide) (by decide),
    E3_keep m c main_arg9 (by decide) (by decide) (by decide) (by decide), E3_keep m c main_arg11 (by decide) (by decide) (by decide) (by decide)]
  rfl

theorem outB_apply (c : Dev nD) (i : Fin 5000) (q : Fin 10) :
    outB m c (ix2 i q) = resultOf m c ⟨i.val + 5000, by omega⟩ q := by
  rw [outB_def, Stage2.out_hi (E3 m) c i q, hiddenAll_eq, E3_bias2, E3_bias3, E3_bias4, E3_bias5,
    E3_keep m c main_arg1 (by decide) (by decide) (by decide) (by decide), E3_keep m c main_arg7 (by decide) (by decide) (by decide) (by decide),
    E3_keep m c main_arg9 (by decide) (by decide) (by decide) (by decide), E3_keep m c main_arg11 (by decide) (by decide) (by decide) (by decide)]
  rfl

/-- The result buffer at the end, entry by entry. -/
theorem result_apply (c : Dev nD) (p : Fin 10000) (q : Fin 10) : W5 m c main_v7 (ix2 p q) = resultOf m c p q := by
  refine (concat2 (W4 m c) p q).trans ?_
  by_cases h : p.val < 5000
  · rw [dif_pos h, W4_outA, outA_apply]
    exact congrArg (fun r => resultOf m c r q) (Fin.ext rfl)
  · rw [dif_neg h, W4_outB, outB_apply]
    exact congrArg (fun r => resultOf m c r q) (Fin.ext (by show p.val - 5000 + 5000 = p.val; omega))

end Cert.KernelIdeal.Result

end
-- ==== Proof.IdealResultRun.lean ====
/-
  The same run of the idealized kernel's @main, also naming what the result buffer ends holding: the last boundary's
  contents `W5` — the copy of the generated conditional frame that names the result, at the same records.
-/
import proofs.«110692_g7576322310719_cont_9to1c4b_828_13_alg».proof.Proof.IdealFrames
import proofs.«110692_g7576322310719_cont_9to1c4b_828_13_alg».proof.Proof.IdealResultFrame

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The same run, also naming what the result buffer ends holding. -/
theorem run_result : θ_run defs (onTc (τ := τ) (main (F := F))) ⟨m, fun _ => 0, ρ⟩ (fun r => ∀ c : Dev nD,
      r.2.mem ((c.tc : Thread nD τ).loc main_v7) = W5 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (by rw [V5_eq]), (h c).2⟩)
    (GenP.frame_cond_result m emb₁ () Variants.none Lz lvz (fun _ _ => rfl) ρ (outs m) (pdats m) 0 (fun _ => iprop(emp))
      (initOf (Pipeline.cells cfgs cellOf_inj) (Pipeline.launchToks cfgs cellOf_inj)) launch_elt
      (fun _ c => R c) (first_rest ρ) (fun c => by iintro ⟨-, HO⟩; iexact HO)
      (reg0 m) (fun c => .rfl) (fun c => by rw [V2_eq]; exact .rfl)
      (reg1 m) (fun c => by rw [V3_eq]; exact .rfl) (fun c => by rw [V4_eq]; exact .rfl))

end Cert.KernelIdeal.Launch

end
-- ==== Proof.IdealClaims.lean ====
/-
  The two idealized programs end with equal results: the reference's result, read entry by entry, is the head over
  the reference's hidden layer; the kernel's is the head over the kernel's; the two hidden layers agree on finite inputs.
-/
import proofs.«110692_g7576322310719_cont_9to1c4b_828_13_alg».proof.Defs
import proofs.«110692_g7576322310719_cont_9to1c4b_828_13_alg».proof.Proof.IdealResult
import proofs.«110692_g7576322310719_cont_9to1c4b_828_13_alg».proof.Proof.IdealResultRun
import proofs.«110692_g7576322310719_cont_9to1c4b_828_13_alg».proof.Proof.Gen.Pre_finite_inputs

set_option maxRecDepth 16384

noncomputable section

namespace Cert.KernelIdeal.Result

open Idealize.ShloMosaic Idealize.ShloMosaic.TcCoe Idealize.SL.Sem
open Idealize.ShloMosaic.ValueIdx
open Cert.KernelIdeal Cert.KernelIdeal.Gen Cert.KernelIdeal.Launch
open Cert.Spec

variable (m : (ℓ : Loc nD τ sig) → Buf (Elt Ideal) ℓ)

/-- On finite inputs the reference's result term, at the kernel's launch arguments, is what the kernel's result
    buffer ends holding. -/
theorem ref_eq_result (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = fun _ => 1#1) :
    Cert.ReferenceIdeal.Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = W5 m c main_v7 := by
  obtain ⟨hG, hx, hW⟩ := Cert.Assoc.real_of_pre _ _ _ _ _ _ _ _ _ _ _ _ _ hpre
  refine funext fun i => ?_
  obtain ⟨p, q, rfl⟩ : ∃ (p : Fin 10000) (q : Fin 10), i = ix2 p q := ⟨i 0, i 1, eq_ix2 i⟩
  rw [Cert.ReferenceIdeal.RefValue.result_apply, result_apply]
  unfold resultOf hiddenOf
  rw [Cert.Assoc.hiddenK_eq_hiddenR (mat (m ((c.tc : Thread nD τ).loc main_arg2))) (mat (m ((c.tc : Thread nD τ).loc main_arg0)))
    (mat (m ((c.tc : Thread nD τ).loc main_arg3))) (vec (m ((c.tc : Thread nD τ).loc main_arg4))) (mat (m ((c.tc : Thread nD τ).loc main_arg5)))
    (fun a b => hG (ix2 a b)) (fun a b => hx (ix2 a b)) (fun a b => hW (ix2 a b))]

/-- THE VALUE CLAIM. -/
theorem algebraic : Cert.algebraic_KernelIdeal_ReferenceIdeal := by
  intro m ρ m' ρ' hpre hagree
  refine ⟨fun c => W5 m c main_v7, Launch.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [h0, h1, h2, h3, h4, h5, h6, h7, h8, h9, h10, h11, h12]
  exact (Cert.ReferenceIdeal.Read.val_main_v25_eq _ _ _ _ _ _ _ _ _ _ _ _ _).trans (ref_eq_result m c (hpre c))

end Cert.KernelIdeal.Result

end
-- ==== Proof.lean ====
/-
  The certificate of the two-stage graph network kernel against its reference.

  The kernel runs two pipelined calls over 25 grid points each. Stage one computes the hidden layer
  `tanh ((G · x) · W_s + b_s) · W_f` of 200 rows of the gene adjacency `G` at a time, twice per point (rows `200 t …` and
  rows `5000 + 200 t …`, two windows on one array), into two half arrays. Stage two copies the two halves into one
  scratch buffer at its first point and then, per point and twice, propagates 200 rows of the sample adjacency over the
  whole hidden array and applies three dense layers; its two half results are concatenated. The reference computes
  `tanh (G · (x · W_s) + b_s) · W_f` and the same head. At the ideal instance the two agree entry by entry because the
  matrix product associates on real entries, which the precondition (every input finite) provides.

  The three frames: each kernel program's from the generated conditional frame of its @main, at the two regions'
  records (the body of each stage run symbolically; the shared adjacency array split into two half shares at a region's
  entry and joined at its exit); the reference's from its generated run. The idealization rewrote nothing, so
  `preserves` has nothing to state.
-/
import proofs.«110692_g7576322310719_cont_9to1c4b_828_13_alg».proof.Defs
import proofs.«110692_g7576322310719_cont_9to1c4b_828_13_alg».proof.Proof.Gen.Kernel
import proofs.«110692_g7576322310719_cont_9to1c4b_828_13_alg».proof.Proof.Gen.KernelIdeal
import proofs.«110692_g7576322310719_cont_9to1c4b_828_13_alg».proof.Proof.Gen.ReferenceIdeal
import proofs.«110692_g7576322310719_cont_9to1c4b_828_13_alg».proof.Proof.Gen.Pre_finite_inputs
import proofs.«110692_g7576322310719_cont_9to1c4b_828_13_alg».proof.Proof.Gen.ReferenceIdeal.Run
import proofs.«110692_g7576322310719_cont_9to1c4b_828_13_alg».proof.Proof.BitsFrames
import proofs.«110692_g7576322310719_cont_9to1c4b_828_13_alg».proof.Proof.IdealFrames
import proofs.«110692_g7576322310719_cont_9to1c4b_828_13_alg».proof.Proof.IdealClaims

noncomputable section

namespace Cert.Proof

open Idealize.ShloMosaic Idealize.SL.Sem

theorem frame_kernel : Cert.frame_Kernel := fun m ρ _ => Cert.Kernel.Launch.frame m ρ

theorem frame_kernel_ideal : Cert.frame_KernelIdeal := fun m ρ _ => Cert.KernelIdeal.Launch.frame m ρ

/-- The reference has no kernel: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, Cert.KernelIdeal.Result.algebraic⟩

end Cert.Proof

end
